-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x2048 : Shape := ⟨3, ![32, 512, 2048]⟩
abbrev S32x512 : Shape := ⟨2, ![32, 512]⟩
abbrev S1x2048 : Shape := ⟨2, ![1, 2048]⟩
abbrev S1 : Shape := ⟨1, ![1]⟩
abbrev S1024x2048 : Shape := ⟨2, ![1024, 2048]⟩
abbrev S1024 : Shape := ⟨1, ![1024]⟩
abbrev S_ : Shape := ⟨0, ![]⟩

class Facts : Prop where
  bcast_S_S32x512x2048 : S_.BroadcastsInDim S32x512x2048 (![] : Fin 0 → Fin S32x512x2048.rank)
  reducesTo_S32x512x2048_S_d0_1_2 : S32x512x2048.ReducesTo [0, 1, 2] S_
  h_S_ : 0 < S_.numel
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg6 : FVec F S1024 .f32) (main_arg7 : FVec F S1024x2048 .f32) (main_arg8 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg6
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg7
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg8
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S32x512x2048 .f32) (main_arg1 : IVec S32x512 32) (main_arg2 : IVec S32x512 32) (main_arg3 : FVec F S1x2048 .f32) (main_arg4 : FVec F S1 .f32) (main_arg5 : FVec F S1024x2048 .f32) (main_arg6 : FVec F S1024 .f32) (main_arg7 : FVec F S1024x2048 .f32) (main_arg8 : FVec F S1024 .f32) : IVec S_ 1 :=
  let main_v0 : FVec F S32x512x2048 .f32 := Host.absf main_arg0
  let main_cst : FVec F S_ .f32 := constant S_ .f32 0x7F800000#32
  let main_v1 : FVec F S32x512x2048 .f32 := broadcastInDim S32x512x2048 ![] bcast_S_S32x512x2048 main_cst
  let main_v2 : IVec S32x512x2048 1 := cmpf .olt main_v0 main_v1
  let main_c : IVec S_ 1 := constantI S_ 1 1#1
  let main_v3 : IVec S_ 1 := (fun x v => Host.reduce IntOp.andi x v reducesTo_S32x512x2048_S_d0_1_2 h_S_) main_v2 main_c
  let main_v4 : FVec F S1x2048 .f32 := Host.absf main_arg3
  let main_cst_0 : FVec F S_ .f32 := constant S_ .f32 0x7F800000#32
  let main_v5 : FVec F S1x2048 .f32 := broadcastInDim S1x2048 ![] bcast_S_S1x2048 main_cst_0
  let main_v6 : IVec S1x2048 1 := cmpf .olt main_v4 main_v5
  let main_c_1 : IVec S_ 1 := constantI S_ 1 1#1
  let main_v7 : IVec S_ 1 := (fun x v => Host.reduce IntOp.andi x v reducesTo_S1x2048_S_d0_1 h_S_) main_v6 main_c_1
  let main_v8 : IVec S_ 1 := andi main_v3 main_v7
  let main_v9 : FVec F S1 .f32 := Host.absf main_arg4
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1024x2048 .f32 := Host.absf main_arg5
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg6 main_arg7 main_arg8 main_v13 main_v16
-- ==== Kernel.lean ====
abbrev S32x512x2048 : Shape := ⟨3, ![32, 512, 2048]⟩
abbrev S32x512 : Shape := ⟨2, ![32, 512]⟩
abbrev S1x2048 : Shape := ⟨2, ![1, 2048]⟩
abbrev S1 : Shape := ⟨1, ![1]⟩
abbrev S1024x2048 : Shape := ⟨2, ![1024, 2048]⟩
abbrev S1024 : Shape := ⟨1, ![1024]⟩
abbrev S16384x2048 : Shape := ⟨2, ![16384, 2048]⟩
abbrev S16384x1 : Shape := ⟨2, ![16384, 1]⟩
abbrev S_ : Shape := ⟨0, ![]⟩
abbrev S128x2048 : Shape := ⟨2, ![128, 2048]⟩
abbrev S2176x2048 : Shape := ⟨2, ![2176, 2048]⟩
abbrev S2048x2176 : Shape := ⟨2, ![2048, 2176]⟩
abbrev S128 : Shape := ⟨1, ![128]⟩
abbrev S2176 : Shape := ⟨1, ![2176]⟩
abbrev S1x2176 : Shape := ⟨2, ![1, 2176]⟩
abbrev S16384x2176 : Shape := ⟨2, ![16384, 2176]⟩
abbrev S256x2048 : Shape := ⟨2, ![256, 2048]⟩
abbrev S256x1 : Shape := ⟨2, ![256, 1]⟩
abbrev S256x2176 : Shape := ⟨2, ![256, 2176]⟩
abbrev S256x1024 : Shape := ⟨2, ![256, 1024]⟩
abbrev S256 : Shape := ⟨1, ![256]⟩
abbrev S256x2 : Shape := ⟨2, ![256, 2]⟩
abbrev S256x126 : Shape := ⟨2, ![256, 126]⟩
abbrev S256x128 : Shape := ⟨2, ![256, 128]⟩
abbrev S16384x2050 : Shape := ⟨2, ![16384, 2050]⟩
abbrev S32x512x2050 : Shape := ⟨3, ![32, 512, 2050]⟩

abbrev nBuf : Space → Nat
  | .hbm => 33
  | .vmem => 12
  | .smem => 0
  | _ => 0

abbrev bufTy : (tb : Table) → Fin (tcTables nBuf tb) → BufTy
  | .hbm, ⟨0, _⟩ => ⟨S32x512x2048, .f32⟩
  | .hbm, ⟨1, _⟩ => ⟨S32x512, .i32⟩
  | .hbm, ⟨2, _⟩ => ⟨S32x512, .i32⟩
  | .hbm, ⟨3, _⟩ => ⟨S1x2048, .f32⟩
  | .hbm, ⟨4, _⟩ => ⟨S1, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S16384x2048, .f32⟩
  | .hbm, ⟨10, _⟩ => ⟨S16384x1, .i32⟩
  | .hbm, ⟨11, _⟩ => ⟨S16384x1, .i32⟩
  | .hbm, ⟨12, _⟩ => ⟨S_, .f32⟩
  | .hbm, ⟨13, _⟩ => ⟨S128x2048, .f32⟩
  | .hbm, ⟨14, _⟩ => ⟨S_, .i32⟩
  | .hbm, ⟨15, _⟩ => ⟨S1, .i32⟩
  | .hbm, ⟨16, _⟩ => ⟨S128x2048, .f32⟩
  | .hbm, ⟨17, _⟩ => ⟨S2176x2048, .f32⟩
  | .hbm, ⟨18, _⟩ => ⟨S2048x2176, .f32⟩
  | .hbm, ⟨19, _⟩ => ⟨S2048x2176, .bf16⟩
  | .hbm, ⟨20, _⟩ => ⟨S_, .f32⟩
  | .hbm, ⟨21, _⟩ => ⟨S128, .f32⟩
  | .hbm, ⟨22, _⟩ => ⟨S_, .f32⟩
  | .hbm, ⟨23, _⟩ => ⟨S_, .i32⟩
  | .hbm, ⟨24, _⟩ => ⟨S1, .i32⟩
  | .hbm, ⟨25, _⟩ => ⟨S128, .f32⟩
  | .hbm, ⟨26, _⟩ => ⟨S2176, .f32⟩
  | .hbm, ⟨27, _⟩ => ⟨S1x2176, .f32⟩
  | .hbm, ⟨28, _⟩ => ⟨S16384x1, .f32⟩
  | .hbm, ⟨29, _⟩ => ⟨S16384x2176, .f32⟩
  | .hbm, ⟨30, _⟩ => ⟨S32x512, .f32⟩
  | .hbm, ⟨31, _⟩ => ⟨S16384x2050, .f32⟩
  | .hbm, ⟨32, _⟩ => ⟨S32x512x2050, .f32⟩
  | .local _ .vmem, ⟨0, _⟩ => ⟨S256x2048, .f32⟩
  | .local _ .vmem, ⟨1, _⟩ => ⟨S256x2048, .f32⟩
  | .local _ .vmem, ⟨2, _⟩ => ⟨S256x1, .i32⟩
  | .local _ .vmem, ⟨3, _⟩ => ⟨S256x1, .i32⟩
  | .local _ .vmem, ⟨4, _⟩ => ⟨S256x1, .i32⟩
  | .local _ .vmem, ⟨5, _⟩ => ⟨S256x1, .i32⟩
  | .local _ .vmem, ⟨6, _⟩ => ⟨S2048x2176, .bf16⟩
  | .local _ .vmem, ⟨7, _⟩ => ⟨S1x2176, .f32⟩
  | .local _ .vmem, ⟨8, _⟩ => ⟨S256x1, .f32⟩
  | .local _ .vmem, ⟨9, _⟩ => ⟨S256x1, .f32⟩
  | .local _ .vmem, ⟨10, _⟩ => ⟨S256x2176, .f32⟩
  | .local _ .vmem, ⟨11, _⟩ => ⟨S256x2176, .f32⟩
  | _, _ => ⟨S32x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15_0 : Ref sig .tc := ⟨.hbm, 28, rfl⟩
abbrev main_v15_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x2176 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2176 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2176 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32x512x2048_S16384x2048 : S32x512x2048.ShapeCasts S16384x2048
  shapeCasts_S32x512_S16384x1 : S32x512.ShapeCasts S16384x1
  bcast_S_S128x2048 : S_.BroadcastsInDim S128x2048 (![] : Fin 0 → Fin S128x2048.rank)
  bcast_S_S1 : S_.BroadcastsInDim S1 (![] : Fin 0 → Fin S1.rank)
  concatenates_S128x2048_S1024x2048_S1024x2048_S2176x2048_d0 : Shape.Concatenates [S128x2048, S1024x2048, S1024x2048] S2176x2048 0
  transposes_S2176x2048_S2048x2176_1_0 : S2176x2048.Transposes [1, 0] S2048x2176
  bitsLt_bf16_f32 : FTy.bits .bf16 < FTy.bits .f32
  bcast_S_S128 : S_.BroadcastsInDim S128 (![] : Fin 0 → Fin S128.rank)
  shapeCasts_S1_S_ : S1.ShapeCasts S_
  concatenates_S128_S1024_S1024_S2176_d0 : Shape.Concatenates [S128, S1024, S1024] S2176 0
  shapeCasts_S2176_S1x2176 : S2176.ShapeCasts S1x2176
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S2048x2176_S2048x2176_0_0 : ∀ a, (![0, 0] : Fin 2 → Nat) a + S2048x2176.size a ≤ S2048x2176.size a
  h_S2048x2176 : 0 < S2048x2176.numel
  shapeCasts_S2048x2176_S2048x2176 : S2048x2176.ShapeCasts S2048x2176
  inb_S1x2176_S1x2176_0_0 : ∀ a, (![0, 0] : Fin 2 → Nat) a + S1x2176.size a ≤ S1x2176.size a
  h_S1x2176 : 0 < S1x2176.numel
  shapeCasts_S1x2176_S1x2176 : S1x2176.ShapeCasts S1x2176
  broadcasts_S1x2176_S256x2176 : S1x2176.Broadcasts S256x2176
  slices_S256x2176_o0_126_S256x1 : S256x2176.Slices ![0, 126] S256x1
  slices_S256x2176_o0_128_S256x1024 : S256x2176.Slices ![0, 128] S256x1024
  slices_S256x2176_o0_1152_S256x1024 : S256x2176.Slices ![0, 1152] S256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  natLt_1_32 : 1 < 32
  reduces_S256x1024_S256 : S256x1024.Reduces [1] S256
  shapeCasts_S256_S256x1 : S256.ShapeCasts S256x1
  broadcasts_S256x1_S256x1024 : S256x1.Broadcasts S256x1024
  iota_S256x1024_d1_w32 : S256x1024.Iotas .tc 32 [1]
  broadcasts_S256x1_S256x2 : S256x1.Broadcasts S256x2
  concatenates_S256x126_S256x2_S256x128_d1 : Shape.Concatenates [S256x126, S256x2] S256x128 1
  inb_S256x2176_S256x128_0_0 : ∀ a, (![0, 0] : Fin 2 → Nat) a + S256x128.size a ≤ S256x2176.size a
  h_S256x128 : 0 < S256x128.numel
  inb_S256x2176_S256x1024_0_128 : ∀ a, (![0, 128] : Fin 2 → Nat) a + S256x1024.size a ≤ S256x2176.size a
  h_S256x1024 : 0 < S256x1024.numel
  inb_S256x2176_S256x1024_0_1152 : ∀ a, (![0, 1152] : Fin 2 → Nat) a + S256x1024.size a ≤ S256x2176.size a
  shapeCasts_S16384x1_S32x512 : S16384x1.ShapeCasts S32x512
  slices_S16384x2176_S16384x2050_0_126 : S16384x2176.Slices ![0, 126] S16384x2050
  shapeCasts_S16384x2050_S32x512x2050 : S16384x2050.ShapeCasts S32x512x2050
  scatter_S128x2048_S1_S1x2048_01_n_0_0_wf : ScatterDims.WF S128x2048 S1 S1x2048 [0, 1] [] [0] 0
  scatter_S128_S1_S__n_0_0_0_wf : ScatterDims.WF S128 S1 S_ [] [0] [0] 0
  dot_S256x2048_S2048x2176_S256x2176_1_0_0_1_n_n_wf : DotDims.WF S256x2048 S2048x2176 S256x2176 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S16384x2048.size a
  hwx0_0 : ∀ i : grid0.Coords, EltTy.bits .f32 = 32 ∨ (Rect.block (s := S16384x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S16384x1.size a
  hwx0_1 : ∀ i : grid0.Coords, EltTy.bits .i32 = 32 ∨ (Rect.block (s := S16384x1) S256x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S16384x1.size a
  hwx0_2 : ∀ i : grid0.Coords, EltTy.bits .i32 = 32 ∨ (Rect.block (s := S16384x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2176.size a ≤ S2048x2176.size a
  hwx0_3 : ∀ i : grid0.Coords, EltTy.bits .bf16 = 32 ∨ (Rect.block (s := S2048x2176) S2048x2176.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2176.size a ≤ S1x2176.size a
  hwx0_4 : ∀ i : grid0.Coords, EltTy.bits .f32 = 32 ∨ (Rect.block (s := S1x2176) S1x2176.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S16384x1.size a
  hwx0_5 : ∀ i : grid0.Coords, EltTy.bits .f32 = 32 ∨ (Rect.block (s := S16384x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2176.size a ≤ S16384x2176.size a
  hwx0_6 : ∀ i : grid0.Coords, EltTy.bits .f32 = 32 ∨ (Rect.block (s := S16384x2176) S256x2176.size (cc0_transform_6 i) (hinb0_6 i)).WholeWords (EltTy.packing .f32)

variable [Facts₀]

def scatter_S128x2048_S1_S1x2048_01_n_0_0 : ScatterDims S128x2048 S1 S1x2048 where
  updateWindowDims := [0, 1]
  insertedWindowDims := []
  scatterDimsToOperandDims := [0]
  indexVectorDim := 0
  wf := scatter_S128x2048_S1_S1x2048_01_n_0_0_wf
def scatter_S128_S1_S__n_0_0_0 : ScatterDims S128 S1 S_ where
  updateWindowDims := []
  insertedWindowDims := [0]
  scatterDimsToOperandDims := [0]
  indexVectorDim := 0
  wf := scatter_S128_S1_S__n_0_0_0_wf
def dot_S256x2048_S2048x2176_S256x2176_1_0_0_1_n_n : DotDims S256x2048 S2048x2176 S256x2176 where
  lhsContracting := [1]
  rhsContracting := [0]
  lhsNonContracting := [0]
  rhsNonContracting := [1]
  lhsBatch := []
  rhsBatch := []
  wf := dot_S256x2048_S2048x2176_S256x2176_1_0_0_1_n_n_wf

abbrev win0_0 : Pipeline.Window sig grid0 :=
  Pipeline.Window.ofSpec (Memref.whole main_v0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2048x2176.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x2176.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15_0) S256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15_1) S256x2176.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x512x2048 : Shape := ⟨3, ![32, 512, 2048]⟩
abbrev S32x512 : Shape := ⟨2, ![32, 512]⟩
abbrev S1x2048 : Shape := ⟨2, ![1, 2048]⟩
abbrev S1 : Shape := ⟨1, ![1]⟩
abbrev S1024x2048 : Shape := ⟨2, ![1024, 2048]⟩
abbrev S1024 : Shape := ⟨1, ![1024]⟩
abbrev S16384x2048 : Shape := ⟨2, ![16384, 2048]⟩
abbrev S16384 : Shape := ⟨1, ![16384]⟩
abbrev S_ : Shape := ⟨0, ![]⟩
abbrev S2048x1 : Shape := ⟨2, ![2048, 1]⟩
abbrev S16384x1 : Shape := ⟨2, ![16384, 1]⟩
abbrev S1x1 : Shape := ⟨2, ![1, 1]⟩
abbrev S2048x1024 : Shape := ⟨2, ![2048, 1024]⟩
abbrev S16384x1024 : Shape := ⟨2, ![16384, 1024]⟩
abbrev S1x1024 : Shape := ⟨2, ![1, 1024]⟩
abbrev S16384x1x1 : Shape := ⟨3, ![16384, 1, 1]⟩
abbrev S1x1x1 : Shape := ⟨3, ![1, 1, 1]⟩
abbrev S16384x2 : Shape := ⟨2, ![16384, 2]⟩
abbrev S16384x2050 : Shape := ⟨2, ![16384, 2050]⟩
abbrev S32x512x2050 : Shape := ⟨3, ![32, 512, 2050]⟩

abbrev nBuf : Space → Nat
  | .hbm => 181
  | .vmem => 0
  | .smem => 0
  | _ => 0

abbrev hbmTy0_0 (i : Nat) : BufTy := match i % 128 with
  | 0 => ⟨S32x512x2048, .f32⟩
  | 1 => ⟨S32x512, .i32⟩
  | 2 => ⟨S32x512, .i32⟩
  | 3 => ⟨S1x2048, .f32⟩
  | 4 => ⟨S1, .f32⟩
  | 5 => ⟨S1024x2048, .f32⟩
  | 6 => ⟨S1024, .f32⟩
  | 7 => ⟨S1024x2048, .f32⟩
  | 8 => ⟨S1024, .f32⟩
  | 9 => ⟨S16384x2048, .f32⟩
  | 10 => ⟨S16384, .i32⟩
  | 11 => ⟨S16384, .i32⟩
  | 12 => ⟨S_, .i32⟩
  | 13 => ⟨S16384, .i32⟩
  | 14 => ⟨S16384, .i1⟩
  | 15 => ⟨S_, .i32⟩
  | 16 => ⟨S16384, .i32⟩
  | 17 => ⟨S16384, .i1⟩
  | 18 => ⟨S_, .i32⟩
  | 19 => ⟨S16384, .i32⟩
  | 20 => ⟨S16384, .i1⟩
  | 21 => ⟨S2048x1, .f32⟩
  | 22 => ⟨S16384x1, .f32⟩
  | 23 => ⟨S1x1, .f32⟩
  | 24 => ⟨S16384x1, .f32⟩
  | 25 => ⟨S16384x1, .f32⟩
  | 26 => ⟨S16384x1, .f32⟩
  | 27 => ⟨S16384x1, .f32⟩
  | 28 => ⟨S_, .f32⟩
  | 29 => ⟨S16384x1, .f32⟩
  | 30 => ⟨S16384x1, .f32⟩
  | 31 => ⟨S_, .f32⟩
  | 32 => ⟨S16384x1, .f32⟩
  | 33 => ⟨S16384x1, .f32⟩
  | 34 => ⟨S16384, .f32⟩
  | 35 => ⟨S_, .f32⟩
  | 36 => ⟨S16384, .f32⟩
  | 37 => ⟨S16384, .f32⟩
  | 38 => ⟨S2048x1024, .f32⟩
  | 39 => ⟨S16384x1024, .f32⟩
  | 40 => ⟨S1x1024, .f32⟩
  | 41 => ⟨S16384x1024, .f32⟩
  | 42 => ⟨S16384x1024, .f32⟩
  | 43 => ⟨S_, .f32⟩
  | 44 => ⟨S16384, .f32⟩
  | 45 => ⟨S_, .f32⟩
  | 46 => ⟨S16384, .f32⟩
  | 47 => ⟨S16384, .f32⟩
  | 48 => ⟨S16384x1, .f32⟩
  | 49 => ⟨S16384x1024, .f32⟩
  | 50 => ⟨S16384x1024, .f32⟩
  | 51 => ⟨S16384x1024, .f32⟩
  | 52 => ⟨S_, .f32⟩
  | 53 => ⟨S16384, .f32⟩
  | 54 => ⟨S16384x1, .f32⟩
  | 55 => ⟨S16384x1024, .f32⟩
  | 56 => ⟨S16384x1024, .f32⟩
  | 57 => ⟨S2048x1024, .f32⟩
  | 58 => ⟨S16384x1024, .f32⟩
  | 59 => ⟨S1x1024, .f32⟩
  | 60 => ⟨S16384x1024, .f32⟩
  | 61 => ⟨S16384x1024, .f32⟩
  | 62 => ⟨S_, .f32⟩
  | 63 => ⟨S16384, .f32⟩
  | 64 => ⟨S_, .f32⟩
  | 65 => ⟨S16384, .f32⟩
  | 66 => ⟨S16384, .f32⟩
  | 67 => ⟨S16384x1, .f32⟩
  | 68 => ⟨S16384x1024, .f32⟩
  | 69 => ⟨S16384x1024, .f32⟩
  | 70 => ⟨S16384x1024, .f32⟩
  | 71 => ⟨S_, .f32⟩
  | 72 => ⟨S16384, .f32⟩
  | 73 => ⟨S16384x1, .f32⟩
  | 74 => ⟨S16384x1024, .f32⟩
  | 75 => ⟨S16384x1024, .f32⟩
  | 76 => ⟨S_, .i32⟩
  | 77 => ⟨S16384, .i32⟩
  | 78 => ⟨S16384, .i32⟩
  | 79 => ⟨S_, .i32⟩
  | 80 => ⟨S_, .i32⟩
  | 81 => ⟨S_, .i32⟩
  | 82 => ⟨S16384, .i32⟩
  | 83 => ⟨S16384, .i32⟩
  | 84 => ⟨S_, .i32⟩
  | 85 => ⟨S16384, .i32⟩
  | 86 => ⟨S16384, .i32⟩
  | 87 => ⟨S_, .i32⟩
  | 88 => ⟨S16384, .i32⟩
  | 89 => ⟨S16384, .i32⟩
  | 90 => ⟨S_, .i32⟩
  | 91 => ⟨S16384, .i32⟩
  | 92 => ⟨S16384, .i32⟩
  | 93 => ⟨S_, .i32⟩
  | 94 => ⟨S_, .i32⟩
  | 95 => ⟨S_, .i32⟩
  | 96 => ⟨S16384, .i32⟩
  | 97 => ⟨S16384, .i32⟩
  | 98 => ⟨S_, .i32⟩
  | 99 => ⟨S16384, .i32⟩
  | 100 => ⟨S16384, .i32⟩
  | 101 => ⟨S16384x1, .i32⟩
  | 102 => ⟨S_, .i32⟩
  | 103 => ⟨S16384x1, .i32⟩
  | 104 => ⟨S16384x1, .i1⟩
  | 105 => ⟨S_, .i32⟩
  | 106 => ⟨S16384x1, .i32⟩
  | 107 => ⟨S16384x1, .i32⟩
  | 108 => ⟨S16384x1, .i32⟩
  | 109 => ⟨S16384x1x1, .i32⟩
  | 110 => ⟨S1, .i32⟩
  | 111 => ⟨S_, .i32⟩
  | 112 => ⟨S16384x1x1, .i32⟩
  | 113 => ⟨S16384x1x1, .i1⟩
  | 114 => ⟨S1x1x1, .i32⟩
  | 115 => ⟨S16384x1x1, .i32⟩
  | 116 => ⟨S16384x1x1, .i1⟩
  | 117 => ⟨S16384x1x1, .i1⟩
  | 118 => ⟨S_, .i1⟩
  | 119 => ⟨S16384x1, .i1⟩
  | 120 => ⟨S16384x1, .f32⟩
  | 121 => ⟨S_, .f32⟩
  | 122 => ⟨S16384x1, .f32⟩
  | 123 => ⟨S16384x1, .f32⟩
  | 124 => ⟨S16384, .f32⟩
  | 125 => ⟨S16384x1, .i32⟩
  | 126 => ⟨S_, .i32⟩
  | 127 => ⟨S16384x1, .i32⟩
  | _ => ⟨S32x512x2048, .f32⟩

abbrev hbmTy0_1 (i : Nat) : BufTy := match i % 128 with
  | 0 => ⟨S16384x1, .i1⟩
  | 1 => ⟨S_, .i32⟩
  | 2 => ⟨S16384x1, .i32⟩
  | 3 => ⟨S16384x1, .i32⟩
  | 4 => ⟨S16384x1, .i32⟩
  | 5 => ⟨S16384x1x1, .i32⟩
  | 6 => ⟨S1, .i32⟩
  | 7 => ⟨S_, .i32⟩
  | 8 => ⟨S16384x1x1, .i32⟩
  | 9 => ⟨S16384x1x1, .i1⟩
  | 10 => ⟨S1x1x1, .i32⟩
  | 11 => ⟨S16384x1x1, .i32⟩
  | 12 => ⟨S16384x1x1, .i1⟩
  | 13 => ⟨S16384x1x1, .i1⟩
  | 14 => ⟨S_, .i1⟩
  | 15 => ⟨S16384x1, .i1⟩
  | 16 => ⟨S16384x1, .f32⟩
  | 17 => ⟨S_, .f32⟩
  | 18 => ⟨S16384x1, .f32⟩
  | 19 => ⟨S16384x1, .f32⟩
  | 20 => ⟨S16384, .f32⟩
  | 21 => ⟨S16384, .f32⟩
  | 22 => ⟨S16384, .f32⟩
  | 23 => ⟨S_, .f32⟩
  | 24 => ⟨S_, .f32⟩
  | 25 => ⟨S16384, .f32⟩
  | 26 => ⟨S16384, .f32⟩
  | 27 => ⟨S16384, .f32⟩
  | 28 => ⟨S16384, .f32⟩
  | 29 => ⟨S16384, .f32⟩
  | 30 => ⟨S16384x1, .f32⟩
  | 31 => ⟨S16384, .f32⟩
  | 32 => ⟨S16384x1, .f32⟩
  | 33 => ⟨S16384, .f32⟩
  | 34 => ⟨S16384x1, .f32⟩
  | 35 => ⟨S16384x1, .f32⟩
  | 36 => ⟨S16384x2, .f32⟩
  | 37 => ⟨S16384x2, .f32⟩
  | 38 => ⟨S16384x2, .f32⟩
  | 39 => ⟨S16384x1, .f32⟩
  | 40 => ⟨S16384x1024, .f32⟩
  | 41 => ⟨S16384x1024, .f32⟩
  | 42 => ⟨S16384x1024, .f32⟩
  | 43 => ⟨S16384x1024, .f32⟩
  | 44 => ⟨S16384x1, .f32⟩
  | 45 => ⟨S16384x1024, .f32⟩
  | 46 => ⟨S16384x1024, .f32⟩
  | 47 => ⟨S16384x1024, .f32⟩
  | 48 => ⟨S16384x1024, .f32⟩
  | 49 => ⟨S16384x2050, .f32⟩
  | 50 => ⟨S16384, .f32⟩
  | 51 => ⟨S32x512, .f32⟩
  | 52 => ⟨S32x512x2050, .f32⟩
  | _ => ⟨S32x512x2048, .f32⟩

abbrev hbmTy (i : Nat) : BufTy := match i / 128 with
  | 0 => hbmTy0_0 i
  | 1 => hbmTy0_1 i
  | _ => ⟨S32x512x2048, .f32⟩

abbrev bufTy : (tb : Table) → Fin (tcTables nBuf tb) → BufTy
  | .hbm, ⟨i, _⟩ => hbmTy i
  | _, _ => ⟨S32x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_4 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_c_12 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_v57 : Ref sig .tc := ⟨.hbm, 86, rfl⟩
abbrev main_c_13 : Ref sig .tc := ⟨.hbm, 87, rfl⟩
abbrev main_v58 : Ref sig .tc := ⟨.hbm, 88, rfl⟩
abbrev main_v59 : Ref sig .tc := ⟨.hbm, 89, rfl⟩
abbrev main_c_14 : Ref sig .tc := ⟨.hbm, 90, rfl⟩
abbrev main_v60 : Ref sig .tc := ⟨.hbm, 91, rfl⟩
abbrev main_v61 : Ref sig .tc := ⟨.hbm, 92, rfl⟩
abbrev main_c_15 : Ref sig .tc := ⟨.hbm, 93, rfl⟩
abbrev main_c_16 : Ref sig .tc := ⟨.hbm, 94, rfl⟩
abbrev main_call1_v0 : Ref sig .tc := ⟨.hbm, 95, rfl⟩
abbrev main_call1_v1 : Ref sig .tc := ⟨.hbm, 96, rfl⟩
abbrev main_call1_v2 : Ref sig .tc := ⟨.hbm, 97, rfl⟩
abbrev main_call1_v3 : Ref sig .tc := ⟨.hbm, 98, rfl⟩
abbrev main_call1_v4 : Ref sig .tc := ⟨.hbm, 99, rfl⟩
abbrev main_v62 : Ref sig .tc := ⟨.hbm, 100, rfl⟩
abbrev main_v63 : Ref sig .tc := ⟨.hbm, 101, rfl⟩
abbrev main_call2_c : Ref sig .tc := ⟨.hbm, 102, rfl⟩
abbrev main_call2_v0 : Ref sig .tc := ⟨.hbm, 103, rfl⟩
abbrev main_call2_v1 : Ref sig .tc := ⟨.hbm, 104, rfl⟩
abbrev main_call2_c_0 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_c_1 : Ref sig .tc := ⟨.hbm, 110, rfl⟩
abbrev main_call2_c_2 : Ref sig .tc := ⟨.hbm, 111, rfl⟩
abbrev main_call2_v6 : Ref sig .tc := ⟨.hbm, 112, rfl⟩
abbrev main_call2_v7 : Ref sig .tc := ⟨.hbm, 113, rfl⟩
abbrev main_call2_v8 : Ref sig .tc := ⟨.hbm, 114, rfl⟩
abbrev main_call2_v9 : Ref sig .tc := ⟨.hbm, 115, rfl⟩
abbrev main_call2_v10 : Ref sig .tc := ⟨.hbm, 116, rfl⟩
abbrev main_call2_v11 : Ref sig .tc := ⟨.hbm, 117, rfl⟩
abbrev main_call2_c_3 : Ref sig .tc := ⟨.hbm, 118, rfl⟩
abbrev main_call2_v12 : Ref sig .tc := ⟨.hbm, 119, rfl⟩
abbrev main_call2_v13 : Ref sig .tc := ⟨.hbm, 120, rfl⟩
abbrev main_call2_cst : Ref sig .tc := ⟨.hbm, 121, rfl⟩
abbrev main_call2_v14 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_call3_c : Ref sig .tc := ⟨.hbm, 126, rfl⟩
abbrev main_call3_v0 : Ref sig .tc := ⟨.hbm, 127, rfl⟩
abbrev main_call3_v1 : Ref sig .tc := ⟨.hbm, 128, rfl⟩
abbrev main_call3_c_0 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_c_1 : Ref sig .tc := ⟨.hbm, 134, rfl⟩
abbrev main_call3_c_2 : Ref sig .tc := ⟨.hbm, 135, rfl⟩
abbrev main_call3_v6 : Ref sig .tc := ⟨.hbm, 136, rfl⟩
abbrev main_call3_v7 : Ref sig .tc := ⟨.hbm, 137, rfl⟩
abbrev main_call3_v8 : Ref sig .tc := ⟨.hbm, 138, rfl⟩
abbrev main_call3_v9 : Ref sig .tc := ⟨.hbm, 139, rfl⟩
abbrev main_call3_v10 : Ref sig .tc := ⟨.hbm, 140, rfl⟩
abbrev main_call3_v11 : Ref sig .tc := ⟨.hbm, 141, rfl⟩
abbrev main_call3_c_3 : Ref sig .tc := ⟨.hbm, 142, rfl⟩
abbrev main_call3_v12 : Ref sig .tc := ⟨.hbm, 143, rfl⟩
abbrev main_call3_v13 : Ref sig .tc := ⟨.hbm, 144, rfl⟩
abbrev main_call3_cst : Ref sig .tc := ⟨.hbm, 145, rfl⟩
abbrev main_call3_v14 : Ref sig .tc := ⟨.hbm, 146, rfl⟩
abbrev main_v67 : Ref sig .tc := ⟨.hbm, 147, rfl⟩
abbrev main_v68 : Ref sig .tc := ⟨.hbm, 148, rfl⟩
abbrev main_v69 : Ref sig .tc := ⟨.hbm, 149, rfl⟩
abbrev main_v70 : Ref sig .tc := ⟨.hbm, 150, rfl⟩
abbrev main_cst_17 : Ref sig .tc := ⟨.hbm, 151, rfl⟩
abbrev main_call4_v0 : Ref sig .tc := ⟨.hbm, 152, rfl⟩
abbrev main_call4_v1 : Ref sig .tc := ⟨.hbm, 153, rfl⟩
abbrev main_v71 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_v79 : Ref sig .tc := ⟨.hbm, 162, rfl⟩
abbrev main_v80 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_v94 : Ref sig .tc := ⟨.hbm, 177, rfl⟩
abbrev main_v95 : Ref sig .tc := ⟨.hbm, 178, rfl⟩
abbrev main_v96 : Ref sig .tc := ⟨.hbm, 179, rfl⟩
abbrev main_v97 : Ref sig .tc := ⟨.hbm, 180, rfl⟩

abbrev nD : Nat := 1
abbrev τ : Topo := Topo.v7x

variable {F : FTy → Type} [FloatOps F]

class Facts₀ : Prop where
  shapeCasts_S32x512x2048_S16384x2048 : S32x512x2048.ShapeCasts S16384x2048
  shapeCasts_S32x512_S16384 : S32x512.ShapeCasts S16384
  bcast_S_S16384 : S_.BroadcastsInDim S16384 (![] : Fin 0 → Fin S16384.rank)
  transposes_S1x2048_S2048x1_1_0 : S1x2048.Transposes [1, 0] S2048x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  bcast_S_S16384x1 : S_.BroadcastsInDim S16384x1 (![] : Fin 0 → Fin S16384x1.rank)
  shapeCasts_S16384x1_S16384 : S16384x1.ShapeCasts S16384
  transposes_S1024x2048_S2048x1024_1_0 : S1024x2048.Transposes [1, 0] S2048x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  h_S_ : 0 < S_.numel
  bcast_S16384_S16384x1_0 : S16384.BroadcastsInDim S16384x1 (![0] : Fin 1 → Fin S16384x1.rank)
  bcast_S16384x1_S16384x1024_0_1 : S16384x1.BroadcastsInDim S16384x1024 (![0, 1] : Fin 2 → Fin S16384x1024.rank)
  shapeCasts_S16384x1_S16384x1x1 : S16384x1.ShapeCasts S16384x1x1
  bcast_S_S16384x1x1 : S_.BroadcastsInDim S16384x1x1 (![] : Fin 0 → Fin S16384x1x1.rank)
  bcast_S1_S1x1x1_2 : S1.BroadcastsInDim S1x1x1 (![2] : Fin 1 → Fin S1x1x1.rank)
  bcast_S1x1x1_S16384x1x1_0_1_2 : S1x1x1.BroadcastsInDim S16384x1x1 (![0, 1, 2] : Fin 3 → Fin S16384x1x1.rank)
  reducesTo_S16384x1x1_S16384x1_d2 : S16384x1x1.ReducesTo [2] S16384x1
  bcast_S16384x1_S16384x2_0_1 : S16384x1.BroadcastsInDim S16384x2 (![0, 1] : Fin 2 → Fin S16384x2.rank)
  concatenates_S16384x2_S16384x1024_S16384x1024_S16384x2050_d1 : Shape.Concatenates [S16384x2, S16384x1024, S16384x1024] S16384x2050 1
  shapeCasts_S16384_S32x512 : S16384.ShapeCasts S32x512
  shapeCasts_S16384x2050_S32x512x2050 : S16384x2050.ShapeCasts S32x512x2050
  dot_S16384x2048_S2048x1_S16384x1_1_0_0_1_n_n_wf : DotDims.WF S16384x2048 S2048x1 S16384x1 [1] [0] [0] [1] [] []
  dot_S16384x2048_S2048x1024_S16384x1024_1_0_0_1_n_n_wf : DotDims.WF S16384x2048 S2048x1024 S16384x1024 [1] [0] [0] [1] [] []
  gather_S16384x1024_S16384x1x1_S16384x1_n_1_0_0_1_2_11_wf : GatherDims.WF S16384x1024 S16384x1x1 S16384x1 [] [1] [0] [1] [0] 2 ![1, 1]

variable [Facts₀]

def dot_S16384x2048_S2048x1_S16384x1_1_0_0_1_n_n : DotDims S16384x2048 S2048x1 S16384x1 where
  lhsContracting := [1]
  rhsContracting := [0]
  lhsNonContracting := [0]
  rhsNonContracting := [1]
  lhsBatch := []
  rhsBatch := []
  wf := dot_S16384x2048_S2048x1_S16384x1_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf
def gather_S16384x1024_S16384x1x1_S16384x1_n_1_0_0_1_2_11 : GatherDims S16384x1024 S16384x1x1 S16384x1 where
  offsetDims := []
  collapsedSliceDims := [1]
  operandBatchingDims := [0]
  startIndicesBatchingDims := [0]
  startIndexMap := [1]
  indexVectorDim := 2
  sliceSizes := ![1, 1]
  wf := gather_S16384x1024_S16384x1x1_S16384x1_n_1_0_0_1_2_11_wf

class Facts : Prop extends Facts₀ where

variable [Facts]
-- ==== Proof.KB.Data.lean ====
/-
  The data of the one region of @main: the arrays as the region finds them (after the host lines that build the
  fused weight matrix and bias row), each window's block at a grid point, and what the body leaves in its two
  output buffers at a point, as functions of the five input blocks.

  The body computes, for a tile of 256 tokens, the 2176 fused logits `x · W + b` and from them
    • the log-probability column (256 × 1), stored whole into the first output buffer;
    • the padded probability tile (256 × 2176), stored in three column bands [0,128), [128,1152), [1152,2176)
      into the second output buffer: 126 zero columns and the two end columns; the hcw columns; the roo columns.
-/
import proofs.«410987_j75797582839976_2_alg».proof.Proof.Gen.Kernel.Launch
import proofs.«410987_j75797582839976_2_alg».proof.Proof.Gen.Kernel.Skeleton
import proofs.«410987_j75797582839976_2_alg».proof.Proof.Gen.Kernel.Points
import Idealize.ShloMosaic.Lib.Pipeline.FrameBody
import Idealize.ShloMosaic.Lib.Pipeline.FrameSuffix

noncomputable section

namespace Cert.Kernel.Heads

open Cert.Kernel Cert.Kernel.Gen
open Idealize.ShloMosaic Idealize.ShloMosaic.TcCoe
open Idealize.SL Idealize.SL.RA Idealize.SL.BI Idealize.SL.Sem
open Idealize.ShloMosaic.Rounds
open Idealize.ShloMosaic.Pipeline (Dat Cfg Window)

variable {F : FTy → Type} [FloatOps F]

variable (m : (ℓ : Loc nD τ sig) → Buf (Elt F) ℓ)

/-! ## The arrays when the region is entered -/

/-- Core `c`'s buffers after the host lines before the region, as a valuation. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles -/

/-- The whole token tile of hidden rows. -/
abbrev rX : Rect S256x2048 := Rect.unit (s := S256x2048) ![0, 0] S256x2048.size inb_S256x2048_S256x2048_0_0
/-- The whole fused weight matrix. -/
abbrev rW : Rect S2048x2176 := Rect.unit (s := S2048x2176) ![0, 0] S2048x2176.size inb_S2048x2176_S2048x2176_0_0
/-- The whole fused bias row. -/
abbrev rB : Rect S1x2176 := Rect.unit (s := S1x2176) ![0, 0] S1x2176.size inb_S1x2176_S1x2176_0_0
/-- A whole one-column tile (class words, label words, the log-probability column). -/
abbrev rT : Rect S256x1 := Rect.unit (s := S256x1) ![0, 0] S256x1.size inb_S256x1_S256x1_0_0
/-- Columns [0, 128) of the padded probability tile. -/
abbrev rP0 : Rect S256x2176 := Rect.unit (s := S256x2176) ![0, 0] S256x128.size inb_S256x2176_S256x128_0_0
/-- Columns [128, 1152) of the padded probability tile. -/
abbrev rP1 : Rect S256x2176 := Rect.unit (s := S256x2176) ![0, 128] S256x1024.size inb_S256x2176_S256x1024_0_128
/-- Columns [1152, 2176) of the padded probability tile. -/
abbrev rP2 : Rect S256x2176 := Rect.unit (s := S256x2176) ![0, 1152] S256x1024.size inb_S256x2176_S256x1024_0_1152

/-! ## What the body stores, from what it loads -/

/-- The log-probability column of a tile, from the loaded hidden rows `x`, class words `py`, label words `y`, fused
    weights `w` and fused bias `b`. -/
def logpTile (x : Vec F S256x2048 .f32) (py y : Vec F S256x1 .i32) (w : Vec F S2048x2176 .bf16) (b : Vec F S1x2176 .f32) :
    FVec F S256x1 .f32 :=
  k0_pay22 (k0_pay4 x w b) (k0_pay7 py) (k0_pay8 py) (k0_pay9 py) (k0_pay13 y) (k0_pay15 (k0_pay14 y) 0#32)
    (k0_pay16 (k0_pay2 x w b)) (k0_pay17 (k0_pay2 x w b)) (k0_pay20 (k0_pay3 x w b))

/-- Columns [0, 128) of the padded probability tile: 126 zeros, then the end probability twice, masked. -/
def endTile (x : Vec F S256x2048 .f32) (py : Vec F S256x1 .i32) (w : Vec F S2048x2176 .bf16) (b : Vec F S1x2176 .f32) :
    FVec F S256x128 .f32 :=
  k0_pay23 (k0_pay10 py) (k0_pay18 (k0_pay2 x w b))

/-- Columns [128, 1152): the hcw probabilities, masked. -/
def hcwTile (x : Vec F S256x2048 .f32) (py : Vec F S256x1 .i32) (w : Vec F S2048x2176 .bf16) (b : Vec F S1x2176 .f32) :
    FVec F S256x1024 .f32 :=
  k0_pay24 (k0_pay11 py) (k0_pay19 (k0_pay2 x w b)) (k0_pay20 (k0_pay3 x w b))

/-- Columns [1152, 2176): the roo probabilities, masked. -/
def rooTile (x : Vec F S256x2048 .f32) (py : Vec F S256x1 .i32) (w : Vec F S2048x2176 .bf16) (b : Vec F S1x2176 .f32) :
    FVec F S256x1024 .f32 :=
  k0_pay25 (k0_pay4 x w b) (k0_pay12 py) (k0_pay19 (k0_pay2 x w b))

/-- The first output buffer after the body: its one store, of the log-probability column. -/
def outLogp (x0 : Vec F S256x2048 .f32) (x1 x2 : Vec F S256x1 .i32) (x3 : Vec F S2048x2176 .bf16) (x4 : Vec F S1x2176 .f32) :
    Vec F S256x1 .f32 :=
  View.canon [⟨rT, logpTile (View.ld x0 rX) (View.ld x1 rT) (View.ld x2 rT) (View.ld x3 rW) (View.ld x4 rB)⟩]

/-- The second output buffer after the body: its three stores as pieces, the last first. -/
def outProb (x0 : Vec F S256x2048 .f32) (x1 x2 : Vec F S256x1 .i32) (x3 : Vec F S2048x2176 .bf16) (x4 : Vec F S1x2176 .f32) :
    Vec F S256x2176 .f32 :=
  View.canon [⟨rP2, rooTile (View.ld x0 rX) (View.ld x1 rT) (View.ld x3 rW) (View.ld x4 rB)⟩,
    ⟨rP1, hcwTile (View.ld x0 rX) (View.ld x1 rT) (View.ld x3 rW) (View.ld x4 rB)⟩,
    ⟨rP0, endTile (View.ld x0 rX) (View.ld x1 rT) (View.ld x3 rW) (View.ld x4 rB)⟩]

/-! ## The pipeline's proof data -/

/-- The proof data of the one pipeline on core `c`: the arrays as the region finds them; after the body at point `t`
    each input's buffer at its block and each output's at what the body stores from the input blocks; the scoped rest
    and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outLogp (iblk m c 0 t) (iblk m c 1 t) (iblk m c 2 t) (iblk m c 3 t) (iblk m c 4 t)
    | ⟨6, _⟩ => outProb (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outLogp (iblk m c 0 t) (iblk m c 1 t) (iblk m c 2 t) (iblk m c 3 t) (iblk m c 4 t) := by
  dsimp only [dats]
theorem after_6 (c : Dev nD) (t : Fin cfg0.N) :
    (dats m 0 c).after 6 t = outProb (iblk m c 0 t) (iblk m c 1 t) (iblk m c 2 t) (iblk m c 3 t) (iblk m c 4 t) := by
  dsimp only [dats]

end Cert.Kernel.Heads

end
-- ==== Proof.KB.Frame.lean ====
/-
  The frame run of @main: the host lines that fuse the three heads' weights and biases, the one region over the 64
  token tiles, the host lines that cut the padded results to size.

  Contents: the host lines allocate nothing and the later ones leave the region's arrays alone; no line writes an
  argument array, and no window stages one, so each argument is found and left as launched; at every grid point the
  five input buffers hold their blocks; the body's stores fill both output buffers, so what it leaves in them is the
  canon of its stores over the input blocks; the body's triple, the obligation at every point, the run of @main and
  the frame: all nine argument arrays end unchanged.
-/
import proofs.«410987_j75797582839976_2_alg».proof.Proof.KB.Data
import Idealize.ShloMosaic.Lib.Ring
import Idealize.ShloMosaic.Lib.Tactic
import Idealize.ShloMosaic.Lib.Pipeline.FrameBody
import Idealize.ShloMosaic.Lib.Pipeline.FrameSuffix

set_option maxRecDepth 16384

noncomputable section

namespace Cert.Kernel.Heads

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The lines that build the fused weight matrix and bias row allocate nothing. -/
theorem hostOps0_fresh : (hostOps0 : List (HloOp τ sig (Elt F))).Forall fun op => op.fresh = ∅ := by
  simp only [List.Forall]; repeat' constructor
/-- Nor do the lines that cut the padded results to size. -/
theorem hostOps1_fresh : (hostOps1 : List (HloOp τ sig (Elt F))).Forall fun op => op.fresh = ∅ := by
  simp only [List.Forall]; repeat' constructor

/-- @main is: the lines before the region, the region, the lines after it. Holding the launch contents, it comes
    down to the region entered at the contents `V` and continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Every buffer a later line names is one of the region's seven arrays or a buffer the region passes by. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)
/-- The later lines allocate nothing. -/
theorem sfx_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp hostOps1_fresh) op hop
/-- The later lines write main_v16, main_v17 and main_v18: none of the seven arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  simp only [hostOps1, List.mem_cons, List.mem_nil_iff, or_false] at hop
  rcases hop with rfl | rfl | rfl
  all_goals
    intro w
    fin_cases w <;>
      simp only [StableHlo.unary_writes, StableHlo.reshape_writes, Finset.mem_singleton] <;>
      exact StableHlo.devRef_ne_of_ne (by decide)

/-! ## The argument arrays through the host lines

Each host line writes one buffer, its result. The results of the lines before the region, of the lines after it, and
the seven arrays the region stages are all intermediate values of @main: no argument is among them, so every argument
is found by the region, and left by @main, as launched. -/

/-- The results of the lines before the region, in order. -/
def written0 : List (Ref sig .tc) :=
  [main_v0, main_v1, main_v2, main_cst, main_v3, main_c, main_v4, main_v5, main_v6, main_v7, main_v8, main_cst_0,
    main_v9, main_v10, main_c_1, main_v11, main_v12, main_v13, main_v14]
/-- The results of the lines after it. -/
def written1 : List (Ref sig .tc) := [main_v16, main_v17, main_v18]

theorem hostOps0_writes : (hostOps0 : List (HloOp τ sig (Elt F))).Forall fun op =>
    op.writes ⊆ (written0.map (Proc.devRef (τ := τ) .tc)).toFinset := by
  simp only [hostOps0, List.Forall, StableHlo.nullary_writes, StableHlo.unary_writes, StableHlo.ternary_writes,
    StableHlo.nary_writes, StableHlo.reshape_writes, Finset.singleton_subset_iff, List.mem_toFinset]
  repeat' apply And.intro
  all_goals exact List.mem_map.mpr ⟨_, by decide, rfl⟩

theorem hostOps1_writes : (hostOps1 : List (HloOp τ sig (Elt F))).Forall fun op =>
    op.writes ⊆ (written1.map (Proc.devRef (τ := τ) .tc)).toFinset := by
  simp only [hostOps1, List.Forall, StableHlo.unary_writes, StableHlo.reshape_writes, Finset.singleton_subset_iff,
    List.mem_toFinset]
  repeat' apply And.intro
  all_goals exact List.mem_map.mpr ⟨_, by decide, rfl⟩

/-- A buffer no line before the region writes is found by the region as launched. -/
theorem V_of_not_written (c : Dev nD) (r : Ref sig .tc) (h : r ∉ written0) : V m c r = m ((c : Thread nD τ).loc r) :=
  StableHlo.after_of_writes_sub (List.flatten [hostOps0]) (fun b => m (c, b))
    (by simp only [List.flatten_cons, List.flatten_nil, List.append_nil]; exact hostOps0_writes) h

/-- A buffer that no line writes and no window stages ends as launched, whatever the proof data. -/
theorem W_of_not_written (dats' : (p : Fin 1) → (c : Dev nD) → Dat τ (Elt F) Unit ℕ (UR sig nD τ) ℕ (cfgs p) c) (c : Dev nD)
    (r : Ref sig .tc) (h0 : r ∉ written0) (h1 : r ∉ written1) (ha : ∀ w, Pipeline.arrRef spec0 w ≠ r) :
    Pipeline.afterTail₀ cfgs dats' 0 (V0 m) [hostOps1] c r = m ((c : Thread nD τ).loc r) := by
  unfold Pipeline.afterTail₀
  rw [StableHlo.after_of_writes_sub (r := r) _ _
      (by simp only [List.flatten_cons, List.flatten_nil, List.append_nil]; exact hostOps1_writes) h1,
    Pipeline.withArrays_of_ne _ c (V0 m c) _ r ha]
  exact V_of_not_written m c r h0

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)
theorem V_main_arg8 (c : Dev nD) : V m c main_arg8 = m ((c : Thread nD τ).loc main_arg8) := V_of_not_written m c _ (by decide)

section
variable (dats' : (p : Fin 1) → (c : Dev nD) → Dat τ (Elt F) Unit ℕ (UR sig nD τ) ℕ (cfgs p) c) (c : Dev nD)
theorem W_main_arg0 : Pipeline.afterTail₀ cfgs dats' 0 (V0 m) [hostOps1] c main_arg0 = m ((c : Thread nD τ).loc main_arg0) :=
  W_of_not_written m dats' c _ (by decide) (by decide) (by decide)
theorem W_main_arg1 : Pipeline.afterTail₀ cfgs dats' 0 (V0 m) [hostOps1] c main_arg1 = m ((c : Thread nD τ).loc main_arg1) :=
  W_of_not_written m dats' c _ (by decide) (by decide) (by decide)
theorem W_main_arg2 : Pipeline.afterTail₀ cfgs dats' 0 (V0 m) [hostOps1] c main_arg2 = m ((c : Thread nD τ).loc main_arg2) :=
  W_of_not_written m dats' c _ (by decide) (by decide) (by decide)
theorem W_main_arg3 : Pipeline.afterTail₀ cfgs dats' 0 (V0 m) [hostOps1] c main_arg3 = m ((c : Thread nD τ).loc main_arg3) :=
  W_of_not_written m dats' c _ (by decide) (by decide) (by decide)
theorem W_main_arg4 : Pipeline.afterTail₀ cfgs dats' 0 (V0 m) [hostOps1] c main_arg4 = m ((c : Thread nD τ).loc main_arg4) :=
  W_of_not_written m dats' c _ (by decide) (by decide) (by decide)
theorem W_main_arg5 : Pipeline.afterTail₀ cfgs dats' 0 (V0 m) [hostOps1] c main_arg5 = m ((c : Thread nD τ).loc main_arg5) :=
  W_of_not_written m dats' c _ (by decide) (by decide) (by decide)
theorem W_main_arg6 : Pipeline.afterTail₀ cfgs dats' 0 (V0 m) [hostOps1] c main_arg6 = m ((c : Thread nD τ).loc main_arg6) :=
  W_of_not_written m dats' c _ (by decide) (by decide) (by decide)
theorem W_main_arg7 : Pipeline.afterTail₀ cfgs dats' 0 (V0 m) [hostOps1] c main_arg7 = m ((c : Thread nD τ).loc main_arg7) :=
  W_of_not_written m dats' c _ (by decide) (by decide) (by decide)
theorem W_main_arg8 : Pipeline.afterTail₀ cfgs dats' 0 (V0 m) [hostOps1] c main_arg8 = m ((c : Thread nD τ).loc main_arg8) :=
  W_of_not_written m dats' c _ (by decide) (by decide) (by decide)
end

/-! ## What the body finds in its input buffers -/

/-- The token tile of hidden rows is in its buffer at every point. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
/-- So are the tile's class words, -/
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
/-- and its label words. -/
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
/-- The fused weight matrix is one block, copied in at the first point and left in place by the body: it is there at
    every point. -/
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
/-- Likewise the fused bias row. -/
theorem before_4 (c : Dev nD) (t : Fin cfg0.N) (d) : (dats m 0 c).before 4 t d = iblk m c 4 t :=
  ((dats m 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

/-! ## The stores fill the output buffers -/

/-- The one store of the log-probability column is the whole 256 × 1 buffer. -/
theorem cover_logp (p : FVec F S256x1 .f32) (y : S256x1.Idx) :
    ∃ pc ∈ ([⟨rT, p⟩] : List (View.Piece (Elt F) S256x1 .f32)), y ∈ pc.1.set :=
  View.cover_of_tiled _ S256x1.size (by rfl) y

/-- The three column bands [0,128), [128,1152), [1152,2176) fill the 256 × 2176 buffer: cut into 256 × 128 blocks
    they are its 17 blocks, each once. -/
theorem cover_prob (p2 p1 : FVec F S256x1024 .f32) (p0 : FVec F S256x128 .f32) (y : S256x2176.Idx) :
    ∃ pc ∈ ([⟨rP2, p2⟩, ⟨rP1, p1⟩, ⟨rP0, p0⟩] : List (View.Piece (Elt F) S256x2176 .f32)), y ∈ pc.1.set :=
  View.cover_of_tiledBy _ ![256, 128] (by sl_kernel_rfl) y

/-! ## The body's triple -/

set_option maxHeartbeats 4000000 in
/-- The body on whole buffers: the five inputs read `x0 … x4`, the two outputs hold anything. It runs to its return
    with the inputs as they were, the first output at the canon of its one store and the second at the canon of its
    three, each payload a function of the loaded inputs alone. The body reads each output band before it overwrites it;
    what those reads return is never used. -/
theorem sound_kernel (c : Dev nD) (E : Set ℕ) (i : grid0.Coords)
    (arg1 : Memref sig .tc .vmem S256x2048 .f32) (harg1 : arg1.IsWhole) (arg2 : Memref sig .tc .vmem S256x1 .i32) (harg2 : arg2.IsWhole)
    (arg3 : Memref sig .tc .vmem S256x1 .i32) (harg3 : arg3.IsWhole) (arg4 : Memref sig .tc .vmem S2048x2176 .bf16) (harg4 : arg4.IsWhole)
    (arg5 : Memref sig .tc .vmem S1x2176 .f32) (harg5 : arg5.IsWhole) (arg6 : Memref sig .tc .vmem S256x1 .f32) (harg6 : arg6.IsWhole)
    (arg7 : Memref sig .tc .vmem S256x2176 .f32) (harg7 : arg7.IsWhole)
    (x0 : Vec F S256x2048 .f32) (x1 x2 : Vec F S256x1 .i32) (x3 : Vec F S2048x2176 .bf16) (x4 : Vec F S1x2176 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outLogp x0 x1 x2 x3 x4)
            ∗ owns (c : Thread nD τ) arg7 fullShare (outProb x0 x1 x2 x3 x4)) -∗ K ⟨⟩))
      ⊢ wp frame (wpE (defs₀ (F := F)) Variants.none c none) E
          (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_logp _)
  iexists _; isplitr
  swap; · iexact H6
  ipureintro
  exact View.read_writes_eq_canon _ _ _ (cover_prob _ _ _)

/-! ## The body at a grid point -/

/-- What the pipeline hands the body at point `t`: the invariant, the core's debt, and the seven windows' current
    buffers, each whole at what the proof data say it holds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At every point the five input buffers hold their blocks, so the body's triple applies at those blocks; the two
    output buffers are handed over at whatever they hold; the invariant and the debt are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with the semaphores at zero, every weakly fair execution of @main terminates without fault; at
    the end each of the seven arrays holds what the pipeline's write-backs leave in it, and every other unscoped
    buffer holds what the lines after the region leave in it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.Kernel.Heads.run_main' depends on axioms: [propext, Classical.choice, Quot.sound] -/
#guard_msgs in #print axioms run_main

/-- The nine argument arrays end as launched: none of them is one of the seven arrays, so each is among the buffers
    the region passes by, which end at what the later lines leave; and no line writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.Kernel.Heads

end
-- ==== Proof.KI.Data.lean ====
/-
  The data of the one region of @main: the arrays as the region finds them (after the host lines that build the
  fused weight matrix and bias row), each window's block at a grid point, and what the body leaves in its two
  output buffers at a point, as functions of the five input blocks.

  The body computes, for a tile of 256 tokens, the 2176 fused logits `x · W + b` and from them
    • the log-probability column (256 × 1), stored whole into the first output buffer;
    • the padded probability tile (256 × 2176), stored in three column bands [0,128), [128,1152), [1152,2176)
      into the second output buffer: 126 zero columns and the two end columns; the hcw columns; the roo columns.
-/
import proofs.«410987_j75797582839976_2_alg».proof.Proof.Gen.KernelIdeal.Launch
import proofs.«410987_j75797582839976_2_alg».proof.Proof.Gen.KernelIdeal.Skeleton
import proofs.«410987_j75797582839976_2_alg».proof.Proof.Gen.KernelIdeal.Points
import Idealize.ShloMosaic.Lib.Pipeline.FrameBody
import Idealize.ShloMosaic.Lib.Pipeline.FrameSuffix

noncomputable section

namespace Cert.KernelIdeal.Heads

open Cert.KernelIdeal Cert.KernelIdeal.Gen
open Idealize.ShloMosaic Idealize.ShloMosaic.TcCoe
open Idealize.SL Idealize.SL.RA Idealize.SL.BI Idealize.SL.Sem
open Idealize.ShloMosaic.Rounds
open Idealize.ShloMosaic.Pipeline (Dat Cfg Window)

variable {F : FTy → Type} [FloatOps F]

variable (m : (ℓ : Loc nD τ sig) → Buf (Elt F) ℓ)

/-! ## The arrays when the region is entered -/

/-- Core `c`'s buffers after the host lines before the region, as a valuation. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's rectangles -/

/-- The whole token tile of hidden rows. -/
abbrev rX : Rect S256x2048 := Rect.unit (s := S256x2048) ![0, 0] S256x2048.size inb_S256x2048_S256x2048_0_0
/-- The whole fused weight matrix. -/
abbrev rW : Rect S2048x2176 := Rect.unit (s := S2048x2176) ![0, 0] S2048x2176.size inb_S2048x2176_S2048x2176_0_0
/-- The whole fused bias row. -/
abbrev rB : Rect S1x2176 := Rect.unit (s := S1x2176) ![0, 0] S1x2176.size inb_S1x2176_S1x2176_0_0
/-- A whole one-column tile (class words, label words, the log-probability column). -/
abbrev rT : Rect S256x1 := Rect.unit (s := S256x1) ![0, 0] S256x1.size inb_S256x1_S256x1_0_0
/-- Columns [0, 128) of the padded probability tile. -/
abbrev rP0 : Rect S256x2176 := Rect.unit (s := S256x2176) ![0, 0] S256x128.size inb_S256x2176_S256x128_0_0
/-- Columns [128, 1152) of the padded probability tile. -/
abbrev rP1 : Rect S256x2176 := Rect.unit (s := S256x2176) ![0, 128] S256x1024.size inb_S256x2176_S256x1024_0_128
/-- Columns [1152, 2176) of the padded probability tile. -/
abbrev rP2 : Rect S256x2176 := Rect.unit (s := S256x2176) ![0, 1152] S256x1024.size inb_S256x2176_S256x1024_0_1152

/-! ## What the body stores, from what it loads -/

/-- The log-probability column of a tile, from the loaded hidden rows `x`, class words `py`, label words `y`, fused
    weights `w` and fused bias `b`. -/
def logpTile (x : Vec F S256x2048 .f32) (py y : Vec F S256x1 .i32) (w : Vec F S2048x2176 .bf16) (b : Vec F S1x2176 .f32) :
    FVec F S256x1 .f32 :=
  k0_pay22 (k0_pay4 x w b) (k0_pay7 py) (k0_pay8 py) (k0_pay9 py) (k0_pay13 y) (k0_pay15 (k0_pay14 y) 0#32)
    (k0_pay16 (k0_pay2 x w b)) (k0_pay17 (k0_pay2 x w b)) (k0_pay20 (k0_pay3 x w b))

/-- Columns [0, 128) of the padded probability tile: 126 zeros, then the end probability twice, masked. -/
def endTile (x : Vec F S256x2048 .f32) (py : Vec F S256x1 .i32) (w : Vec F S2048x2176 .bf16) (b : Vec F S1x2176 .f32) :
    FVec F S256x128 .f32 :=
  k0_pay23 (k0_pay10 py) (k0_pay18 (k0_pay2 x w b))

/-- Columns [128, 1152): the hcw probabilities, masked. -/
def hcwTile (x : Vec F S256x2048 .f32) (py : Vec F S256x1 .i32) (w : Vec F S2048x2176 .bf16) (b : Vec F S1x2176 .f32) :
    FVec F S256x1024 .f32 :=
  k0_pay24 (k0_pay11 py) (k0_pay19 (k0_pay2 x w b)) (k0_pay20 (k0_pay3 x w b))

/-- Columns [1152, 2176): the roo probabilities, masked. -/
def rooTile (x : Vec F S256x2048 .f32) (py : Vec F S256x1 .i32) (w : Vec F S2048x2176 .bf16) (b : Vec F S1x2176 .f32) :
    FVec F S256x1024 .f32 :=
  k0_pay25 (k0_pay4 x w b) (k0_pay12 py) (k0_pay19 (k0_pay2 x w b))

/-- The first output buffer after the body: its one store, of the log-probability column. -/
def outLogp (x0 : Vec F S256x2048 .f32) (x1 x2 : Vec F S256x1 .i32) (x3 : Vec F S2048x2176 .bf16) (x4 : Vec F S1x2176 .f32) :
    Vec F S256x1 .f32 :=
  View.canon [⟨rT, logpTile (View.ld x0 rX) (View.ld x1 rT) (View.ld x2 rT) (View.ld x3 rW) (View.ld x4 rB)⟩]

/-- The second output buffer after the body: its three stores as pieces, the last first. -/
def outProb (x0 : Vec F S256x2048 .f32) (x1 x2 : Vec F S256x1 .i32) (x3 : Vec F S2048x2176 .bf16) (x4 : Vec F S1x2176 .f32) :
    Vec F S256x2176 .f32 :=
  View.canon [⟨rP2, rooTile (View.ld x0 rX) (View.ld x1 rT) (View.ld x3 rW) (View.ld x4 rB)⟩,
    ⟨rP1, hcwTile (View.ld x0 rX) (View.ld x1 rT) (View.ld x3 rW) (View.ld x4 rB)⟩,
    ⟨rP0, endTile (View.ld x0 rX) (View.ld x1 rT) (View.ld x3 rW) (View.ld x4 rB)⟩]

/-! ## The pipeline's proof data -/

/-- The proof data of the one pipeline on core `c`: the arrays as the region finds them; after the body at point `t`
    each input's buffer at its block and each output's at what the body stores from the input blocks; the scoped rest
    and the generator register untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outLogp (iblk m c 0 t) (iblk m c 1 t) (iblk m c 2 t) (iblk m c 3 t) (iblk m c 4 t)
    | ⟨6, _⟩ => outProb (iblk m c 0 t) (iblk m c 1 t) (iblk m c 2 t) (iblk m c 3 t) (iblk m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) :
    (dats m 0 c).after 5 t = outLogp (iblk m c 0 t) (iblk m c 1 t) (iblk m c 2 t) (iblk m c 3 t) (iblk m c 4 t) := by
  dsimp only [dats]
theorem after_6 (c : Dev nD) (t : Fin cfg0.N) :
    (dats m 0 c).after 6 t = outProb (iblk m c 0 t) (iblk m c 1 t) (iblk m c 2 t) (iblk m c 3 t) (iblk m c 4 t) := by
  dsimp only [dats]

end Cert.KernelIdeal.Heads

end
-- ==== Proof.Spec.lean ====
/-
  What both programs compute, as plain real functions of real data.

  A token (b, s) of the batch has three heads over its hidden row x = X[b, s, :]:
    • an "end" logit      e   = ⟨x, W_end[0, :]⟩ + b_end[0];
    • 1024 "hcw" logits   u k = ⟨x, W_hcw[k, :]⟩ + b_hcw[k];
    • 1024 "roo" logits   r k = ⟨x, W_roo[k, :]⟩ + b_roo[k].
  With σ the logistic function and softmax taken with the row maximum subtracted (both programs subtract it),
  the class word pY ∈ {0, 1, 2, other} selects
    log_prob = log σ(e) | log (softmax(u)[kh] · (1 − σ(e))) | log (softmax(r)[kr] · (1 − σ(e))) | 0,
  where kh, kr are the label word Y moved by 2 (by 2 + 1024) and clipped to [0, 1023] in signed 32-bit arithmetic, and
    prob_all = [σ(e)·[pY = 0] (twice), softmax(u)·(1 − σ(e))·[pY = 1] (1024), softmax(r)·(1 − σ(e))·[pY = 2] (1024)].
-/
import Idealize.ShloMosaic.PureOps.Ideal
import Idealize.ShloMosaic.Lib.ValueIdx
import Idealize.ShloMosaic.Lib.WordArith
import Mathlib.Analysis.SpecialFunctions.Log.Basic

noncomputable section

namespace Cert.Heads

open Idealize.ShloMosaic Idealize.ShloMosaic.ValueIdx

/-! ## The label word clipped to a class index -/

/-- The label word moved down by 2 and clipped to `[0, 1023]` (signed): the hcw class the token is scored at. -/
def hcwWord (y : BitVec 32) : BitVec 32 := IntOp.minsi 1023#32 (IntOp.maxsi 0#32 (IntOp.subi y 2#32))
/-- The label word moved down by 2 and by 1024 and clipped to `[0, 1023]` (signed): the roo class. -/
def rooWord (y : BitVec 32) : BitVec 32 :=
  IntOp.minsi 1023#32 (IntOp.maxsi 0#32 (IntOp.subi (IntOp.subi y 2#32) 1024#32))

/-- A word clipped below at 0 and above at 1023 in signed arithmetic lies in `[0, 1023]`, read signed. -/
theorem clip_toInt (x : BitVec 32) :
    0 ≤ (IntOp.minsi 1023#32 (IntOp.maxsi 0#32 x)).toInt ∧ (IntOp.minsi 1023#32 (IntOp.maxsi 0#32 x)).toInt ≤ 1023 := by
  unfold IntOp.minsi IntOp.maxsi
  simp only [BitVec.slt, decide_eq_true_eq]
  have h1023 : (1023#32 : BitVec 32).toInt = 1023 := by decide
  have h0 : (0#32 : BitVec 32).toInt = 0 := by decide
  split_ifs with h1 h2 h2 <;> simp only [h1023, h0] at * <;> omega

/-- and read unsigned it is below 1024. -/
theorem clip_toNat_lt (x : BitVec 32) : (IntOp.minsi 1023#32 (IntOp.maxsi 0#32 x)).toNat < 1024 := by
  have h := clip_toInt x
  have := BitVec.toInt_eq_toNat_cond (IntOp.minsi 1023#32 (IntOp.maxsi 0#32 x))
  have hlt := (IntOp.minsi 1023#32 (IntOp.maxsi 0#32 x)).isLt
  split_ifs at this <;> omega

theorem hcwWord_lt (y : BitVec 32) : (hcwWord y).toNat < 1024 := clip_toNat_lt _
theorem rooWord_lt (y : BitVec 32) : (rooWord y).toNat < 1024 := clip_toNat_lt _

/-- The hcw class of a label word. -/
def hcwIdx (y : BitVec 32) : Fin 1024 := ⟨(hcwWord y).toNat, hcwWord_lt y⟩
/-- The roo class of a label word. -/
def rooIdx (y : BitVec 32) : Fin 1024 := ⟨(rooWord y).toNat, rooWord_lt y⟩

/-! ## One token's heads, over the reals -/

/-- The logistic function. -/
def sig (e : ℝ) : ℝ := 1 / (1 + Real.exp (-e))

/-- The largest of a row's 1024 logits. -/
def rowMax (u : Fin 1024 → ℝ) : ℝ := Finset.univ.sup' Finset.univ_nonempty u

/-- The sum of a row's exponentials, the row maximum subtracted. -/
def rowSum (u : Fin 1024 → ℝ) : ℝ := ∑ j : Fin 1024, Real.exp (u j - rowMax u)

/-- Softmax of a row of 1024 logits, with the row maximum subtracted before exponentiating. -/
def smax (u : Fin 1024 → ℝ) (k : Fin 1024) : ℝ := Real.exp (u k - rowMax u) / rowSum u

/-- `1` where the proposition holds, `0` elsewhere. -/
def ind (p : Prop) [Decidable p] : ℝ := if p then 1 else 0

/-- A token's log-probability from its class word, label word and logits. -/
def logp (py y : BitVec 32) (e : ℝ) (u r : Fin 1024 → ℝ) : ℝ :=
  if py = 0#32 then Real.log (sig e)
  else if py = 1#32 then Real.log (smax u (hcwIdx y) * (1 - sig e))
  else if py = 2#32 then Real.log (smax r (rooIdx y) * (1 - sig e))
  else 0

/-- A token's row of the probability table: two end columns, 1024 hcw columns, 1024 roo columns. -/
def prob (py : BitVec 32) (e : ℝ) (u r : Fin 1024 → ℝ) (j : Fin 2050) : ℝ :=
  if j.val < 2 then sig e * ind (py = 0#32)
  else if h : j.val < 1026 then smax u ⟨j.val - 2, by omega⟩ * (1 - sig e) * ind (py = 1#32)
  else smax r ⟨j.val - 1026, by have := j.isLt; omega⟩ * (1 - sig e) * ind (py = 2#32)

/-! ## The logits of a token from the argument arrays, over the reals -/

abbrev SX : Shape := ⟨3, ![32, 512, 2048]⟩
abbrev ST : Shape := ⟨2, ![32, 512]⟩
abbrev SWe : Shape := ⟨2, ![1, 2048]⟩
abbrev Sbe : Shape := ⟨1, ![1]⟩
abbrev SW : Shape := ⟨2, ![1024, 2048]⟩
abbrev Sb : Shape := ⟨1, ![1024]⟩
abbrev SP : Shape := ⟨3, ![32, 512, 2050]⟩

/-- The end logit of token `(b, s)`. -/
def endLogit (X : SX.Idx → ℝ) (We : SWe.Idx → ℝ) (be : Sbe.Idx → ℝ) (b : Fin 32) (s : Fin 512) : ℝ :=
  (∑ h : Fin 2048, X (ix3 b s h) * We (ix2 (0 : Fin 1) h)) + be (ix1 (0 : Fin 1))

/-- The logits of a 1024-class head of token `(b, s)`. -/
def headLogit (X : SX.Idx → ℝ) (W : SW.Idx → ℝ) (bias : Sb.Idx → ℝ) (b : Fin 32) (s : Fin 512) (k : Fin 1024) : ℝ :=
  (∑ h : Fin 2048, X (ix3 b s h) * W (ix2 k h)) + bias (ix1 k)

/-! ## The two results -/

/-- The real data behind finite float arguments: the nine argument arrays with the seven float ones real-valued. -/
structure Args where
  X : SX.Idx → ℝ
  pY : ST.Idx → BitVec 32
  Y : ST.Idx → BitVec 32
  We : SWe.Idx → ℝ
  be : Sbe.Idx → ℝ
  Wh : SW.Idx → ℝ
  bh : Sb.Idx → ℝ
  Wr : SW.Idx → ℝ
  br : Sb.Idx → ℝ

/-- Token `(b, s)`'s log-probability. -/
def Args.logpAt (A : Args) (b : Fin 32) (s : Fin 512) : ℝ :=
  logp (A.pY (ix2 b s)) (A.Y (ix2 b s)) (endLogit A.X A.We A.be b s) (headLogit A.X A.Wh A.bh b s) (headLogit A.X A.Wr A.br b s)

/-- Token `(b, s)`'s row of the probability table. -/
def Args.probAt (A : Args) (b : Fin 32) (s : Fin 512) (j : Fin 2050) : ℝ :=
  prob (A.pY (ix2 b s)) (endLogit A.X A.We A.be b s) (headLogit A.X A.Wh A.bh b s) (headLogit A.X A.Wr A.br b s) j

/-- The first result, `log_prob : f32[32, 512]`, as extended reals. -/
def Args.outLogp (A : Args) : ST.Idx → EReal := fun i => ((A.logpAt (i 0) (i 1) : ℝ) : EReal)

/-- The second result, `prob_all : f32[32, 512, 2050]`, as extended reals. -/
def Args.outProb (A : Args) : SP.Idx → EReal := fun i => ((A.probAt (i 0) (i 1) (i 2) : ℝ) : EReal)

end Cert.Heads

end
-- ==== Proof.Analysis.lean ====
/-
  The real analysis behind the two programs' agreement, and the passage from extended reals to reals.

  The kernel computes log σ(e) as −softplus(−e) with softplus(x) = max(x, 0) + log(1 + exp(−|x|)), log (1 − σ(e)) as
  −softplus(e), and log-softmax as (u − max u) − log Σ exp(u − max u); the reference applies log to σ(e) and to
  softmax(u)[k]·(1 − σ(e)). Over the reals these agree; the lemmas below say so in the shapes the two sides meet.
-/
import proofs.«410987_j75797582839976_2_alg».proof.Proof.Spec
import Mathlib.Analysis.SpecialFunctions.Log.Basic
import Mathlib.Analysis.SpecialFunctions.Exp

noncomputable section

namespace Cert.Heads

open Idealize.ShloMosaic

/-! ## The logistic function -/

theorem sig_pos (e : ℝ) : 0 < sig e := by
  unfold sig
  have := Real.exp_pos (-e)
  positivity
theorem sig_lt_one (e : ℝ) : sig e < 1 := by
  unfold sig
  have := Real.exp_pos (-e)
  rw [div_lt_one (by linarith)]
  linarith
theorem one_sub_sig (e : ℝ) : 1 - sig e = 1 / (1 + Real.exp e) := by
  unfold sig
  have h := Real.exp_pos e
  rw [Real.exp_neg]
  field_simp
  ring
theorem one_sub_sig_pos (e : ℝ) : 0 < 1 - sig e := by
  rw [one_sub_sig]
  have := Real.exp_pos e
  positivity

/-- Softplus in its stable form: `max x 0 + log (1 + exp (−|x|)) = log (1 + exp x)`. -/
theorem softplus_stable (x : ℝ) :
    max x 0 + Real.log (1 + Real.exp (0 - |x|)) = Real.log (1 + Real.exp x) := by
  rcases le_total 0 x with h | h
  · rw [max_eq_left h, abs_of_nonneg h, zero_sub]
    have hx : 1 + Real.exp x = Real.exp x * (1 + Real.exp (-x)) := by
      rw [mul_add, mul_one, ← Real.exp_add, add_neg_cancel, Real.exp_zero, add_comm]
    have hpos : 0 < 1 + Real.exp (-x) := by have := Real.exp_pos (-x); linarith
    rw [hx, Real.log_mul (Real.exp_pos x).ne' hpos.ne', Real.log_exp]
  · rw [max_eq_right h, abs_of_nonpos h, zero_add, zero_sub, neg_neg]

/-- The stable log-sigmoid, as the kernel spells it (every subtraction from zero kept as written). -/
theorem logsig_stable (e : ℝ) :
    0 - (max (0 - e) 0 + Real.log (1 + Real.exp (0 - |0 - e|))) = Real.log (sig e) := by
  rw [softplus_stable]
  unfold sig
  rw [one_div, Real.log_inv, zero_sub, zero_sub]

/-- The stable log of the complement, as the kernel spells it. -/
theorem lognsig_stable (e : ℝ) :
    0 - (max (0 - (0 - e)) 0 + Real.log (1 + Real.exp (0 - |0 - (0 - e)|))) = Real.log (1 - sig e) := by
  rw [softplus_stable, one_sub_sig, one_div, Real.log_inv, zero_sub, zero_sub, zero_sub, neg_neg]

/-! ## Softmax with the row maximum subtracted -/

theorem rowSum_pos (u : Fin 1024 → ℝ) : 0 < rowSum u := by
  unfold rowSum
  exact Finset.sum_pos (fun _ _ => Real.exp_pos _) Finset.univ_nonempty
theorem smax_pos (u : Fin 1024 → ℝ) (k : Fin 1024) : 0 < smax u k := by
  unfold smax
  exact div_pos (Real.exp_pos _) (rowSum_pos u)
/-- Exponentiating the log-softmax gives the softmax. -/
theorem exp_logsoftmax (u : Fin 1024 → ℝ) (k : Fin 1024) :
    Real.exp (u k - rowMax u - Real.log (rowSum u)) = smax u k := by
  rw [Real.exp_sub, Real.exp_log (rowSum_pos u)]
  rfl
/-- The log of the picked probability splits into the log-softmax and the log of the complement. -/
theorem log_pick (u : Fin 1024 → ℝ) (k : Fin 1024) (e : ℝ) :
    Real.log (smax u k * (1 - sig e)) = (u k - rowMax u - Real.log (rowSum u)) + Real.log (1 - sig e) := by
  rw [Real.log_mul (smax_pos u k).ne' (one_sub_sig_pos e).ne']
  congr 1
  unfold smax
  rw [Real.log_div (Real.exp_pos _).ne' (rowSum_pos u).ne', Real.log_exp]
/-- A one-hot sum picks its entry. -/
theorem onehot_sum (f : Fin 1024 → ℝ) (k : Fin 1024) : (∑ j : Fin 1024, if j = k then f j else 0) = f k := by
  rw [Finset.sum_ite_eq']
  simp

/-! ## Extended reals that are reals -/

theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]
theorem coe_max (a b : ℝ) : max ((a : ℝ) : EReal) ((b : ℝ) : EReal) = ((max a b : ℝ) : EReal) := by
  exact (EReal.coe_strictMono.monotone.map_max).symm
theorem coe_abs (a : ℝ) : max ((a : ℝ) : EReal) (-((a : ℝ) : EReal)) = ((|a| : ℝ) : EReal) := by
  rw [← EReal.coe_neg, coe_max, abs_eq_max_neg]
theorem log_coe_pos {r : ℝ} (h : 0 < r) : Ideal.log ((r : ℝ) : EReal) = ((Real.log r : ℝ) : EReal) := by
  rw [Ideal.log_coe, if_neg (not_le.mpr h)]
theorem div_coe_coe (a : ℝ) {b : ℝ} (hb : b ≠ 0) : Ideal.div ((a : ℝ) : EReal) ((b : ℝ) : EReal) = ((a / b : ℝ) : EReal) := by
  rw [Ideal.div_coe hb, ← EReal.coe_mul, mul_one_div]
/-- The largest of 1024 reals, as the supremum over the extended reals starting from `⊥`. -/
theorem sup_coe (u : Fin 1024 → ℝ) : (Finset.univ.sup fun j : Fin 1024 => ((u j : ℝ) : EReal)) = ((rowMax u : ℝ) : EReal) := by
  rw [← Finset.sup'_eq_sup Finset.univ_nonempty]
  unfold rowMax
  exact (Finset.comp_sup'_eq_sup'_comp Finset.univ_nonempty (fun x : ℝ => (x : EReal))
    (fun x y => EReal.coe_strictMono.monotone.map_sup x y)).symm

/-! ## The same facts in the shapes the two programs meet them -/

/-- The logistic function with the quotient written as an inverse. -/
theorem sig_eq_inv (e : ℝ) : sig e = (1 + Real.exp (-e))⁻¹ := by
  unfold sig
  rw [one_div]

/-- The logistic operation of the extended reals at a real is the logistic function there. -/
theorem logistic_coe_sig (e : ℝ) : Ideal.logistic ((e : ℝ) : EReal) = ((sig e : ℝ) : EReal) := by
  rw [Ideal.logistic_coe, sig_eq_inv]

/-- The fold of `max` from `⊥` over a row of reals is the row's largest entry. -/
theorem fold_max_coe (u : Fin 1024 → ℝ) :
    (Finset.univ : Finset (Fin 1024)).fold max (⊥ : EReal) (fun j => ((u j : ℝ) : EReal)) = ((rowMax u : ℝ) : EReal) := by
  rw [← sup_coe]
  rfl

/-- The same for any row of extended reals known entrywise to be the reals `u`. -/
theorem fold_max_of_coe (f : Fin 1024 → EReal) (u : Fin 1024 → ℝ) (h : ∀ j, f j = ((u j : ℝ) : EReal)) :
    (Finset.univ : Finset (Fin 1024)).fold max (⊥ : EReal) f = ((rowMax u : ℝ) : EReal) := by
  rw [show f = fun j => ((u j : ℝ) : EReal) from funext h]
  exact fold_max_coe u

/-- The sum of the exponentials of a row of reals less a real, over the extended reals. -/
theorem sum_exp_sub_coe (u : Fin 1024 → ℝ) (m : ℝ) :
    (∑ j : Fin 1024, Ideal.exp (((u j : ℝ) : EReal) - ((m : ℝ) : EReal))) = ((∑ j : Fin 1024, Real.exp (u j - m) : ℝ) : EReal) := by
  rw [← coe_sum]
  refine Finset.sum_congr rfl fun j _ => ?_
  rw [← EReal.coe_sub, Ideal.exp_coe]

/-- With the row maximum subtracted it is the row's sum of exponentials. -/
theorem sum_exp_sub_rowMax_coe (u : Fin 1024 → ℝ) :
    (∑ j : Fin 1024, Ideal.exp (((u j : ℝ) : EReal) - ((rowMax u : ℝ) : EReal))) = ((rowSum u : ℝ) : EReal) :=
  sum_exp_sub_coe u (rowMax u)

theorem rowSum_ne_zero (u : Fin 1024 → ℝ) : rowSum u ≠ 0 := (rowSum_pos u).ne'

/-- The softmax quotient over the extended reals is the softmax. -/
theorem smax_coe (u : Fin 1024 → ℝ) (k : Fin 1024) :
    Ideal.div (Ideal.exp (((u k : ℝ) : EReal) - ((rowMax u : ℝ) : EReal)))
        (∑ j : Fin 1024, Ideal.exp (((u j : ℝ) : EReal) - ((rowMax u : ℝ) : EReal))) = ((smax u k : ℝ) : EReal) := by
  rw [sum_exp_sub_rowMax_coe, ← EReal.coe_sub, Ideal.exp_coe, div_coe_coe _ (rowSum_ne_zero u)]
  rfl

/-- Every logit is at most the row maximum. -/
theorem le_rowMax (u : Fin 1024 → ℝ) (k : Fin 1024) : u k ≤ rowMax u :=
  Finset.le_sup' u (Finset.mem_univ k)

theorem one_add_exp_pos (x : ℝ) : 0 < 1 + Real.exp x := by
  have := Real.exp_pos x
  linarith

/-! ## The stable forms over the extended reals, at a real argument -/

theorem zero_sub_coe (e : ℝ) : (0 : EReal) - ((e : ℝ) : EReal) = ((0 - e : ℝ) : EReal) := by
  rw [EReal.coe_sub, EReal.coe_zero]

/-- Softplus in its stable form, every operation taken over the extended reals. -/
theorem softplus_stable_coe (x : ℝ) :
    max ((x : ℝ) : EReal) 0 + Ideal.log (1 + Ideal.exp (0 - max ((x : ℝ) : EReal) (-((x : ℝ) : EReal))))
      = ((Real.log (1 + Real.exp x) : ℝ) : EReal) := by
  rw [coe_abs, zero_sub_coe, Ideal.exp_coe, ← EReal.coe_one, ← EReal.coe_add, log_coe_pos (one_add_exp_pos _),
    ← EReal.coe_zero, coe_max, ← EReal.coe_add, softplus_stable]

/-- The stable log-sigmoid, every operation taken over the extended reals. -/
theorem logsig_stable_coe (e : ℝ) :
    (0 : EReal) - (max (0 - ((e : ℝ) : EReal)) 0
        + Ideal.log (1 + Ideal.exp (0 - max (0 - ((e : ℝ) : EReal)) (-(0 - ((e : ℝ) : EReal))))))
      = ((Real.log (sig e) : ℝ) : EReal) := by
  rw [zero_sub_coe, softplus_stable_coe, zero_sub_coe, ← logsig_stable, softplus_stable]

/-- The stable log of the complement, every operation taken over the extended reals. -/
theorem lognsig_stable_coe (e : ℝ) :
    (0 : EReal) - (max (0 - (0 - ((e : ℝ) : EReal))) 0
        + Ideal.log (1 + Ideal.exp (0 - max (0 - (0 - ((e : ℝ) : EReal))) (-(0 - (0 - ((e : ℝ) : EReal)))))))
      = ((Real.log (1 - sig e) : ℝ) : EReal) := by
  rw [zero_sub_coe, zero_sub_coe, softplus_stable_coe, zero_sub_coe, ← lognsig_stable, softplus_stable]

/-- Exponentiating the log of the logistic function gives it back, over the extended reals. -/
theorem exp_logsig_coe (e : ℝ) : Ideal.exp ((Real.log (sig e) : ℝ) : EReal) = ((sig e : ℝ) : EReal) := by
  rw [Ideal.exp_coe, Real.exp_log (sig_pos e)]

/-- … and of its complement. -/
theorem exp_lognsig_coe (e : ℝ) : Ideal.exp ((Real.log (1 - sig e) : ℝ) : EReal) = ((1 - sig e : ℝ) : EReal) := by
  rw [Ideal.exp_coe, Real.exp_log (one_sub_sig_pos e)]

/-- The log-softmax over the extended reals. -/
theorem logsoftmax_coe (u : Fin 1024 → ℝ) (k : Fin 1024) :
    ((u k : ℝ) : EReal) - ((rowMax u : ℝ) : EReal)
        - Ideal.log (∑ j : Fin 1024, Ideal.exp (((u j : ℝ) : EReal) - ((rowMax u : ℝ) : EReal)))
      = ((u k - rowMax u - Real.log (rowSum u) : ℝ) : EReal) := by
  rw [sum_exp_sub_rowMax_coe, log_coe_pos (rowSum_pos u), ← EReal.coe_sub, ← EReal.coe_sub]

/-- Exponentiating it gives the softmax, over the extended reals. -/
theorem exp_logsoftmax_coe (u : Fin 1024 → ℝ) (k : Fin 1024) :
    Ideal.exp ((u k - rowMax u - Real.log (rowSum u) : ℝ) : EReal) = ((smax u k : ℝ) : EReal) := by
  rw [Ideal.exp_coe, exp_logsoftmax]

/-- A one-hot sum over the extended reals picks its entry. -/
theorem onehot_sum_ereal (f : Fin 1024 → EReal) (k : Fin 1024) :
    (∑ j : Fin 1024, if j = k then f j else 0) = f k := by
  rw [Finset.sum_ite_eq']
  simp

/-- The picked probability is positive, so its log over the extended reals is the real log. -/
theorem pick_pos (u : Fin 1024 → ℝ) (k : Fin 1024) (e : ℝ) : 0 < smax u k * (1 - sig e) :=
  mul_pos (smax_pos u k) (one_sub_sig_pos e)

theorem log_pick_coe (u : Fin 1024 → ℝ) (k : Fin 1024) (e : ℝ) :
    Ideal.log ((smax u k * (1 - sig e) : ℝ) : EReal) = ((Real.log (smax u k * (1 - sig e)) : ℝ) : EReal) :=
  log_coe_pos (pick_pos u k e)

theorem log_sig_coe (e : ℝ) : Ideal.log ((sig e : ℝ) : EReal) = ((Real.log (sig e) : ℝ) : EReal) :=
  log_coe_pos (sig_pos e)

theorem one_sub_coe (a : ℝ) : (1 : EReal) - ((a : ℝ) : EReal) = ((1 - a : ℝ) : EReal) := by
  rw [EReal.coe_sub, EReal.coe_one]

end Cert.Heads

end
-- ==== Proof.KI.Logits.lean ====
/-
  The fused logits of a tile, read at an index: the product of the token rows with the fused weight matrix plus the
  fused bias row, entry (p, j), is the inner product of row p with column j plus the bias at j; the three column
  slices read columns 126, 128 + k, 1152 + k. With real blocks every entry is the real number of that name.
-/
import proofs.«410987_j75797582839976_2_alg».proof.Proof.KI.Data
import proofs.«410987_j75797582839976_2_alg».proof.Proof.Spec
import proofs.«410987_j75797582839976_2_alg».proof.Proof.Analysis
import Idealize.ShloMosaic.PureOps.Ideal.Laws
import Idealize.ShloMosaic.Lib.ValueLayout

noncomputable section

namespace Cert.KernelIdeal.Heads

open Cert.KernelIdeal Cert.KernelIdeal.Gen Cert.Heads
open Idealize.ShloMosaic Idealize.ShloMosaic.TcCoe Idealize.ShloMosaic.ValueIdx

/-! ## The product's operand indices, axis by axis -/

theorem lhs_mm_0 (i : S256x2176.Idx) (q : dot_S256x2048_S2048x2176_S256x2176_1_0_0_1_n_n.contr.Idx) :
    (dot_S256x2048_S2048x2176_S256x2176_1_0_0_1_n_n.lhsIdx i q 0).val = (i 0).val := by
  unfold DotDims.lhsIdx
  rw [dif_neg (show ¬(0 : Fin S256x2048.rank) ∈ dot_S256x2048_S2048x2176_S256x2176_1_0_0_1_n_n.lhsBatch by decide), dif_pos (show (0 : Fin S256x2048.rank) ∈ dot_S256x2048_S2048x2176_S256x2176_1_0_0_1_n_n.lhsNonContracting by decide)]
  rfl
theorem lhs_mm_1 (i : S256x2176.Idx) (q : dot_S256x2048_S2048x2176_S256x2176_1_0_0_1_n_n.contr.Idx) :
    (dot_S256x2048_S2048x2176_S256x2176_1_0_0_1_n_n.lhsIdx i q 1).val = (q ⟨0, by decide⟩).val :=
  dot_S256x2048_S2048x2176_S256x2176_1_0_0_1_n_n.lhsIdx_val_of_single rfl i q
theorem rhs_mm_0 (i : S256x2176.Idx) (q : dot_S256x2048_S2048x2176_S256x2176_1_0_0_1_n_n.contr.Idx) :
    (dot_S256x2048_S2048x2176_S256x2176_1_0_0_1_n_n.rhsIdx i q 0).val = (q ⟨0, by decide⟩).val :=
  dot_S256x2048_S2048x2176_S256x2176_1_0_0_1_n_n.rhsIdx_val_of_single rfl i q
theorem rhs_mm_1 (i : S256x2176.Idx) (q : dot_S256x2048_S2048x2176_S256x2176_1_0_0_1_n_n.contr.Idx) :
    (dot_S256x2048_S2048x2176_S256x2176_1_0_0_1_n_n.rhsIdx i q 1).val = (i 1).val := by
  unfold DotDims.rhsIdx
  rw [dif_neg (show ¬(1 : Fin S2048x2176.rank) ∈ dot_S256x2048_S2048x2176_S256x2176_1_0_0_1_n_n.rhsBatch by decide), dif_pos (show (1 : Fin S2048x2176.rank) ∈ dot_S256x2048_S2048x2176_S256x2176_1_0_0_1_n_n.rhsNonContracting by decide)]
  rfl

/-! ## The fused product at an index -/

/-- The product of the tile's rows with the fused matrix, into the zero accumulator, at (p, j): the sum over the
    hidden coordinate. -/
theorem mm_apply (x : FVec Ideal S256x2048 .bf16) (w : FVec Ideal S2048x2176 .bf16) (p : Fin 256) (j : Fin 2176) :
    matmul dot_S256x2048_S2048x2176_S256x2176_1_0_0_1_n_n none x w (constant (F := Ideal) S256x2176 .f32 0x00000000#32) (ix2 p j)
      = ∑ h : Fin 2048, x (ix2 p h) * w (ix2 h j) := by
  simp only [matmul]
  rw [Ideal.matmul_constant_zero_apply, ← Equiv.sum_comp (ValueIdx.contrEquiv1 dot_S256x2048_S2048x2176_S256x2176_1_0_0_1_n_n 2048 rfl rfl).symm]
  refine Finset.sum_congr rfl fun k _ => ?_
  have hk := ValueIdx.contrEquiv1_symm_val dot_S256x2048_S2048x2176_S256x2176_1_0_0_1_n_n 2048 rfl rfl k
  have el : dot_S256x2048_S2048x2176_S256x2176_1_0_0_1_n_n.lhsIdx (ix2 p j) ((ValueIdx.contrEquiv1 dot_S256x2048_S2048x2176_S256x2176_1_0_0_1_n_n 2048 rfl rfl).symm k) = ix2 p k := funext fun a => Fin.ext (by
    match a with
    | ⟨0, _⟩ => exact lhs_mm_0 _ _
    | ⟨1, _⟩ => exact (lhs_mm_1 _ _).trans hk)
  have er : dot_S256x2048_S2048x2176_S256x2176_1_0_0_1_n_n.rhsIdx (ix2 p j) ((ValueIdx.contrEquiv1 dot_S256x2048_S2048x2176_S256x2176_1_0_0_1_n_n 2048 rfl rfl).symm k) = ix2 k j := funext fun a => Fin.ext (by
    match a with
    | ⟨0, _⟩ => exact (rhs_mm_0 _ _).trans hk
    | ⟨1, _⟩ => exact rhs_mm_1 _ _)
  rw [el, er]

/-- The fused logits at (p, j), over any blocks: the row's product with column j plus the bias there. -/
theorem pay1_apply_gen (x : FVec Ideal S256x2048 .f32) (w : FVec Ideal S2048x2176 .bf16) (b : FVec Ideal S1x2176 .f32)
    (p : Fin 256) (j : Fin 2176) :
    k0_pay1 (F := Ideal) x w b (ix2 p j) = (∑ h : Fin 2048, x (ix2 p h) * w (ix2 h j)) + b (ix2 (0 : Fin 1) j) := by
  unfold k0_pay1
  rw [shapeCast_self, shapeCast_self, shapeCast_self]
  refine (addf_apply _ _ _).trans ?_
  refine congrArg₂ (· + ·) ?_ ?_
  · exact mm_apply _ _ p j
  · exact broadcastTo_1b_ab_apply b _ p j

/-! ## The three slices -/

/-- The end slice reads column 126. -/
theorem pay2_eq (x : FVec Ideal S256x2048 .f32) (w : FVec Ideal S2048x2176 .bf16) (b : FVec Ideal S1x2176 .f32) (p : Fin 256) :
    k0_pay2 (F := Ideal) x w b (ix2 p (0 : Fin 1)) = k0_pay1 (F := Ideal) x w b (ix2 p (⟨126, by omega⟩ : Fin 2176)) := by
  unfold k0_pay2
  exact slice2_axis1_apply 126 _ _ p (0 : Fin 1) (⟨126, by omega⟩ : Fin 2176) rfl

/-- The hcw slice reads columns 128 + k. -/
theorem pay3_eq (x : FVec Ideal S256x2048 .f32) (w : FVec Ideal S2048x2176 .bf16) (b : FVec Ideal S1x2176 .f32) (p : Fin 256)
    (k : Fin 1024) :
    k0_pay3 (F := Ideal) x w b (ix2 p k) = k0_pay1 (F := Ideal) x w b (ix2 p (⟨128 + k.val, by omega⟩ : Fin 2176)) := by
  unfold k0_pay3
  exact slice2_axis1_apply 128 _ _ p k (⟨128 + k.val, by omega⟩ : Fin 2176) rfl

/-- The roo slice reads columns 1152 + k. -/
theorem pay4_eq (x : FVec Ideal S256x2048 .f32) (w : FVec Ideal S2048x2176 .bf16) (b : FVec Ideal S1x2176 .f32) (p : Fin 256)
    (k : Fin 1024) :
    k0_pay4 (F := Ideal) x w b (ix2 p k) = k0_pay1 (F := Ideal) x w b (ix2 p (⟨1152 + k.val, by omega⟩ : Fin 2176)) := by
  unfold k0_pay4
  exact slice2_axis1_apply 1152 _ _ p k (⟨1152 + k.val, by omega⟩ : Fin 2176) rfl

/-! ## Real blocks -/

variable (xr : S256x2048.Idx → ℝ) (wr : S2048x2176.Idx → ℝ) (br : S1x2176.Idx → ℝ)

/-- Entry (p, j) of the fused logits over the reals. -/
def tileLogit (p : Fin 256) (j : Fin 2176) : ℝ :=
  (∑ h : Fin 2048, xr (ix2 p h) * wr (ix2 h j)) + br (ix2 (0 : Fin 1) j)

/-- With real blocks the fused logits are real, entry by entry. -/
theorem pay1_apply (p : Fin 256) (j : Fin 2176) :
    k0_pay1 (F := Ideal) (fun i => ((xr i : ℝ) : EReal)) (fun i => ((wr i : ℝ) : EReal)) (fun i => ((br i : ℝ) : EReal)) (ix2 p j)
      = ((tileLogit xr wr br p j : ℝ) : EReal) := by
  refine (pay1_apply_gen _ _ _ p j).trans ?_
  unfold tileLogit
  show (∑ h : Fin 2048, ((xr (ix2 p h) : ℝ) : EReal) * ((wr (ix2 h j) : ℝ) : EReal)) + ((br (ix2 (0 : Fin 1) j) : ℝ) : EReal) = _
  rw [EReal.coe_add, ← coe_sum]
  refine congrArg₂ (· + ·) (Finset.sum_congr rfl fun h _ => ?_) rfl
  exact (EReal.coe_mul _ _).symm

theorem pay2_apply (p : Fin 256) :
    k0_pay2 (F := Ideal) (fun i => ((xr i : ℝ) : EReal)) (fun i => ((wr i : ℝ) : EReal)) (fun i => ((br i : ℝ) : EReal)) (ix2 p (0 : Fin 1))
      = ((tileLogit xr wr br p (⟨126, by omega⟩ : Fin 2176) : ℝ) : EReal) :=
  (pay2_eq _ _ _ p).trans (pay1_apply xr wr br p _)

theorem pay3_apply (p : Fin 256) (k : Fin 1024) :
    k0_pay3 (F := Ideal) (fun i => ((xr i : ℝ) : EReal)) (fun i => ((wr i : ℝ) : EReal)) (fun i => ((br i : ℝ) : EReal)) (ix2 p k)
      = ((tileLogit xr wr br p (⟨128 + k.val, by omega⟩ : Fin 2176) : ℝ) : EReal) :=
  (pay3_eq _ _ _ p k).trans (pay1_apply xr wr br p _)

theorem pay4_apply (p : Fin 256) (k : Fin 1024) :
    k0_pay4 (F := Ideal) (fun i => ((xr i : ℝ) : EReal)) (fun i => ((wr i : ℝ) : EReal)) (fun i => ((br i : ℝ) : EReal)) (ix2 p k)
      = ((tileLogit xr wr br p (⟨1152 + k.val, by omega⟩ : Fin 2176) : ℝ) : EReal) :=
  (pay4_eq _ _ _ p k).trans (pay1_apply xr wr br p _)

end Cert.KernelIdeal.Heads

end
-- ==== Proof.KI.Words.lean ====
/-
  The class words and label words of a tile, read at a token: the three class comparisons and their 0/1 masks as
  real indicators, and the two clipped class indices.
-/
import proofs.«410987_j75797582839976_2_alg».proof.Proof.KI.Data
import proofs.«410987_j75797582839976_2_alg».proof.Proof.Spec
import Idealize.ShloMosaic.Lib.ValueLayout

noncomputable section

namespace Cert.KernelIdeal.Heads

open Cert.KernelIdeal Cert.KernelIdeal.Gen Cert.Heads
open Idealize.ShloMosaic Idealize.ShloMosaic.TcCoe Idealize.ShloMosaic.ValueIdx

/-! ## A word comparison, and its mask as a real indicator -/

theorem cmpi_eq_of_eq {a n : BitVec 32} (h : a = n) : IntOp.cmpi .eq a n = 1#1 := by
  subst h
  unfold IntOp.cmpi
  simp

theorem cmpi_eq_of_ne {a n : BitVec 32} (h : ¬a = n) : IntOp.cmpi .eq a n = 0#1 := by
  show BitVec.ofBool (a == n) = 0#1
  rw [beq_eq_false_iff_ne.mpr h]
  rfl

theorem cmpi_eq_one_iff (a n : BitVec 32) : IntOp.cmpi .eq a n = 1#1 ↔ a = n := by
  constructor
  · intro h
    by_contra hne
    rw [cmpi_eq_of_ne hne] at h
    exact absurd h (by decide)
  · exact cmpi_eq_of_eq

/-- The comparison bit, zero-extended and read as a signed integer, is the indicator of equality. -/
theorem mask_real (a n : BitVec 32) :
    ((((IntOp.cmpi .eq a n).setWidth 32).toInt : ℝ) : EReal) = ((ind (a = n) : ℝ) : EReal) := by
  by_cases h : a = n
  · rw [cmpi_eq_of_eq h]
    unfold ind
    rw [if_pos h, show ((1#1 : BitVec 1).setWidth 32).toInt = 1 by decide]
    norm_num
  · rw [cmpi_eq_of_ne h]
    unfold ind
    rw [if_neg h, show ((0#1 : BitVec 1).setWidth 32).toInt = 0 by decide]
    norm_num

/-- A select on a comparison bit is the if-then-else on the equality. -/
theorem select_cmpi {α : Type} (a n : BitVec 32) (x y : α) :
    Scalar.select (IntOp.cmpi .eq a n) x y = if a = n then x else y := by
  by_cases h : a = n
  · rw [cmpi_eq_of_eq h, if_pos h]; exact select_one x y
  · rw [cmpi_eq_of_ne h, if_neg h]; exact select_zero x y

/-! ## The tile's words at a token -/

variable (py y : Vec Ideal S256x1 .i32)

theorem pay7_apply (i : S256x1.Idx) : k0_pay7 (F := Ideal) py i = IntOp.cmpi .eq (py i) 0#32 := by
  unfold k0_pay7 k0_pay5
  rw [shapeCast_self]
  rfl

theorem pay8_apply (i : S256x1.Idx) : k0_pay8 (F := Ideal) py i = IntOp.cmpi .eq (py i) 1#32 := by
  unfold k0_pay8 k0_pay5
  rw [shapeCast_self]
  rfl

theorem pay9_apply (i : S256x1.Idx) : k0_pay9 (F := Ideal) py i = IntOp.cmpi .eq (py i) 2#32 := by
  unfold k0_pay9 k0_pay5
  rw [shapeCast_self]
  rfl

theorem pay10_apply (i : S256x1.Idx) : k0_pay10 (F := Ideal) py i = ((ind (py i = 0#32) : ℝ) : EReal) := by
  unfold k0_pay10
  refine Eq.trans ?_ (mask_real (py i) 0#32)
  show ((((k0_pay7 (F := Ideal) py i).setWidth 32).toInt : ℝ) : EReal) = _
  rw [pay7_apply]

theorem pay11_apply (i : S256x1.Idx) : k0_pay11 (F := Ideal) py i = ((ind (py i = 1#32) : ℝ) : EReal) := by
  unfold k0_pay11
  refine Eq.trans ?_ (mask_real (py i) 1#32)
  show ((((k0_pay8 (F := Ideal) py i).setWidth 32).toInt : ℝ) : EReal) = _
  rw [pay8_apply]

theorem pay12_apply (i : S256x1.Idx) : k0_pay12 (F := Ideal) py i = ((ind (py i = 2#32) : ℝ) : EReal) := by
  unfold k0_pay12
  refine Eq.trans ?_ (mask_real (py i) 2#32)
  show ((((k0_pay9 (F := Ideal) py i).setWidth 32).toInt : ℝ) : EReal) = _
  rw [pay9_apply]

/-- The hcw class word of a token. -/
theorem pay13_apply (i : S256x1.Idx) : k0_pay13 (F := Ideal) y i = hcwWord (y i) := by
  unfold k0_pay13 k0_pay6
  rw [shapeCast_self]
  rfl

/-- The roo class word of a token. -/
theorem pay15_apply (i : S256x1.Idx) : k0_pay15 (k0_pay14 (F := Ideal) y) 0#32 i = rooWord (y i) := by
  unfold k0_pay15 k0_pay14 k0_pay6
  rw [shapeCast_self]
  rfl

end Cert.KernelIdeal.Heads

end
-- ==== Proof.KI.EndHead.lean ====
/-
  The end head of a tile at a token: from a real end logit e, the stable log-sigmoid chain is log σ(e), the same chain
  on the negated logit is log (1 − σ(e)), and their exponentials are σ(e) and 1 − σ(e).
-/
import proofs.«410987_j75797582839976_2_alg».proof.Proof.KI.Data
import proofs.«410987_j75797582839976_2_alg».proof.Proof.Spec
import proofs.«410987_j75797582839976_2_alg».proof.Proof.Analysis
import Idealize.ShloMosaic.PureOps.Ideal.Laws
import Idealize.ShloMosaic.Lib.IdealHost

noncomputable section

namespace Cert.KernelIdeal.Heads

open Cert.KernelIdeal Cert.KernelIdeal.Gen Cert.Heads
open Idealize.ShloMosaic Idealize.ShloMosaic.TcCoe Idealize.ShloMosaic.ValueIdx

variable (v10 : FVec Ideal S256x1 .f32) (i : S256x1.Idx) (e : ℝ)

/-- The stable log-sigmoid of a real end logit. -/
theorem pay16_apply (he : v10 i = ((e : ℝ) : EReal)) :
    k0_pay16 (F := Ideal) v10 i = ((Real.log (Cert.Heads.sig e) : ℝ) : EReal) := by
  unfold k0_pay16
  show Ideal.ofBits .f32 0x00000000#32
      - (max (Ideal.ofBits .f32 0x00000000#32 - v10 i) (Ideal.ofBits .f32 0x00000000#32)
        + Ideal.log (Ideal.ofBits .f32 0x3F800000#32
          + Ideal.exp (Ideal.ofBits .f32 0x00000000#32
            - max (Ideal.ofBits .f32 0x00000000#32 - v10 i) (-(Ideal.ofBits .f32 0x00000000#32 - v10 i))))) = _
  rw [Ideal.ofBits_zero_f32, Ideal.ofBits_one_f32, he]
  exact logsig_stable_coe e

/-- The stable log of the complement. -/
theorem pay17_apply (he : v10 i = ((e : ℝ) : EReal)) :
    k0_pay17 (F := Ideal) v10 i = ((Real.log (1 - Cert.Heads.sig e) : ℝ) : EReal) := by
  unfold k0_pay17
  show Ideal.ofBits .f32 0x00000000#32
      - (max (Ideal.ofBits .f32 0x00000000#32 - (Ideal.ofBits .f32 0x00000000#32 - v10 i)) (Ideal.ofBits .f32 0x00000000#32)
        + Ideal.log (Ideal.ofBits .f32 0x3F800000#32
          + Ideal.exp (Ideal.ofBits .f32 0x00000000#32
            - max (Ideal.ofBits .f32 0x00000000#32 - (Ideal.ofBits .f32 0x00000000#32 - v10 i))
                (-(Ideal.ofBits .f32 0x00000000#32 - (Ideal.ofBits .f32 0x00000000#32 - v10 i)))))) = _
  rw [Ideal.ofBits_zero_f32, Ideal.ofBits_one_f32, he]
  exact lognsig_stable_coe e

/-- The end probability. -/
theorem pay18_apply (he : v10 i = ((e : ℝ) : EReal)) :
    k0_pay18 (F := Ideal) v10 i = ((Cert.Heads.sig e : ℝ) : EReal) := by
  unfold k0_pay18
  show Ideal.exp (k0_pay16 (F := Ideal) v10 i) = _
  rw [pay16_apply v10 i e he]
  exact exp_logsig_coe e

/-- Its complement. -/
theorem pay19_apply (he : v10 i = ((e : ℝ) : EReal)) :
    k0_pay19 (F := Ideal) v10 i = ((1 - Cert.Heads.sig e : ℝ) : EReal) := by
  unfold k0_pay19
  show Ideal.exp (k0_pay17 (F := Ideal) v10 i) = _
  rw [pay17_apply v10 i e he]
  exact exp_lognsig_coe e

end Cert.KernelIdeal.Heads

end
-- ==== Proof.KI.Softmax.lean ====
/-
  The log-softmax of a row of a tile: the row maximum as the fold of max from the bottom, the keepdims column
  broadcast back over the row, the lane sum of exponentials, and, for a row of real logits u, the value
  u k − max u − log Σ exp (u − max u).
-/
import proofs.«410987_j75797582839976_2_alg».proof.Proof.KI.Data
import proofs.«410987_j75797582839976_2_alg».proof.Proof.Spec
import proofs.«410987_j75797582839976_2_alg».proof.Proof.Analysis
import Idealize.ShloMosaic.PureOps.Ideal.Laws
import Idealize.ShloMosaic.Lib.ValueLayout

noncomputable section

namespace Cert.KernelIdeal.Heads

open Cert.KernelIdeal Cert.KernelIdeal.Gen Cert.Heads
open Idealize.ShloMosaic Idealize.ShloMosaic.TcCoe Idealize.ShloMosaic.ValueIdx

/-! ## A column kept by a reduction, read at an index -/

section Layout
variable {α : Type}

/-- An [a, 1] column broadcast to [a, b] reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An [a] array cast to [a, 1] reads, at (p, u), the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-! ## The two row reductions -/

/-- The reduced index p with lane j put back is (p, j). -/
theorem lift_row (p : Fin 256) (j : Fin 1024) : reduces_S256x1024_S256.lift (ix1 p) j = ix2 p j :=
  funext fun a => Fin.ext (by
    match a with
    | ⟨0, _⟩ => rfl
    | ⟨1, _⟩ => rfl)

/-- The row maximum: the fold of max from the bottom over the row. -/
theorem rowmax_apply (v : FVec Ideal S256x1024 .f32) (hφ : FKind.Formats .f32)
    (hacc : (0xFF800000#32 : BitVec 32) = FKind.maximumf.neutral .f32 hφ) (p : Fin 256) :
    multiReduction (F := Ideal) .maximumf [1] S256 v 0xFF800000#32 reduces_S256x1024_S256 hφ hacc (ix1 p)
      = (Finset.univ : Finset (Fin 1024)).fold max (⊥ : EReal) (fun j => v (ix2 p j)) := by
  refine (Ideal.multiReduction_maximumf_single v 0xFF800000#32 reduces_S256x1024_S256 hφ hacc (ix1 p)).trans ?_
  have hb : FloatOps.ofBits (F := Ideal) .f32 0xFF800000#32 = (⊥ : EReal) := by
    show Ideal.ofBits .f32 0xFF800000#32 = ⊥
    simp [Ideal.ofBits, Ideal.ieee]
  have hf : (v ∘ reduces_S256x1024_S256.lift (ix1 p)) = fun j : Fin 1024 => v (ix2 p j) :=
    funext fun j => congrArg v (lift_row p j)
  rw [hb, hf]
  rfl

/-- The lane sum of a row. -/
theorem rowsum_apply (v : FVec Ideal S256x1024 .f32) (hφ : FKind.Formats .f32)
    (hacc : (0x00000000#32 : BitVec 32) = FKind.add.neutral .f32 hφ) (p : Fin 256) :
    multiReduction (F := Ideal) .add [1] S256 v 0x00000000#32 reduces_S256x1024_S256 hφ hacc (ix1 p)
      = ∑ j : Fin 1024, v (ix2 p j) := by
  refine (Ideal.multiReduction_add_single v 0x00000000#32 reduces_S256x1024_S256 hφ hacc (ix1 p)).trans ?_
  exact Finset.sum_congr rfl fun j _ => congrArg v (lift_row p j)

/-! ## The log-softmax of a tile's rows -/

/-- The row maxima of a tile. -/
def rowMaxV (v : FVec Ideal S256x1024 .f32) : FVec Ideal S256 .f32 :=
  multiReduction (F := Ideal) .maximumf [1] S256 v 0xFF800000#32 reduces_S256x1024_S256 (.inl rfl) rfl

/-- The tile with each row's maximum subtracted. -/
def centred (v : FVec Ideal S256x1024 .f32) : FVec Ideal S256x1024 .f32 :=
  subf v (broadcastTo S256x1024 (shapeCast S256x1 (rowMaxV v) shapeCasts_S256_S256x1) broadcasts_S256x1_S256x1024)

/-- The rows' log-softmax as the body computes it. -/
def lsmV (v : FVec Ideal S256x1024 .f32) : FVec Ideal S256x1024 .f32 :=
  subf (centred v) (broadcastTo S256x1024
    (log (shapeCast S256x1 (multiReduction (F := Ideal) .add [1] S256 (exp (centred v)) 0x00000000#32 reduces_S256x1024_S256 (.inl rfl) rfl)
      shapeCasts_S256_S256x1)) broadcasts_S256x1_S256x1024)

theorem pay20_eq (v : FVec Ideal S256x1024 .f32) : k0_pay20 (F := Ideal) v = lsmV v := rfl
theorem pay21_eq (v : FVec Ideal S256x1024 .f32) : k0_pay21 (F := Ideal) v = lsmV v := rfl

variable (v : FVec Ideal S256x1024 .f32) (p : Fin 256) (u : Fin 1024 → ℝ)

theorem rowMaxV_apply (hu : ∀ j, v (ix2 p j) = ((u j : ℝ) : EReal)) : rowMaxV v (ix1 p) = ((rowMax u : ℝ) : EReal) := by
  unfold rowMaxV
  refine (rowmax_apply v _ _ p).trans ?_
  exact fold_max_of_coe _ u hu

theorem centred_apply (hu : ∀ j, v (ix2 p j) = ((u j : ℝ) : EReal)) (j : Fin 1024) :
    centred v (ix2 p j) = ((u j : ℝ) : EReal) - ((rowMax u : ℝ) : EReal) := by
  unfold centred
  refine (subf_apply _ _ _).trans ?_
  refine congrArg₂ (· - ·) (hu j) ?_
  refine (broadcastTo_a1_ab_apply _ _ p j).trans ?_
  refine (shapeCast_a_a1_apply _ _ p 0).trans ?_
  exact rowMaxV_apply v p u hu

/-- The log-softmax of a row of real logits. -/
theorem lsmV_apply (hu : ∀ j, v (ix2 p j) = ((u j : ℝ) : EReal)) (k : Fin 1024) :
    lsmV v (ix2 p k) = ((u k - rowMax u - Real.log (rowSum u) : ℝ) : EReal) := by
  unfold lsmV
  refine (subf_apply _ _ _).trans ?_
  refine Eq.trans (congrArg₂ (· - ·) (centred_apply v p u hu k) ?_) (logsoftmax_coe u k)
  refine (broadcastTo_a1_ab_apply _ _ p k).trans ?_
  show Ideal.log (shapeCast S256x1 _ shapeCasts_S256_S256x1 (ix2 p (0 : Fin 1))) = _
  refine congrArg Ideal.log ?_
  refine (shapeCast_a_a1_apply _ _ p 0).trans ?_
  refine (rowsum_apply _ _ _ p).trans ?_
  refine Finset.sum_congr rfl fun j _ => ?_
  show Ideal.exp (centred v (ix2 p j)) = _
  rw [centred_apply v p u hu j]

theorem pay20_apply (hu : ∀ j, v (ix2 p j) = ((u j : ℝ) : EReal)) (k : Fin 1024) :
    k0_pay20 (F := Ideal) v (ix2 p k) = ((u k - rowMax u - Real.log (rowSum u) : ℝ) : EReal) := by
  rw [pay20_eq]; exact lsmV_apply v p u hu k

theorem pay21_apply (hu : ∀ j, v (ix2 p j) = ((u j : ℝ) : EReal)) (k : Fin 1024) :
    k0_pay21 (F := Ideal) v (ix2 p k) = ((u k - rowMax u - Real.log (rowSum u) : ℝ) : EReal) := by
  rw [pay21_eq]; exact lsmV_apply v p u hu k

end Cert.KernelIdeal.Heads

end
-- ==== Proof.KI.Pick.lean ====
/-
  The stored log-probability of a token: the one-hot sum over the lanes picks the log-softmax at the clipped class
  index, and the three nested selects on the class word are the specification's case split.
-/
import proofs.«410987_j75797582839976_2_alg».proof.Proof.KI.Words
import proofs.«410987_j75797582839976_2_alg».proof.Proof.KI.Softmax
import Idealize.ShloMosaic.Lib.IdealHost

noncomputable section

namespace Cert.KernelIdeal.Heads

open Cert.KernelIdeal Cert.KernelIdeal.Gen Cert.Heads
open Idealize.ShloMosaic Idealize.ShloMosaic.TcCoe Idealize.ShloMosaic.ValueIdx

/-! ## A lane number equals a class word -/

theorem ofNat_eq_iff (w : BitVec 32) (hw : w.toNat < 1024) (j : Fin 1024) :
    BitVec.ofNat 32 j.val = w ↔ j = ⟨w.toNat, hw⟩ := by
  constructor
  · intro h
    apply Fin.ext
    show j.val = w.toNat
    rw [← h, BitVec.toNat_ofNat]
    have := j.isLt
    exact (Nat.mod_eq_of_lt (by omega)).symm
  · intro h
    rw [h]
    apply BitVec.eq_of_toNat_eq
    rw [BitVec.toNat_ofNat]
    exact Nat.mod_eq_of_lt w.isLt

/-! ## The one-hot pick of a row -/

/-- The lane sum of the row masked to the lane whose number is the class word. -/
def pickV (c : IVec S256x1 32) (z : FVec Ideal S256x1024 .f32) : FVec Ideal S256x1 .f32 :=
  shapeCast S256x1
    (multiReduction (F := Ideal) .add [1] S256
      (select (cmpi .eq (iota .tc S256x1024 32 [1] iota_S256x1024_d1_w32) (broadcastTo S256x1024 c broadcasts_S256x1_S256x1024)) z
        (broadcast S256x1024 (Scalar.ofBits (F := Ideal) .f32 0x00000000#32)))
      0x00000000#32 reduces_S256x1024_S256 (.inl rfl) rfl)
    shapeCasts_S256_S256x1

theorem pickV_apply (c : IVec S256x1 32) (z : FVec Ideal S256x1024 .f32) (p : Fin 256) (w : BitVec 32) (hw : w.toNat < 1024)
    (hc : c (ix2 p (0 : Fin 1)) = w) (f : Fin 1024 → EReal) (hz : ∀ j, z (ix2 p j) = f j) :
    pickV c z (ix2 p (0 : Fin 1)) = f ⟨w.toNat, hw⟩ := by
  unfold pickV
  refine (shapeCast_a_a1_apply _ _ p 0).trans ?_
  refine (rowsum_apply _ _ _ p).trans ?_
  refine Eq.trans (Finset.sum_congr rfl fun j _ => ?_) (onehot_sum_ereal f ⟨w.toNat, hw⟩)
  show Scalar.select (IntOp.cmpi .eq (iota .tc S256x1024 32 [1] iota_S256x1024_d1_w32 (ix2 p j))
      (broadcastTo S256x1024 c broadcasts_S256x1_S256x1024 (ix2 p j))) (z (ix2 p j)) (Ideal.ofBits .f32 0x00000000#32) = _
  rw [iota_single_apply, broadcastTo_a1_ab_apply, hc, hz j, Ideal.ofBits_zero_f32, select_cmpi]
  exact if_congr (ofNat_eq_iff w hw j) rfl rfl

/-! ## The stored column -/

theorem pay22_eq (v12 : FVec Ideal S256x1024 .f32) (v18 v20 v22 : IVec S256x1 1) (v34 v42 : IVec S256x1 32)
    (v56 v72 : FVec Ideal S256x1 .f32) (v84 : FVec Ideal S256x1024 .f32) :
    k0_pay22 (F := Ideal) v12 v18 v20 v22 v34 v42 v56 v72 v84
      = select v18 v56 (select v20 (addf (pickV v34 v84) v72) (select v22 (addf (pickV v42 (k0_pay21 (F := Ideal) v12)) v72)
          (broadcast S256x1 (Scalar.ofBits (F := Ideal) .f32 0x00000000#32)))) := rfl

/-- The stored log-probability of token p, from the values the body has at p: the class word a and its three
    comparisons, the label word b clipped to the two class indices, the two end-head logs for the real end logit e,
    the hcw log-softmax of the real logits u, and the roo logits r. -/
theorem pay22_apply (v12 : FVec Ideal S256x1024 .f32) (v18 v20 v22 : IVec S256x1 1) (v34 v42 : IVec S256x1 32)
    (v56 v72 : FVec Ideal S256x1 .f32) (v84 : FVec Ideal S256x1024 .f32) (p : Fin 256) (a b : BitVec 32) (e : ℝ)
    (u r : Fin 1024 → ℝ)
    (h18 : v18 (ix2 p (0 : Fin 1)) = IntOp.cmpi .eq a 0#32) (h20 : v20 (ix2 p (0 : Fin 1)) = IntOp.cmpi .eq a 1#32)
    (h22 : v22 (ix2 p (0 : Fin 1)) = IntOp.cmpi .eq a 2#32)
    (h34 : v34 (ix2 p (0 : Fin 1)) = hcwWord b) (h42 : v42 (ix2 p (0 : Fin 1)) = rooWord b)
    (h56 : v56 (ix2 p (0 : Fin 1)) = ((Real.log (Cert.Heads.sig e) : ℝ) : EReal))
    (h72 : v72 (ix2 p (0 : Fin 1)) = ((Real.log (1 - Cert.Heads.sig e) : ℝ) : EReal))
    (h84 : ∀ j, v84 (ix2 p j) = ((u j - rowMax u - Real.log (rowSum u) : ℝ) : EReal))
    (h12 : ∀ j, v12 (ix2 p j) = ((r j : ℝ) : EReal)) :
    k0_pay22 (F := Ideal) v12 v18 v20 v22 v34 v42 v56 v72 v84 (ix2 p (0 : Fin 1)) = ((logp a b e u r : ℝ) : EReal) := by
  rw [pay22_eq]
  show Scalar.select (v18 (ix2 p (0 : Fin 1))) (v56 (ix2 p (0 : Fin 1)))
      (Scalar.select (v20 (ix2 p (0 : Fin 1))) (pickV v34 v84 (ix2 p (0 : Fin 1)) + v72 (ix2 p (0 : Fin 1)))
        (Scalar.select (v22 (ix2 p (0 : Fin 1))) (pickV v42 (k0_pay21 (F := Ideal) v12) (ix2 p (0 : Fin 1)) + v72 (ix2 p (0 : Fin 1)))
          (Ideal.ofBits .f32 0x00000000#32))) = _
  have hp1 : pickV v34 v84 (ix2 p (0 : Fin 1)) = ((u (hcwIdx b) - rowMax u - Real.log (rowSum u) : ℝ) : EReal) :=
    pickV_apply v34 v84 p (hcwWord b) (hcwWord_lt b) h34
      (fun j => ((u j - rowMax u - Real.log (rowSum u) : ℝ) : EReal)) h84
  have hp2 : pickV v42 (k0_pay21 (F := Ideal) v12) (ix2 p (0 : Fin 1))
      = ((r (rooIdx b) - rowMax r - Real.log (rowSum r) : ℝ) : EReal) :=
    pickV_apply v42 (k0_pay21 (F := Ideal) v12) p (rooWord b) (rooWord_lt b) h42
      (fun j => ((r j - rowMax r - Real.log (rowSum r) : ℝ) : EReal)) (fun j => pay21_apply v12 p r h12 j)
  rw [h18, h20, h22, select_cmpi, select_cmpi, select_cmpi, h56, h72, hp1, hp2, Ideal.ofBits_zero_f32]
  unfold logp
  by_cases c0 : a = 0#32
  · rw [if_pos c0, if_pos c0]
  · rw [if_neg c0, if_neg c0]
    by_cases c1 : a = 1#32
    · rw [if_pos c1, if_pos c1, ← EReal.coe_add]
      exact congrArg _ (log_pick u (hcwIdx b) e).symm
    · rw [if_neg c1, if_neg c1]
      by_cases c2 : a = 2#32
      · rw [if_pos c2, if_pos c2, ← EReal.coe_add]
        exact congrArg _ (log_pick r (rooIdx b) e).symm
      · rw [if_neg c2, if_neg c2]
        exact EReal.coe_zero.symm

end Cert.KernelIdeal.Heads

end
-- ==== Proof.KI.Bands.lean ====
/-
  The three column bands of the padded probability tile at an index: 126 zero columns and the masked end probability
  twice; the masked hcw probabilities; the masked roo probabilities.
-/
import proofs.«410987_j75797582839976_2_alg».proof.Proof.KI.Softmax

noncomputable section

namespace Cert.KernelIdeal.Heads

open Cert.KernelIdeal Cert.KernelIdeal.Gen Cert.Heads
open Idealize.ShloMosaic Idealize.ShloMosaic.TcCoe Idealize.ShloMosaic.ValueIdx

/-- Columns [0, 128): zero below column 126, the product of the end probability and its mask at 126 and 127. -/
theorem pay23_apply (v24 v73 : FVec Ideal S256x1 .f32) (p : Fin 256) (q : Fin 128) (s m : ℝ)
    (h73 : v73 (ix2 p (0 : Fin 1)) = ((s : ℝ) : EReal)) (h24 : v24 (ix2 p (0 : Fin 1)) = ((m : ℝ) : EReal)) :
    k0_pay23 (F := Ideal) v24 v73 (ix2 p q) = (((if q.val < 126 then 0 else s * m) : ℝ) : EReal) := by
  unfold k0_pay23
  rw [shapeCast_self]
  by_cases hq : q.val < 126
  · rw [if_pos hq]
    refine (concatenate_pair_apply_left (t := S256x128) (s₁ := S256x126) (s₂ := S256x2) _ _ _ _ (ix2 p q) rfl (ix2 p (⟨q.val, hq⟩ : Fin 126)) (fun b => ?_)).trans ?_
    · match b with
      | ⟨0, _⟩ => rfl
      | ⟨1, _⟩ => rfl
    · show Ideal.ofBits .f32 0x00000000#32 = _
      rw [Ideal.ofBits_zero_f32]; exact EReal.coe_zero.symm
  · rw [if_neg hq]
    refine (concatenate_pair_apply_right (t := S256x128) (s₁ := S256x126) (s₂ := S256x2) _ _ _ _ (ix2 p q) rfl rfl (ix2 p (⟨q.val - 126, by have := q.isLt; omega⟩ : Fin 2))
      (fun b hb => ?_) ?_).trans ?_
    · match b with
      | ⟨0, _⟩ => rfl
      | ⟨1, _⟩ => exact absurd rfl hb
    · show (q.val - 126) + 126 = q.val
      omega
    · refine (mulf_apply _ _ _).trans ?_
      rw [EReal.coe_mul]
      exact congrArg₂ (· * ·) ((broadcastTo_a1_ab_apply _ _ p _).trans h73) ((broadcastTo_a1_ab_apply _ _ p _).trans h24)

/-- Columns [128, 1152): the softmax of the real hcw logits u, times the complement c, times the mask m. -/
theorem pay24_apply (v26 v74 : FVec Ideal S256x1 .f32) (v84 : FVec Ideal S256x1024 .f32) (p : Fin 256) (k : Fin 1024)
    (m c : ℝ) (u : Fin 1024 → ℝ)
    (h26 : v26 (ix2 p (0 : Fin 1)) = ((m : ℝ) : EReal)) (h74 : v74 (ix2 p (0 : Fin 1)) = ((c : ℝ) : EReal))
    (h84 : v84 (ix2 p k) = ((u k - rowMax u - Real.log (rowSum u) : ℝ) : EReal)) :
    k0_pay24 (F := Ideal) v26 v74 v84 (ix2 p k) = ((smax u k * c * m : ℝ) : EReal) := by
  unfold k0_pay24
  refine (mulf_apply _ _ _).trans ?_
  rw [EReal.coe_mul, EReal.coe_mul]
  refine congrArg₂ (· * ·) ((mulf_apply _ _ _).trans (congrArg₂ (· * ·) ?_ ((broadcastTo_a1_ab_apply _ _ p k).trans h74)))
    ((broadcastTo_a1_ab_apply _ _ p k).trans h26)
  show Ideal.exp (v84 (ix2 p k)) = _
  rw [h84]
  exact exp_logsoftmax_coe u k

/-- Columns [1152, 2176): the same on the real roo logits r. -/
theorem pay25_apply (v12 : FVec Ideal S256x1024 .f32) (v28 v74 : FVec Ideal S256x1 .f32) (p : Fin 256) (k : Fin 1024)
    (m c : ℝ) (r : Fin 1024 → ℝ)
    (h28 : v28 (ix2 p (0 : Fin 1)) = ((m : ℝ) : EReal)) (h74 : v74 (ix2 p (0 : Fin 1)) = ((c : ℝ) : EReal))
    (h12 : ∀ j, v12 (ix2 p j) = ((r j : ℝ) : EReal)) :
    k0_pay25 (F := Ideal) v12 v28 v74 (ix2 p k) = ((smax r k * c * m : ℝ) : EReal) := by
  unfold k0_pay25
  refine (mulf_apply _ _ _).trans ?_
  rw [EReal.coe_mul, EReal.coe_mul]
  refine congrArg₂ (· * ·) ((mulf_apply _ _ _).trans (congrArg₂ (· * ·) ?_ ((broadcastTo_a1_ab_apply _ _ p k).trans h74)))
    ((broadcastTo_a1_ab_apply _ _ p k).trans h28)
  show Ideal.exp (k0_pay21 (F := Ideal) v12 (ix2 p k)) = _
  rw [pay21_apply v12 p r h12 k]
  exact exp_logsoftmax_coe r k

end Cert.KernelIdeal.Heads

end
-- ==== Proof.KI.Tile.lean ====
/-
  One tile of 256 tokens at the exact instance: what the body stores, read at an index, when the loaded blocks hold
  real numbers. With `e p`, `u p k`, `r p k` the tile's logits (the row of the fused product at columns 126,
  128 + k and 1152 + k, plus the fused bias there), the stored log-probability of token `p` is the specification's
  `logp` and the three column bands of the padded probability tile are its `prob` pieces.
-/
import proofs.«410987_j75797582839976_2_alg».proof.Proof.KI.Data
import proofs.«410987_j75797582839976_2_alg».proof.Proof.Spec
import proofs.«410987_j75797582839976_2_alg».proof.Proof.KI.Logits
import proofs.«410987_j75797582839976_2_alg».proof.Proof.KI.Words
import proofs.«410987_j75797582839976_2_alg».proof.Proof.KI.EndHead
import proofs.«410987_j75797582839976_2_alg».proof.Proof.KI.Softmax
import proofs.«410987_j75797582839976_2_alg».proof.Proof.KI.Pick
import proofs.«410987_j75797582839976_2_alg».proof.Proof.KI.Bands

noncomputable section

namespace Cert.KernelIdeal.Heads

open Cert.KernelIdeal Cert.KernelIdeal.Gen Cert.Heads
open Idealize.ShloMosaic Idealize.ShloMosaic.TcCoe Idealize.ShloMosaic.ValueIdx

variable (xr : S256x2048.Idx → ℝ) (wr : S2048x2176.Idx → ℝ) (br : S1x2176.Idx → ℝ) (py y : Vec Ideal S256x1 .i32)

/-- Token `p`'s end logit in the tile: column 126 of the fused product plus the fused bias there. -/
def tileE (p : Fin 256) : ℝ :=
  (∑ h : Fin 2048, xr (ix2 p h) * wr (ix2 h (⟨126, by omega⟩ : Fin 2176))) + br (ix2 (0 : Fin 1) (⟨126, by omega⟩ : Fin 2176))

/-- Token `p`'s hcw logits: columns 128 + k. -/
def tileU (p : Fin 256) (k : Fin 1024) : ℝ :=
  (∑ h : Fin 2048, xr (ix2 p h) * wr (ix2 h (⟨128 + k.val, by omega⟩ : Fin 2176)))
    + br (ix2 (0 : Fin 1) (⟨128 + k.val, by omega⟩ : Fin 2176))

/-- Token `p`'s roo logits: columns 1152 + k. -/
def tileR (p : Fin 256) (k : Fin 1024) : ℝ :=
  (∑ h : Fin 2048, xr (ix2 p h) * wr (ix2 h (⟨1152 + k.val, by omega⟩ : Fin 2176)))
    + br (ix2 (0 : Fin 1) (⟨1152 + k.val, by omega⟩ : Fin 2176))

/-- The stored log-probability of token `p`. -/
theorem logpTile_apply (p : Fin 256) :
    logpTile (F := Ideal) (fun i => ((xr i : ℝ) : EReal)) py y (fun i => ((wr i : ℝ) : EReal)) (fun i => ((br i : ℝ) : EReal))
        (ix2 p (0 : Fin 1))
      = ((logp (py (ix2 p (0 : Fin 1))) (y (ix2 p (0 : Fin 1))) (tileE xr wr br p) (tileU xr wr br p) (tileR xr wr br p) : ℝ) : EReal) := by
  unfold logpTile
  exact pay22_apply _ _ _ _ _ _ _ _ _ p (py (ix2 p (0 : Fin 1))) (y (ix2 p (0 : Fin 1))) (tileE xr wr br p) (tileU xr wr br p)
    (tileR xr wr br p) (pay7_apply py _) (pay8_apply py _) (pay9_apply py _) (pay13_apply y _) (pay15_apply y _)
    (pay16_apply _ _ _ (pay2_apply xr wr br p)) (pay17_apply _ _ _ (pay2_apply xr wr br p))
    (fun j => pay20_apply _ p (tileU xr wr br p) (fun j' => pay3_apply xr wr br p j') j)
    (fun j => pay4_apply xr wr br p j)

/-- Columns [0, 128) of the padded tile: zero below column 126, the masked end probability at 126 and 127. -/
theorem endTile_apply (p : Fin 256) (q : Fin 128) :
    endTile (F := Ideal) (fun i => ((xr i : ℝ) : EReal)) py (fun i => ((wr i : ℝ) : EReal)) (fun i => ((br i : ℝ) : EReal)) (ix2 p q)
      = (((if q.val < 126 then 0 else Cert.Heads.sig (tileE xr wr br p) * ind (py (ix2 p (0 : Fin 1)) = 0#32)) : ℝ) : EReal) := by
  unfold endTile
  exact pay23_apply _ _ p q (Cert.Heads.sig (tileE xr wr br p)) (ind (py (ix2 p (0 : Fin 1)) = 0#32))
    (pay18_apply _ _ _ (pay2_apply xr wr br p)) (pay10_apply py _)

/-- Columns [128, 1152): the masked hcw probabilities. -/
theorem hcwTile_apply (p : Fin 256) (k : Fin 1024) :
    hcwTile (F := Ideal) (fun i => ((xr i : ℝ) : EReal)) py (fun i => ((wr i : ℝ) : EReal)) (fun i => ((br i : ℝ) : EReal)) (ix2 p k)
      = ((smax (tileU xr wr br p) k * (1 - Cert.Heads.sig (tileE xr wr br p)) * ind (py (ix2 p (0 : Fin 1)) = 1#32) : ℝ) : EReal) := by
  unfold hcwTile
  exact pay24_apply _ _ _ p k (ind (py (ix2 p (0 : Fin 1)) = 1#32)) (1 - Cert.Heads.sig (tileE xr wr br p)) (tileU xr wr br p)
    (pay11_apply py _) (pay19_apply _ _ _ (pay2_apply xr wr br p))
    (pay20_apply _ p (tileU xr wr br p) (fun j => pay3_apply xr wr br p j) k)

/-- Columns [1152, 2176): the masked roo probabilities. -/
theorem rooTile_apply (p : Fin 256) (k : Fin 1024) :
    rooTile (F := Ideal) (fun i => ((xr i : ℝ) : EReal)) py (fun i => ((wr i : ℝ) : EReal)) (fun i => ((br i : ℝ) : EReal)) (ix2 p k)
      = ((smax (tileR xr wr br p) k * (1 - Cert.Heads.sig (tileE xr wr br p)) * ind (py (ix2 p (0 : Fin 1)) = 2#32) : ℝ) : EReal) := by
  unfold rooTile
  exact pay25_apply _ _ _ p k (ind (py (ix2 p (0 : Fin 1)) = 2#32)) (1 - Cert.Heads.sig (tileE xr wr br p)) (tileR xr wr br p)
    (pay12_apply py _) (pay19_apply _ _ _ (pay2_apply xr wr br p)) (fun j => pay4_apply xr wr br p j)

end Cert.KernelIdeal.Heads

end
-- ==== Proof.KI.Real.lean ====
/-
  Finite float arguments are real data: the predicate that the nine argument arrays of a launch memory, on one core,
  are the real-valued arrays `A` (the two integer arrays as they are).
-/
import proofs.«410987_j75797582839976_2_alg».proof.Proof.Gen.KernelIdeal
import proofs.«410987_j75797582839976_2_alg».proof.Proof.Spec

noncomputable section

namespace Cert.KernelIdeal.Heads

open Cert.KernelIdeal Idealize.ShloMosaic Idealize.ShloMosaic.TcCoe Idealize.SL.Sem

/-- On core `c` the argument arrays of `m` are the real data `A`: each float array is `A`'s, entry by entry, as
    extended reals; the class words and label words are `A`'s. -/
structure IsArgs (m : (ℓ : Loc nD τ sig) → Buf (Elt Ideal) ℓ) (c : Dev nD) (A : Cert.Heads.Args) : Prop where
  hX : (m ((c.tc : Thread nD τ).loc main_arg0) : S32x512x2048.Idx → EReal) = fun i => ((A.X i : ℝ) : EReal)
  hpY : (m ((c.tc : Thread nD τ).loc main_arg1) : S32x512.Idx → BitVec 32) = A.pY
  hY : (m ((c.tc : Thread nD τ).loc main_arg2) : S32x512.Idx → BitVec 32) = A.Y
  hWe : (m ((c.tc : Thread nD τ).loc main_arg3) : S1x2048.Idx → EReal) = fun i => ((A.We i : ℝ) : EReal)
  hbe : (m ((c.tc : Thread nD τ).loc main_arg4) : S1.Idx → EReal) = fun i => ((A.be i : ℝ) : EReal)
  hWh : (m ((c.tc : Thread nD τ).loc main_arg5) : S1024x2048.Idx → EReal) = fun i => ((A.Wh i : ℝ) : EReal)
  hbh : (m ((c.tc : Thread nD τ).loc main_arg6) : S1024.Idx → EReal) = fun i => ((A.bh i : ℝ) : EReal)
  hWr : (m ((c.tc : Thread nD τ).loc main_arg7) : S1024x2048.Idx → EReal) = fun i => ((A.Wr i : ℝ) : EReal)
  hbr : (m ((c.tc : Thread nD τ).loc main_arg8) : S1024.Idx → EReal) = fun i => ((A.br i : ℝ) : EReal)

end Cert.KernelIdeal.Heads

end
-- ==== Proof.KI.Entry.lean ====
/-
  The arrays the region finds, read at an index, when the arguments are real data `A`; and each input window's block
  at a grid point, read at an index off its array.

  The host lines before the region reshape X to 16384 token rows and the class / label words to columns, and build the
  fused weights `W[h, j]` (the transpose of the rows: 126 zero rows, W_end's row, a zero row, W_hcw's rows, W_roo's
  rows) and the fused bias row `b[0, j]` laid out the same way.

  The 128-row head of the weights (and the 128-entry head of the bias) is a zero array into which one row (one entry) is
  scattered at the constant index 126: a scatter whose body returns the update is a fold of "set this index" steps, so
  at an index exactly one update lands at it reads that update and at an index none lands at it reads the operand. The
  three-piece concatenation along axis 0 reads piece 0 below 128, piece 1 below 1152 and piece 2 from there on.
-/
import proofs.«410987_j75797582839976_2_alg».proof.Proof.KI.Data
import proofs.«410987_j75797582839976_2_alg».proof.Proof.KI.Real
import Idealize.ShloMosaic.Lib.Pipeline.Value
import Idealize.ShloMosaic.Lib.ValueLayout
import Idealize.ShloMosaic.Lib.IdealHost
import Idealize.ShloMosaic.Lib.StableHlo.Run

noncomputable section

namespace Cert.KernelIdeal.Heads

open Cert.KernelIdeal Cert.KernelIdeal.Gen Cert.Heads
open Idealize.ShloMosaic Idealize.ShloMosaic.TcCoe Idealize.ShloMosaic.ValueIdx Idealize.SL.Sem

/-- The fused weights over the reals: column `j` of the fused matrix is row `j` of [126 zero rows; W_end; a zero row;
    W_hcw; W_roo]. -/
def wAll (A : Args) (h : Fin 2048) (j : Fin 2176) : ℝ :=
  if j.val = 126 then A.We (ix2 (0 : Fin 1) h)
  else if hj : 128 ≤ j.val ∧ j.val < 1152 then A.Wh (ix2 (⟨j.val - 128, by omega⟩ : Fin 1024) h)
  else if hj' : 1152 ≤ j.val then A.Wr (ix2 (⟨j.val - 1152, by have := j.isLt; omega⟩ : Fin 1024) h)
  else 0

/-- The fused bias over the reals, laid out like the fused weights' columns. -/
def bAll (A : Args) (j : Fin 2176) : ℝ :=
  if j.val = 126 then A.be (ix1 (0 : Fin 1))
  else if hj : 128 ≤ j.val ∧ j.val < 1152 then A.bh (ix1 (⟨j.val - 128, by omega⟩ : Fin 1024))
  else if hj' : 1152 ≤ j.val then A.br (ix1 (⟨j.val - 1152, by have := j.isLt; omega⟩ : Fin 1024))
  else 0

/-! ## A scatter that sets -/

/-- A left fold of steps read at an index the steps of the list leave alone. -/
theorem foldl_apply_of_not_hit {ι I α : Type} (step : (I → α) → ι → I → α) (P : ι → Prop) (i' : I)
    (hmiss : ∀ r n, ¬P n → step r n i' = r i') :
    ∀ (L : List ι) (x : I → α), (∀ n ∈ L, ¬P n) → L.foldl step x i' = x i'
  | [], x, _ => rfl
  | n :: L, x, h => by
    rw [List.foldl_cons, foldl_apply_of_not_hit step P i' hmiss L _ (fun n' hn' => h n' (List.mem_cons_of_mem _ hn'))]
    exact hmiss x n (h n List.mem_cons_self)

/-- The same fold read at an index some step of the list sets, all such steps to one value. -/
theorem foldl_apply_of_hit {ι I α : Type} (step : (I → α) → ι → I → α) (P : ι → Prop) (v : ι → α) (i' : I) (a : α)
    (hmiss : ∀ r n, ¬P n → step r n i' = r i') (hhit : ∀ r n, P n → step r n i' = v n) :
    ∀ (L : List ι) (x : I → α), (∃ n ∈ L, P n) → (∀ n ∈ L, P n → v n = a) → L.foldl step x i' = a
  | [], x, ⟨n, hn, _⟩, _ => absurd hn List.not_mem_nil
  | n :: L, x, hex, hv => by
    rw [List.foldl_cons]
    by_cases hL : ∃ n' ∈ L, P n'
    · exact foldl_apply_of_hit step P v i' a hmiss hhit L _ hL (fun n' hn' => hv n' (List.mem_cons_of_mem _ hn'))
    · rw [foldl_apply_of_not_hit step P i' hmiss L _ (fun n' hn' hp => hL ⟨n', hn', hp⟩)]
      obtain ⟨n0, hn0, hp0⟩ := hex
      have hn : n0 = n := by
        rcases List.mem_cons.1 hn0 with h | h
        · exact h
        · exact absurd ⟨n0, h, hp0⟩ hL
      subst hn
      rw [hhit x n0 hp0]
      exact hv n0 List.mem_cons_self hp0

/-- A scatter whose body returns the update, read at an index no update lands at: the operand. -/
theorem scatter_set_apply_of_not_hit {s si u : Shape} {w : Nat} {α : Type} (d : ScatterDims s si u) (x : s.Idx → α)
    (idx : IVec si w) (upd : u.Idx → α) (i' : s.Idx) (h : ∀ j : u.Idx, d.resultIdx? j idx ≠ some i') :
    Host.scatter d (fun _ b => b) x idx upd i' = x i' := by
  unfold Host.scatter
  refine foldl_apply_of_not_hit _ (fun n => d.resultIdx? (u.rowMajor.symm n) idx = some i') i' ?_ _ x (fun n _ => h _)
  intro r n hn
  dsimp only
  generalize d.resultIdx? (u.rowMajor.symm n) idx = o at hn
  cases o with
  | none => rfl
  | some i => exact if_neg (fun hk => hn (by rw [hk]))

/-- The same scatter read at an index exactly one update lands at: that update. -/
theorem scatter_set_apply_of_hit {s si u : Shape} {w : Nat} {α : Type} (d : ScatterDims s si u) (x : s.Idx → α)
    (idx : IVec si w) (upd : u.Idx → α) (i' : s.Idx) (j0 : u.Idx) (h0 : d.resultIdx? j0 idx = some i')
    (h1 : ∀ j : u.Idx, d.resultIdx? j idx = some i' → j = j0) :
    Host.scatter d (fun _ b => b) x idx upd i' = upd j0 := by
  unfold Host.scatter
  refine foldl_apply_of_hit _ (fun n => d.resultIdx? (u.rowMajor.symm n) idx = some i') (fun n => upd (u.rowMajor.symm n))
    i' (upd j0) ?_ ?_ _ x ⟨u.rowMajor j0, List.mem_finRange _, ?_⟩ (fun n _ hn => by rw [h1 _ hn])
  · intro r n hn
    dsimp only
    generalize d.resultIdx? (u.rowMajor.symm n) idx = o at hn
    cases o with
    | none => rfl
    | some i => exact if_neg (fun hk => hn (by rw [hk]))
  · intro r n hn
    dsimp only at hn ⊢
    generalize d.resultIdx? (u.rowMajor.symm n) idx = o at hn
    cases hn
    exact if_pos rfl
  · show d.resultIdx? (u.rowMajor.symm (u.rowMajor j0)) idx = some i'
    rw [Equiv.symm_apply_apply]; exact h0

/-! ## Where the two scatters' updates land -/

/-- The bias scatter's one update lands at entry 126. -/
theorem resultIdx_b (j : S_.Idx) (idx : IVec S1 32) (hidx : ∀ k, idx k = 126#32) :
    scatter_S128_S1_S__n_0_0_0.resultIdx? j idx = some (ix1 (126 : Fin 128)) := by
  have hs : scatter_S128_S1_S__n_0_0_0.start j idx (0 : Fin 1) = 126 := by
    unfold ScatterDims.start
    rw [dif_pos (by decide), hidx]
    decide
  have hw : scatter_S128_S1_S__n_0_0_0.window j (0 : Fin 1) = 0 := by
    unfold ScatterDims.window
    rw [dif_neg (by decide)]
  have h : ∀ a : Fin 1, 0 ≤ scatter_S128_S1_S__n_0_0_0.start j idx a + scatter_S128_S1_S__n_0_0_0.window j a
      ∧ scatter_S128_S1_S__n_0_0_0.start j idx a + scatter_S128_S1_S__n_0_0_0.window j a < S128.size a := by
    intro a
    match a with
    | ⟨0, _⟩ =>
      show 0 ≤ scatter_S128_S1_S__n_0_0_0.start j idx (0 : Fin 1) + (scatter_S128_S1_S__n_0_0_0.window j (0 : Fin 1) : Int) ∧
        scatter_S128_S1_S__n_0_0_0.start j idx (0 : Fin 1) + (scatter_S128_S1_S__n_0_0_0.window j (0 : Fin 1) : Int) < 128
      rw [hs, hw]; decide
  unfold ScatterDims.resultIdx?
  rw [dif_pos h]
  refine congrArg some (funext fun a => Fin.ext ?_)
  match a with
  | ⟨0, _⟩ =>
    show (scatter_S128_S1_S__n_0_0_0.start j idx (0 : Fin 1) + (scatter_S128_S1_S__n_0_0_0.window j (0 : Fin 1) : Int)).toNat = 126
    rw [hs, hw]; rfl

/-- The weight scatter's update `(0, h)` lands at `(126, h)`. -/
theorem resultIdx_w (j : S1x2048.Idx) (idx : IVec S1 32) (hidx : ∀ k, idx k = 126#32) :
    scatter_S128x2048_S1_S1x2048_01_n_0_0.resultIdx? j idx = some (ix2 (126 : Fin 128) (j 1)) := by
  have hs0 : scatter_S128x2048_S1_S1x2048_01_n_0_0.start j idx (0 : Fin 2) = 126 := by
    unfold ScatterDims.start
    rw [dif_pos (by decide), hidx]
    decide
  have hs1 : scatter_S128x2048_S1_S1x2048_01_n_0_0.start j idx (1 : Fin 2) = 0 := by
    unfold ScatterDims.start
    rw [dif_neg (by decide)]
  have hw0 : scatter_S128x2048_S1_S1x2048_01_n_0_0.window j (0 : Fin 2) = 0 := by
    unfold ScatterDims.window
    rw [dif_pos (by decide)]
    have := (j 0).isLt
    show (j 0).val = 0
    have h1 : S1x2048.size 0 = 1 := rfl
    omega
  have hw1 : scatter_S128x2048_S1_S1x2048_01_n_0_0.window j (1 : Fin 2) = (j 1).val := by
    unfold ScatterDims.window
    rw [dif_pos (by decide)]
    rfl
  have hj1 : (j 1).val < 2048 := (j 1).isLt
  have h : ∀ a : Fin 2, 0 ≤ scatter_S128x2048_S1_S1x2048_01_n_0_0.start j idx a + scatter_S128x2048_S1_S1x2048_01_n_0_0.window j a
      ∧ scatter_S128x2048_S1_S1x2048_01_n_0_0.start j idx a + scatter_S128x2048_S1_S1x2048_01_n_0_0.window j a < S128x2048.size a := by
    intro a
    match a with
    | ⟨0, _⟩ =>
      show 0 ≤ scatter_S128x2048_S1_S1x2048_01_n_0_0.start j idx (0 : Fin 2) + (scatter_S128x2048_S1_S1x2048_01_n_0_0.window j (0 : Fin 2) : Int) ∧
        scatter_S128x2048_S1_S1x2048_01_n_0_0.start j idx (0 : Fin 2) + (scatter_S128x2048_S1_S1x2048_01_n_0_0.window j (0 : Fin 2) : Int) < 128
      rw [hs0, hw0]; decide
    | ⟨1, _⟩ =>
      show 0 ≤ scatter_S128x2048_S1_S1x2048_01_n_0_0.start j idx (1 : Fin 2) + (scatter_S128x2048_S1_S1x2048_01_n_0_0.window j (1 : Fin 2) : Int) ∧
        scatter_S128x2048_S1_S1x2048_01_n_0_0.start j idx (1 : Fin 2) + (scatter_S128x2048_S1_S1x2048_01_n_0_0.window j (1 : Fin 2) : Int) < 2048
      rw [hs1, hw1]; omega
  unfold ScatterDims.resultIdx?
  rw [dif_pos h]
  refine congrArg some (funext fun a => Fin.ext ?_)
  match a with
  | ⟨0, _⟩ =>
    show (scatter_S128x2048_S1_S1x2048_01_n_0_0.start j idx (0 : Fin 2) + (scatter_S128x2048_S1_S1x2048_01_n_0_0.window j (0 : Fin 2) : Int)).toNat = 126
    rw [hs0, hw0]; rfl
  | ⟨1, _⟩ =>
    show (scatter_S128x2048_S1_S1x2048_01_n_0_0.start j idx (1 : Fin 2) + (scatter_S128x2048_S1_S1x2048_01_n_0_0.window j (1 : Fin 2) : Int)).toNat = (j 1).val
    rw [hs1, hw1]; omega

/-- The scatter index word broadcast to one entry reads 126. -/
theorem idx126 (k : S1.Idx) : broadcastInDim S1 ![] bcast_S_S1 (constantI S_ 32 126#32) k = 126#32 := by
  rw [broadcastInDim_scalar_apply]; rfl

/-! ## The host lines' results -/

/-- A three-operand operation's result with each operand's contents at its own reference. -/
theorem nary3_result {Val : EltTy → Type} {x a b y : Ref sig .tc}
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

/-- A buffer after the host lines: each line's result at its own buffer is its function of its operands' buffers, and
    every other buffer is as before the line; a three-operand line's operands are each read at their own reference. -/
local macro "host_results" : tactic =>
  `(tactic| (simp only [StableHlo.after_cons, StableHlo.after_nil]
             repeat (first
               | rw [StableHlo.nullary_result] | rw [StableHlo.unary_result] | rw [StableHlo.ternary_result]
               | rw [StableHlo.reshape_result] | rw [nary3_result]
               | (rw [StableHlo.nullary_result_ne]; rotate_left; decide)
               | (rw [StableHlo.unary_result_ne]; rotate_left; decide)
               | (rw [StableHlo.ternary_result_ne]; rotate_left; decide)
               | (rw [StableHlo.reshape_result_ne]; rotate_left; decide)
               | (rw [StableHlo.nary_result_ne]; rotate_left; decide))))

/-! ## The two concatenations at an index -/

/-- The bias concatenation [128; 1024; 1024] read at entry `j`. -/
theorem concat_b_apply {α : Type} (x0 : S128.Idx → α) (x1 x2 : S1024.Idx → α) (j : Fin 2176) :
    concatenate S2176 0 [⟨S128, x0⟩, ⟨S1024, x1⟩, ⟨S1024, x2⟩] concatenates_S128_S1024_S1024_S2176_d0 (ix1 j)
      = if h0 : j.val < 128 then x0 (ix1 ⟨j.val, h0⟩)
        else if h1 : j.val < 1152 then x1 (ix1 ⟨j.val - 128, by omega⟩)
        else x2 (ix1 ⟨j.val - 1152, by have := j.isLt; omega⟩) := by
  by_cases h0 : j.val < 128
  · rw [dif_pos h0]
    refine concatenate_apply_piece (t := S2176) 0 [⟨S128, x0⟩, ⟨S1024, x1⟩, ⟨S1024, x2⟩] concatenates_S128_S1024_S1024_S2176_d0 (ix1 j) 0 (by simp) S128 x0 rfl rfl 0 rfl _ (fun b hb => absurd (Subsingleton.elim _ _) hb) ?_
    show 0 + j.val = j.val
    omega
  · rw [dif_neg h0]
    by_cases h1 : j.val < 1152
    · rw [dif_pos h1]
      refine concatenate_apply_piece (t := S2176) 0 [⟨S128, x0⟩, ⟨S1024, x1⟩, ⟨S1024, x2⟩] concatenates_S128_S1024_S1024_S2176_d0 (ix1 j) 1 (by simp) S1024 x1 rfl rfl 128 rfl _ (fun b hb => absurd (Subsingleton.elim _ _) hb) ?_
      show 128 + (j.val - 128) = j.val
      omega
    · rw [dif_neg h1]
      refine concatenate_apply_piece (t := S2176) 0 [⟨S128, x0⟩, ⟨S1024, x1⟩, ⟨S1024, x2⟩] concatenates_S128_S1024_S1024_S2176_d0 (ix1 j) 2 (by simp) S1024 x2 rfl rfl 1152 rfl _ (fun b hb => absurd (Subsingleton.elim _ _) hb) ?_
      show 1152 + (j.val - 1152) = j.val
      omega

/-- The weight concatenation [128; 1024; 1024] × 2048 read at row `j`, column `h`. -/
theorem concat_w_apply {α : Type} (x0 : S128x2048.Idx → α) (x1 x2 : S1024x2048.Idx → α) (j : Fin 2176) (h : Fin 2048) :
    concatenate S2176x2048 0 [⟨S128x2048, x0⟩, ⟨S1024x2048, x1⟩, ⟨S1024x2048, x2⟩]
        concatenates_S128x2048_S1024x2048_S1024x2048_S2176x2048_d0 (ix2 j h)
      = if h0 : j.val < 128 then x0 (ix2 ⟨j.val, h0⟩ h)
        else if h1 : j.val < 1152 then x1 (ix2 ⟨j.val - 128, by omega⟩ h)
        else x2 (ix2 ⟨j.val - 1152, by have := j.isLt; omega⟩ h) := by
  have hoff : ∀ (s₁ : Shape) (hr : s₁.rank = 2) (i : s₁.Idx) (i1 : (i ⟨1, by omega⟩).val = h.val) (b : Fin s₁.rank),
      b.cast hr ≠ (0 : Fin 2) → (i b).val = ((ix2 j h : S2176x2048.Idx) (b.cast hr)).val := by
    intro s₁ hr i i1 b hb
    have hb1 : b = ⟨1, by omega⟩ := by
      apply Fin.ext
      have h2 : b.val < 2 := hr ▸ b.isLt
      have h3 : b.val ≠ 0 := fun h0 => hb (Fin.ext h0)
      show b.val = 1
      omega
    subst hb1
    exact i1
  by_cases h0 : j.val < 128
  · rw [dif_pos h0]
    refine concatenate_apply_piece (t := S2176x2048) 0 [⟨S128x2048, x0⟩, ⟨S1024x2048, x1⟩, ⟨S1024x2048, x2⟩] concatenates_S128x2048_S1024x2048_S1024x2048_S2176x2048_d0 (ix2 j h) 0 (by simp) S128x2048 x0 rfl rfl 0 rfl _ (hoff _ rfl _ rfl) ?_
    show 0 + j.val = j.val
    omega
  · rw [dif_neg h0]
    by_cases h1 : j.val < 1152
    · rw [dif_pos h1]
      refine concatenate_apply_piece (t := S2176x2048) 0 [⟨S128x2048, x0⟩, ⟨S1024x2048, x1⟩, ⟨S1024x2048, x2⟩] concatenates_S128x2048_S1024x2048_S1024x2048_S2176x2048_d0 (ix2 j h) 1 (by simp) S1024x2048 x1 rfl rfl 128 rfl _ (hoff _ rfl _ rfl) ?_
      show 128 + (j.val - 128) = j.val
      omega
    · rw [dif_neg h1]
      refine concatenate_apply_piece (t := S2176x2048) 0 [⟨S128x2048, x0⟩, ⟨S1024x2048, x1⟩, ⟨S1024x2048, x2⟩] concatenates_S128x2048_S1024x2048_S1024x2048_S2176x2048_d0 (ix2 j h) 2 (by simp) S1024x2048 x2 rfl rfl 1152 rfl _ (hoff _ rfl _ rfl) ?_
      show 1152 + (j.val - 1152) = j.val
      omega

variable (m : (ℓ : Loc nD τ sig) → Buf (Elt Ideal) ℓ) (c : Dev nD) (A : Args) (hA : IsArgs m c A)

/-! ## The arrays at the region's entry -/

include hA in
/-- Token row `n` of the reshaped hidden states is row `(n / 512, n % 512)` of X. -/
theorem entry_x (n : Fin 16384) (h : Fin 2048) :
    (V m c main_v0 : S16384x2048.Idx → EReal) (ix2 n h)
      = ((A.X (ix3 (⟨n.val / 512, by omega⟩ : Fin 32) (⟨n.val % 512, by omega⟩ : Fin 512) h) : ℝ) : EReal) := by
  have e : (V m c main_v0 : S16384x2048.Idx → EReal)
      = shapeCast S16384x2048 (m ((c.tc : Thread nD τ).loc main_arg0) : S32x512x2048.Idx → EReal)
          shapeCasts_S32x512x2048_S16384x2048 := by
    show StableHlo.after hostOps0 (fun b => m (c, b)) (Proc.devRef .tc main_v0) = _
    host_results
    rfl
  rw [e, hA.hX]
  rw [shapeCast_apply _ _ _ (ix3 (⟨n.val / 512, by omega⟩ : Fin 32) (⟨n.val % 512, by omega⟩ : Fin 512) h)]
  rw [Shape.rowMajor_val_two, Shape.rowMajor_val_three]
  show (n.val / 512 * 512 + n.val % 512) * 2048 + h.val = n.val * 2048 + h.val
  omega

include hA in
theorem entry_py (n : Fin 16384) :
    (V m c main_v1 : S16384x1.Idx → BitVec 32) (ix2 n (0 : Fin 1))
      = A.pY (ix2 (⟨n.val / 512, by omega⟩ : Fin 32) (⟨n.val % 512, by omega⟩ : Fin 512)) := by
  have e : (V m c main_v1 : S16384x1.Idx → BitVec 32)
      = shapeCast S16384x1 (m ((c.tc : Thread nD τ).loc main_arg1) : S32x512.Idx → BitVec 32) shapeCasts_S32x512_S16384x1 := by
    show StableHlo.after hostOps0 (fun b => m (c, b)) (Proc.devRef .tc main_v1) = _
    host_results
    rfl
  rw [e, hA.hpY]
  rw [shapeCast_apply _ _ _ (ix2 (⟨n.val / 512, by omega⟩ : Fin 32) (⟨n.val % 512, by omega⟩ : Fin 512))]
  rw [Shape.rowMajor_val_two, Shape.rowMajor_val_two]
  show n.val / 512 * 512 + n.val % 512 = n.val * 1 + 0
  omega

include hA in
theorem entry_y (n : Fin 16384) :
    (V m c main_v2 : S16384x1.Idx → BitVec 32) (ix2 n (0 : Fin 1))
      = A.Y (ix2 (⟨n.val / 512, by omega⟩ : Fin 32) (⟨n.val % 512, by omega⟩ : Fin 512)) := by
  have e : (V m c main_v2 : S16384x1.Idx → BitVec 32)
      = shapeCast S16384x1 (m ((c.tc : Thread nD τ).loc main_arg2) : S32x512.Idx → BitVec 32) shapeCasts_S32x512_S16384x1 := by
    show StableHlo.after hostOps0 (fun b => m (c, b)) (Proc.devRef .tc main_v2) = _
    host_results
    rfl
  rw [e, hA.hY]
  rw [shapeCast_apply _ _ _ (ix2 (⟨n.val / 512, by omega⟩ : Fin 32) (⟨n.val % 512, by omega⟩ : Fin 512))]
  rw [Shape.rowMajor_val_two, Shape.rowMajor_val_two]
  show n.val / 512 * 512 + n.val % 512 = n.val * 1 + 0
  omega

attribute [local irreducible] Host.scatter in
include hA in
/-- The fused weight matrix the region stages. -/
theorem entry_w (h : Fin 2048) (j : Fin 2176) :
    (V m c main_v8 : S2048x2176.Idx → EReal) (ix2 h j) = ((wAll A h j : ℝ) : EReal) := by
  have e : (V m c main_v8 : S2048x2176.Idx → EReal)
      = (truncf .bf16
          (transpose S2048x2176 [1, 0]
            (concatenate S2176x2048 0
              [⟨S128x2048, Host.scatter scatter_S128x2048_S1_S1x2048_01_n_0_0 (fun _ b => b)
                  (broadcastInDim S128x2048 ![] bcast_S_S128x2048 (constant (F := Ideal) S_ .f32 0x00000000#32))
                  (broadcastInDim S1 ![] bcast_S_S1 (constantI S_ 32 126#32))
                  (m ((c.tc : Thread nD τ).loc main_arg3) : S1x2048.Idx → EReal)⟩,
               ⟨S1024x2048, (m ((c.tc : Thread nD τ).loc main_arg5) : S1024x2048.Idx → EReal)⟩,
               ⟨S1024x2048, (m ((c.tc : Thread nD τ).loc main_arg7) : S1024x2048.Idx → EReal)⟩]
              concatenates_S128x2048_S1024x2048_S1024x2048_S2176x2048_d0 : FVec Ideal S2176x2048 .f32)
            transposes_S2176x2048_S2048x2176_1_0)
          bitsLt_bf16_f32 : FVec Ideal S2048x2176 .bf16) := by
    show StableHlo.after hostOps0 (fun b => m (c, b)) (Proc.devRef .tc main_v8) = _
    host_results
    rfl
  rw [e, hA.hWe, hA.hWh, hA.hWr]
  rw [truncf_apply]
  rw [transpose_apply _ _ _ _ (ix2 j h) (by intro b; match b with | ⟨0, _⟩ => rfl | ⟨1, _⟩ => rfl)]
  rw [concat_w_apply]
  unfold wAll
  by_cases h0 : j.val < 128
  · rw [dif_pos h0]
    by_cases h126 : j.val = 126
    · rw [if_pos h126]
      have hj : (⟨j.val, h0⟩ : Fin 128) = 126 := Fin.ext h126
      rw [hj]
      refine scatter_set_apply_of_hit _ _ _ _ (ix2 (126 : Fin 128) h) (ix2 (0 : Fin 1) h) (resultIdx_w _ _ idx126) (fun j' hj' => ?_)
      rw [resultIdx_w _ _ idx126] at hj'
      have h1 : (j' 1).val = h.val := congrArg Fin.val (congrFun (Option.some.inj hj') 1)
      have h2 : (j' 0).val < 1 := (j' 0).isLt
      funext a
      match a with
      | ⟨0, _⟩ => exact Fin.ext (show (j' 0).val = 0 by omega)
      | ⟨1, _⟩ => exact Fin.ext h1
    · rw [if_neg h126, dif_neg (by omega), dif_neg (by omega)]
      rw [scatter_set_apply_of_not_hit _ _ _ _ _ (fun j' hj' => by
        rw [resultIdx_w _ _ idx126] at hj'
        have := congrFun (Option.some.inj hj') 0
        exact h126 (congrArg Fin.val this).symm)]
      rw [broadcastInDim_scalar_apply, constant_apply, Ideal.ofBits_zero_f32, EReal.coe_zero]
  · rw [dif_neg h0, if_neg (by omega)]
    by_cases h1 : j.val < 1152
    · rw [dif_pos h1, dif_pos ⟨by omega, h1⟩]
    · rw [dif_neg h1, dif_neg (by omega), dif_pos (by omega)]

include hA in
/-- The fused bias row the region stages. -/
theorem entry_b (j : Fin 2176) :
    (V m c main_v14 : S1x2176.Idx → EReal) (ix2 (0 : Fin 1) j) = ((bAll A j : ℝ) : EReal) := by
  have e : (V m c main_v14 : S1x2176.Idx → EReal)
      = shapeCast S1x2176
          (concatenate S2176 0
            [⟨S128, Host.scatter scatter_S128_S1_S__n_0_0_0 (fun _ b => b)
                (broadcastInDim S128 ![] bcast_S_S128 (constant (F := Ideal) S_ .f32 0x00000000#32))
                (broadcastInDim S1 ![] bcast_S_S1 (constantI S_ 32 126#32))
                (shapeCast S_ (m ((c.tc : Thread nD τ).loc main_arg4) : S1.Idx → EReal) shapeCasts_S1_S_)⟩,
             ⟨S1024, (m ((c.tc : Thread nD τ).loc main_arg6) : S1024.Idx → EReal)⟩,
             ⟨S1024, (m ((c.tc : Thread nD τ).loc main_arg8) : S1024.Idx → EReal)⟩]
            concatenates_S128_S1024_S1024_S2176_d0)
          shapeCasts_S2176_S1x2176 := by
    show StableHlo.after hostOps0 (fun b => m (c, b)) (Proc.devRef .tc main_v14) = _
    host_results
    rfl
  rw [e, hA.hbe, hA.hbh, hA.hbr]
  rw [shapeCast_apply _ _ _ (ix1 j)
    (by rw [Shape.rowMajor_val_one, Shape.rowMajor_val_two]; show j.val = 0 * 2176 + j.val; omega)]
  rw [concat_b_apply]
  unfold bAll
  by_cases h0 : j.val < 128
  · rw [dif_pos h0]
    by_cases h126 : j.val = 126
    · rw [if_pos h126]
      have hj : (⟨j.val, h0⟩ : Fin 128) = 126 := Fin.ext h126
      rw [hj, scatter_set_apply_of_hit _ _ _ _ _ ix0 (resultIdx_b _ _ idx126) (fun j' _ => eq_ix0 j')]
      refine shapeCast_apply _ _ _ (ix1 (0 : Fin 1)) ?_
      rw [Shape.rowMajor_val_one]
      have h1 := (S_.rowMajor ix0).isLt
      have h2 : S_.numel = 1 := Shape.numel_eq_one (fun a => a.elim0)
      show 0 = (S_.rowMajor ix0).val
      omega
    · rw [if_neg h126, dif_neg (by omega), dif_neg (by omega)]
      rw [scatter_set_apply_of_not_hit _ _ _ _ _ (fun j' hj' => by
        rw [resultIdx_b _ _ idx126] at hj'
        have := congrFun (Option.some.inj hj') 0
        exact h126 (congrArg Fin.val this).symm)]
      rw [broadcastInDim_scalar_apply, constant_apply, Ideal.ofBits_zero_f32, EReal.coe_zero]
  · rw [dif_neg h0, if_neg (by omega)]
    by_cases h1 : j.val < 1152
    · rw [dif_pos h1, dif_pos ⟨by omega, h1⟩]
    · rw [dif_neg h1, dif_neg (by omega), dif_pos (by omega)]

/-! ## The input windows' blocks -/

/-- Token `p` of grid point `t`'s tile is token row `256 t + p` of the batch. -/
def tokenRow (t : Fin cfg0.N) (p : Fin 256) : Fin 16384 :=
  ⟨256 * t.val + p.val, by have := t.isLt; have h : cfg0.N = 64 := N_0; omega⟩

theorem tokenRow_val (t : Fin cfg0.N) (p : Fin 256) : (tokenRow t p).val = 256 * t.val + p.val := rfl

/-- The printed index maps over the grid: the hidden rows, class words and label words move with the point along
    axis 0 (block `(t, 0)`); the fused weights and bias stay at block `(0, 0)`. -/
theorem idx_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The hidden-row block of point `t` is token rows `256 t … 256 t + 255`. -/
theorem iblk0_apply (t : Fin cfg0.N) (p : Fin 256) (h : Fin 2048) :
    (iblk m c 0 t : S256x2048.Idx → EReal) (ix2 p h)
      = (V m c main_v0 : S16384x2048.Idx → EReal) (ix2 (tokenRow t p) h) := by
  obtain ⟨e0, e1, -⟩ := idx_in t
  show V m c main_v0 (((cfg0.win 0).blk t).view.emb (ix2 p h)) = V m c main_v0 (ix2 (tokenRow t p) h)
  refine congrArg _ ?_
  funext a; apply Fin.ext
  match a with
  | ⟨0, _⟩ => show win0_0.index t (0 : Fin 2) * 256 + 1 * p.val = 256 * t.val + p.val; omega
  | ⟨1, _⟩ => show win0_0.index t (1 : Fin 2) * 2048 + 1 * h.val = h.val; omega

theorem iblk1_apply (t : Fin cfg0.N) (p : Fin 256) :
    (iblk m c 1 t : S256x1.Idx → BitVec 32) (ix2 p (0 : Fin 1))
      = (V m c main_v1 : S16384x1.Idx → BitVec 32) (ix2 (tokenRow t p) (0 : Fin 1)) := by
  obtain ⟨-, -, e0, e1, -⟩ := idx_in t
  show V m c main_v1 (((cfg0.win 1).blk t).view.emb (ix2 p (0 : Fin 1))) = V m c main_v1 (ix2 (tokenRow t p) (0 : Fin 1))
  refine congrArg _ ?_
  funext a; apply Fin.ext
  match a with
  | ⟨0, _⟩ => show win0_1.index t (0 : Fin 2) * 256 + 1 * p.val = 256 * t.val + p.val; omega
  | ⟨1, _⟩ => show win0_1.index t (1 : Fin 2) * 1 + 1 * 0 = 0; omega

theorem iblk2_apply (t : Fin cfg0.N) (p : Fin 256) :
    (iblk m c 2 t : S256x1.Idx → BitVec 32) (ix2 p (0 : Fin 1))
      = (V m c main_v2 : S16384x1.Idx → BitVec 32) (ix2 (tokenRow t p) (0 : Fin 1)) := by
  obtain ⟨-, -, -, -, e0, e1, -⟩ := idx_in t
  show V m c main_v2 (((cfg0.win 2).blk t).view.emb (ix2 p (0 : Fin 1))) = V m c main_v2 (ix2 (tokenRow t p) (0 : Fin 1))
  refine congrArg _ ?_
  funext a; apply Fin.ext
  match a with
  | ⟨0, _⟩ => show win0_2.index t (0 : Fin 2) * 256 + 1 * p.val = 256 * t.val + p.val; omega
  | ⟨1, _⟩ => show win0_2.index t (1 : Fin 2) * 1 + 1 * 0 = 0; omega

/-- The weights' block is the whole fused matrix at every point. -/
theorem iblk3_apply (t : Fin cfg0.N) (h : Fin 2048) (j : Fin 2176) :
    (iblk m c 3 t : S2048x2176.Idx → EReal) (ix2 h j) = (V m c main_v8 : S2048x2176.Idx → EReal) (ix2 h j) := by
  obtain ⟨-, -, -, -, -, -, e0, e1, -⟩ := idx_in t
  show V m c main_v8 (((cfg0.win 3).blk t).view.emb (ix2 h j)) = V m c main_v8 (ix2 h j)
  refine congrArg _ ?_
  funext a; apply Fin.ext
  match a with
  | ⟨0, _⟩ => show win0_3.index t (0 : Fin 2) * 2048 + 1 * h.val = h.val; omega
  | ⟨1, _⟩ => show win0_3.index t (1 : Fin 2) * 2176 + 1 * j.val = j.val; omega

/-- The bias block is the whole fused row at every point. -/
theorem iblk4_apply (t : Fin cfg0.N) (j : Fin 2176) :
    (iblk m c 4 t : S1x2176.Idx → EReal) (ix2 (0 : Fin 1) j) = (V m c main_v14 : S1x2176.Idx → EReal) (ix2 (0 : Fin 1) j) := by
  obtain ⟨-, -, -, -, -, -, -, -, e0, e1⟩ := idx_in t
  show V m c main_v14 (((cfg0.win 4).blk t).view.emb (ix2 (0 : Fin 1) j)) = V m c main_v14 (ix2 (0 : Fin 1) j)
  refine congrArg _ ?_
  funext a; apply Fin.ext
  match a with
  | ⟨0, _⟩ => show win0_4.index t (0 : Fin 2) * 1 + 1 * 0 = 0; omega
  | ⟨1, _⟩ => show win0_4.index t (1 : Fin 2) * 2176 + 1 * j.val = j.val; omega

end Cert.KernelIdeal.Heads

end
-- ==== Proof.KI.Arrays.lean ====
/-
  The two output arrays after the region, on real data.

  Grid point `t` handles token rows `256 t … 256 t + 255`. Its input blocks are real-valued (rows of X, the fused
  weights, the fused bias) and its tile logits are the specification's logits of those tokens, so what it writes
  back is block `t` of two whole-array functions: the log-probability column, and the padded probability table
  (126 zero columns, the two end columns, the hcw columns, the roo columns). The 64 blocks tile both arrays.
-/
import proofs.«410987_j75797582839976_2_alg».proof.Proof.KI.Tile
import proofs.«410987_j75797582839976_2_alg».proof.Proof.KI.Entry
import Idealize.ShloMosaic.Lib.Pipeline.Value

noncomputable section

namespace Cert.KernelIdeal.Heads

open Cert.KernelIdeal Cert.KernelIdeal.Gen Cert.Heads
open Idealize.ShloMosaic Idealize.ShloMosaic.TcCoe Idealize.ShloMosaic.ValueIdx Idealize.SL.Sem
open Idealize.ShloMosaic.Pipeline (Dat)

/-- The batch entry of token row `n`. -/
def rowB (n : Fin 16384) : Fin 32 := ⟨n.val / 512, by omega⟩
/-- The position of token row `n` in its batch entry. -/
def rowS (n : Fin 16384) : Fin 512 := ⟨n.val % 512, by omega⟩

variable (A : Args)

/-! ## A point's blocks over the reals -/

/-- The hidden rows of point `t`'s tile. -/
def xrT (t : Fin cfg0.N) : S256x2048.Idx → ℝ :=
  fun i => A.X (ix3 (rowB (tokenRow t (i 0))) (rowS (tokenRow t (i 0))) (i 1))
/-- The class words of point `t`'s tile. -/
def pyT (t : Fin cfg0.N) : Vec Ideal S256x1 .i32 := fun i => A.pY (ix2 (rowB (tokenRow t (i 0))) (rowS (tokenRow t (i 0))))
/-- The label words of point `t`'s tile. -/
def yT (t : Fin cfg0.N) : Vec Ideal S256x1 .i32 := fun i => A.Y (ix2 (rowB (tokenRow t (i 0))) (rowS (tokenRow t (i 0))))
/-- The fused weights. -/
def wrT : S2048x2176.Idx → ℝ := fun i => wAll A (i 0) (i 1)
/-- The fused bias row. -/
def brT : S1x2176.Idx → ℝ := fun i => bAll A (i 1)

/-! ## The fused weights and bias at the three heads' columns -/

theorem wAll_hcw (h : Fin 2048) (k : Fin 1024) : wAll A h (⟨128 + k.val, by omega⟩ : Fin 2176) = A.Wh (ix2 k h) := by
  unfold wAll
  have h1 : ¬ (128 + k.val = 126) := by omega
  have h2 : 128 ≤ 128 + k.val ∧ 128 + k.val < 1152 := by have := k.isLt; omega
  simp only [h1, if_false, h2, and_self, dif_pos, Nat.add_sub_cancel_left, Fin.eta]

theorem wAll_roo (h : Fin 2048) (k : Fin 1024) : wAll A h (⟨1152 + k.val, by omega⟩ : Fin 2176) = A.Wr (ix2 k h) := by
  unfold wAll
  have h1 : ¬ (1152 + k.val = 126) := by omega
  have h2 : ¬ (128 ≤ 1152 + k.val ∧ 1152 + k.val < 1152) := by omega
  have h3 : 1152 ≤ 1152 + k.val := by omega
  simp only [h1, if_false, h2, dif_neg, h3, dif_pos, Nat.add_sub_cancel_left, Fin.eta, not_false_eq_true]

theorem bAll_hcw (k : Fin 1024) : bAll A (⟨128 + k.val, by omega⟩ : Fin 2176) = A.bh (ix1 k) := by
  unfold bAll
  have h1 : ¬ (128 + k.val = 126) := by omega
  have h2 : 128 ≤ 128 + k.val ∧ 128 + k.val < 1152 := by have := k.isLt; omega
  simp only [h1, if_false, h2, and_self, dif_pos, Nat.add_sub_cancel_left, Fin.eta]

theorem bAll_roo (k : Fin 1024) : bAll A (⟨1152 + k.val, by omega⟩ : Fin 2176) = A.br (ix1 k) := by
  unfold bAll
  have h1 : ¬ (1152 + k.val = 126) := by omega
  have h2 : ¬ (128 ≤ 1152 + k.val ∧ 1152 + k.val < 1152) := by omega
  have h3 : 1152 ≤ 1152 + k.val := by omega
  simp only [h1, if_false, h2, dif_neg, h3, dif_pos, Nat.add_sub_cancel_left, Fin.eta, not_false_eq_true]

/-! ## The tile's logits are the tokens' logits -/

theorem tileE_eq (t : Fin cfg0.N) (p : Fin 256) :
    tileE (xrT A t) (wrT A) (brT A) p = endLogit A.X A.We A.be (rowB (tokenRow t p)) (rowS (tokenRow t p)) := by
  unfold tileE endLogit xrT wrT brT wAll bAll
  simp only [if_pos]

theorem tileU_eq (t : Fin cfg0.N) (p : Fin 256) (k : Fin 1024) :
    tileU (xrT A t) (wrT A) (brT A) p k = headLogit A.X A.Wh A.bh (rowB (tokenRow t p)) (rowS (tokenRow t p)) k := by
  show (∑ h : Fin 2048, A.X (ix3 (rowB (tokenRow t p)) (rowS (tokenRow t p)) h) * wAll A h (⟨128 + k.val, by omega⟩ : Fin 2176))
      + bAll A (⟨128 + k.val, by omega⟩ : Fin 2176) = _
  simp only [wAll_hcw, bAll_hcw]
  rfl

theorem tileR_eq (t : Fin cfg0.N) (p : Fin 256) (k : Fin 1024) :
    tileR (xrT A t) (wrT A) (brT A) p k = headLogit A.X A.Wr A.br (rowB (tokenRow t p)) (rowS (tokenRow t p)) k := by
  show (∑ h : Fin 2048, A.X (ix3 (rowB (tokenRow t p)) (rowS (tokenRow t p)) h) * wAll A h (⟨1152 + k.val, by omega⟩ : Fin 2176))
      + bAll A (⟨1152 + k.val, by omega⟩ : Fin 2176) = _
  simp only [wAll_roo, bAll_roo]
  rfl

/-! ## A point's blocks are real data -/

variable (m : (ℓ : Loc nD τ sig) → Buf (Elt Ideal) ℓ) (c : Dev nD) (hA : IsArgs m c A)

include hA in
theorem blk0_eq (t : Fin cfg0.N) : (iblk m c 0 t : S256x2048.Idx → EReal) = fun i => ((xrT A t i : ℝ) : EReal) := by
  funext i
  obtain ⟨p, h, rfl⟩ : ∃ (p : Fin 256) (h : Fin 2048), i = ix2 p h := ⟨i 0, i 1, eq_ix2 i⟩
  rw [iblk0_apply, entry_x m c A hA]
  rfl

include hA in
theorem blk1_eq (t : Fin cfg0.N) : (iblk m c 1 t : S256x1.Idx → BitVec 32) = pyT A t := by
  funext i
  obtain ⟨p, q, rfl⟩ : ∃ (p : Fin 256) (q : Fin 1), i = ix2 p q := ⟨i 0, i 1, eq_ix2 i⟩
  obtain rfl : q = 0 := Subsingleton.elim _ _
  rw [iblk1_apply, entry_py m c A hA]
  rfl

include hA in
theorem blk2_eq (t : Fin cfg0.N) : (iblk m c 2 t : S256x1.Idx → BitVec 32) = yT A t := by
  funext i
  obtain ⟨p, q, rfl⟩ : ∃ (p : Fin 256) (q : Fin 1), i = ix2 p q := ⟨i 0, i 1, eq_ix2 i⟩
  obtain rfl : q = 0 := Subsingleton.elim _ _
  rw [iblk2_apply, entry_y m c A hA]
  rfl

include hA in
theorem blk3_eq (t : Fin cfg0.N) : (iblk m c 3 t : S2048x2176.Idx → EReal) = fun i => ((wrT A i : ℝ) : EReal) := by
  funext i
  obtain ⟨h, j, rfl⟩ : ∃ (h : Fin 2048) (j : Fin 2176), i = ix2 h j := ⟨i 0, i 1, eq_ix2 i⟩
  rw [iblk3_apply, entry_w m c A hA]
  rfl

include hA in
theorem blk4_eq (t : Fin cfg0.N) : (iblk m c 4 t : S1x2176.Idx → EReal) = fun i => ((brT A i : ℝ) : EReal) := by
  funext i
  obtain ⟨q, j, rfl⟩ : ∃ (q : Fin 1) (j : Fin 2176), i = ix2 q j := ⟨i 0, i 1, eq_ix2 i⟩
  obtain rfl : q = 0 := Subsingleton.elim _ _
  rw [iblk4_apply, entry_b m c A hA]
  rfl

end Cert.KernelIdeal.Heads

end
-- ==== Proof.KI.Frame.lean ====
/-
  The frame run of @main: the host lines that fuse the three heads' weights and biases, the one region over the 64
  token tiles, the host lines that cut the padded results to size.

  Contents: the host lines allocate nothing and the later ones leave the region's arrays alone; no line writes an
  argument array, and no window stages one, so each argument is found and left as launched; at every grid point the
  five input buffers hold their blocks; the body's stores fill both output buffers, so what it leaves in them is the
  canon of its stores over the input blocks; the body's triple, the obligation at every point, the run of @main and
  the frame: all nine argument arrays end unchanged.
-/
import proofs.«410987_j75797582839976_2_alg».proof.Proof.KI.Data
import Idealize.ShloMosaic.Lib.Ring
import Idealize.ShloMosaic.Lib.Tactic
import Idealize.ShloMosaic.Lib.Pipeline.FrameBody
import Idealize.ShloMosaic.Lib.Pipeline.FrameSuffix

set_option maxRecDepth 16384

noncomputable section

namespace Cert.KernelIdeal.Heads

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The lines that build the fused weight matrix and bias row allocate nothing. -/
theorem hostOps0_fresh : (hostOps0 : List (HloOp τ sig (Elt F))).Forall fun op => op.fresh = ∅ := by
  simp only [List.Forall]; repeat' constructor
/-- Nor do the lines that cut the padded results to size. -/
theorem hostOps1_fresh : (hostOps1 : List (HloOp τ sig (Elt F))).Forall fun op => op.fresh = ∅ := by
  simp only [List.Forall]; repeat' constructor

/-- @main is: the lines before the region, the region, the lines after it. Holding the launch contents, it comes
    down to the region entered at the contents `V` and continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Every buffer a later line names is one of the region's seven arrays or a buffer the region passes by. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa using hops
  exact Pipeline.sub_ucRefs op ((List.forall_iff_forall_mem.mp hostOps1_sub) op hop)
/-- The later lines allocate nothing. -/
theorem sfx_fresh : ∀ ops ∈ ([hostOps1] : List (List (HloOp τ sig (Elt F)))), ∀ op ∈ ops, op.fresh = ∅ := by
  intro ops hops op hop
  obtain rfl : ops = hostOps1 := by simpa using hops
  exact (List.forall_iff_forall_mem.mp hostOps1_fresh) op hop
/-- The later lines write main_v16, main_v17 and main_v18: none of the seven arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa using hops
  simp only [hostOps1, List.mem_cons, List.mem_nil_iff, or_false] at hop
  rcases hop with rfl | rfl | rfl
  all_goals
    intro w
    fin_cases w <;>
      simp only [StableHlo.unary_writes, StableHlo.reshape_writes, Finset.mem_singleton] <;>
      exact StableHlo.devRef_ne_of_ne (by decide)

/-! ## The argument arrays through the host lines

Each host line writes one buffer, its result. The results of the lines before the region, of the lines after it, and
the seven arrays the region stages are all intermediate values of @main: no argument is among them, so every argument
is found by the region, and left by @main, as launched. -/

/-- The results of the lines before the region, in order. -/
def written0 : List (Ref sig .tc) :=
  [main_v0, main_v1, main_v2, main_cst, main_v3, main_c, main_v4, main_v5, main_v6, main_v7, main_v8, main_cst_0,
    main_v9, main_v10, main_c_1, main_v11, main_v12, main_v13, main_v14]
/-- The results of the lines after it. -/
def written1 : List (Ref sig .tc) := [main_v16, main_v17, main_v18]

theorem hostOps0_writes : (hostOps0 : List (HloOp τ sig (Elt F))).Forall fun op =>
    op.writes ⊆ (written0.map (Proc.devRef (τ := τ) .tc)).toFinset := by
  simp only [hostOps0, List.Forall, StableHlo.nullary_writes, StableHlo.unary_writes, StableHlo.ternary_writes,
    StableHlo.nary_writes, StableHlo.reshape_writes, Finset.singleton_subset_iff, List.mem_toFinset]
  repeat' apply And.intro
  all_goals exact List.mem_map.mpr ⟨_, by decide, rfl⟩

theorem hostOps1_writes : (hostOps1 : List (HloOp τ sig (Elt F))).Forall fun op =>
    op.writes ⊆ (written1.map (Proc.devRef (τ := τ) .tc)).toFinset := by
  simp only [hostOps1, List.Forall, StableHlo.unary_writes, StableHlo.reshape_writes, Finset.singleton_subset_iff,
    List.mem_toFinset]
  repeat' apply And.intro
  all_goals exact List.mem_map.mpr ⟨_, by decide, rfl⟩

/-- A buffer no line before the region writes is found by the region as launched. -/
theorem V_of_not_written (c : Dev nD) (r : Ref sig .tc) (h : r ∉ written0) : V m c r = m ((c : Thread nD τ).loc r) :=
  StableHlo.after_of_writes_sub (List.flatten [hostOps0]) (fun b => m (c, b))
    (by simp only [List.flatten_cons, List.flatten_nil, List.append_nil]; exact hostOps0_writes) h

/-- A buffer that no line writes and no window stages ends as launched, whatever the proof data. -/
theorem W_of_not_written (dats' : (p : Fin 1) → (c : Dev nD) → Dat τ (Elt F) Unit ℕ (UR sig nD τ) ℕ (cfgs p) c) (c : Dev nD)
    (r : Ref sig .tc) (h0 : r ∉ written0) (h1 : r ∉ written1) (ha : ∀ w, Pipeline.arrRef spec0 w ≠ r) :
    Pipeline.afterTail₀ cfgs dats' 0 (V0 m) [hostOps1] c r = m ((c : Thread nD τ).loc r) := by
  unfold Pipeline.afterTail₀
  rw [StableHlo.after_of_writes_sub (r := r) _ _
      (by simp only [List.flatten_cons, List.flatten_nil, List.append_nil]; exact hostOps1_writes) h1,
    Pipeline.withArrays_of_ne _ c (V0 m c) _ r ha]
  exact V_of_not_written m c r h0

theorem V_main_arg0 (c : Dev nD) : V m c main_arg0 = m ((c : Thread nD τ).loc main_arg0) := V_of_not_written m c _ (by decide)
theorem V_main_arg1 (c : Dev nD) : V m c main_arg1 = m ((c : Thread nD τ).loc main_arg1) := V_of_not_written m c _ (by decide)
theorem V_main_arg2 (c : Dev nD) : V m c main_arg2 = m ((c : Thread nD τ).loc main_arg2) := V_of_not_written m c _ (by decide)
theorem V_main_arg3 (c : Dev nD) : V m c main_arg3 = m ((c : Thread nD τ).loc main_arg3) := V_of_not_written m c _ (by decide)
theorem V_main_arg4 (c : Dev nD) : V m c main_arg4 = m ((c : Thread nD τ).loc main_arg4) := V_of_not_written m c _ (by decide)
theorem V_main_arg5 (c : Dev nD) : V m c main_arg5 = m ((c : Thread nD τ).loc main_arg5) := V_of_not_written m c _ (by decide)
theorem V_main_arg6 (c : Dev nD) : V m c main_arg6 = m ((c : Thread nD τ).loc main_arg6) := V_of_not_written m c _ (by decide)
theorem V_main_arg7 (c : Dev nD) : V m c main_arg7 = m ((c : Thread nD τ).loc main_arg7) := V_of_not_written m c _ (by decide)
theorem V_main_arg8 (c : Dev nD) : V m c main_arg8 = m ((c : Thread nD τ).loc main_arg8) := V_of_not_written m c _ (by decide)

section
variable (dats' : (p : Fin 1) → (c : Dev nD) → Dat τ (Elt F) Unit ℕ (UR sig nD τ) ℕ (cfgs p) c) (c : Dev nD)
theorem W_main_arg0 : Pipeline.afterTail₀ cfgs dats' 0 (V0 m) [hostOps1] c main_arg0 = m ((c : Thread nD τ).loc main_arg0) :=
  W_of_not_written m dats' c _ (by decide) (by decide) (by decide)
theorem W_main_arg1 : Pipeline.afterTail₀ cfgs dats' 0 (V0 m) [hostOps1] c main_arg1 = m ((c : Thread nD τ).loc main_arg1) :=
  W_of_not_written m dats' c _ (by decide) (by decide) (by decide)
theorem W_main_arg2 : Pipeline.afterTail₀ cfgs dats' 0 (V0 m) [hostOps1] c main_arg2 = m ((c : Thread nD τ).loc main_arg2) :=
  W_of_not_written m dats' c _ (by decide) (by decide) (by decide)
theorem W_main_arg3 : Pipeline.afterTail₀ cfgs dats' 0 (V0 m) [hostOps1] c main_arg3 = m ((c : Thread nD τ).loc main_arg3) :=
  W_of_not_written m dats' c _ (by decide) (by decide) (by decide)
theorem W_main_arg4 : Pipeline.afterTail₀ cfgs dats' 0 (V0 m) [hostOps1] c main_arg4 = m ((c : Thread nD τ).loc main_arg4) :=
  W_of_not_written m dats' c _ (by decide) (by decide) (by decide)
theorem W_main_arg5 : Pipeline.afterTail₀ cfgs dats' 0 (V0 m) [hostOps1] c main_arg5 = m ((c : Thread nD τ).loc main_arg5) :=
  W_of_not_written m dats' c _ (by decide) (by decide) (by decide)
theorem W_main_arg6 : Pipeline.afterTail₀ cfgs dats' 0 (V0 m) [hostOps1] c main_arg6 = m ((c : Thread nD τ).loc main_arg6) :=
  W_of_not_written m dats' c _ (by decide) (by decide) (by decide)
theorem W_main_arg7 : Pipeline.afterTail₀ cfgs dats' 0 (V0 m) [hostOps1] c main_arg7 = m ((c : Thread nD τ).loc main_arg7) :=
  W_of_not_written m dats' c _ (by decide) (by decide) (by decide)
theorem W_main_arg8 : Pipeline.afterTail₀ cfgs dats' 0 (V0 m) [hostOps1] c main_arg8 = m ((c : Thread nD τ).loc main_arg8) :=
  W_of_not_written m dats' c _ (by decide) (by decide) (by decide)
end

/-! ## What the body finds in its input buffers -/

/-- The token tile of hidden rows is in its buffer at every point. -/
theorem before_0 (c : Dev nD) (t : Fin cfg0.N) (d) : (dats m 0 c).before 0 t d = iblk m c 0 t :=
  ((dats m 0 c).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
/-- So are the tile's class words, -/
theorem before_1 (c : Dev nD) (t : Fin cfg0.N) (d) : (dats m 0 c).before 1 t d = iblk m c 1 t :=
  ((dats m 0 c).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
/-- and its label words. -/
theorem before_2 (c : Dev nD) (t : Fin cfg0.N) (d) : (dats m 0 c).before 2 t d = iblk m c 2 t :=
  ((dats m 0 c).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
/-- The fused weight matrix is one block, copied in at the first point and left in place by the body: it is there at
    every point. -/
theorem before_3 (c : Dev nD) (t : Fin cfg0.N) (d) : (dats m 0 c).before 3 t d = iblk m c 3 t :=
  ((dats m 0 c).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
/-- Likewise the fused bias row. -/
theorem before_4 (c : Dev nD) (t : Fin cfg0.N) (d) : (dats m 0 c).before 4 t d = iblk m c 4 t :=
  ((dats m 0 c).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

/-! ## The stores fill the output buffers -/

/-- The one store of the log-probability column is the whole 256 × 1 buffer. -/
theorem cover_logp (p : FVec F S256x1 .f32) (y : S256x1.Idx) :
    ∃ pc ∈ ([⟨rT, p⟩] : List (View.Piece (Elt F) S256x1 .f32)), y ∈ pc.1.set :=
  View.cover_of_tiled _ S256x1.size (by rfl) y

/-- The three column bands [0,128), [128,1152), [1152,2176) fill the 256 × 2176 buffer: cut into 256 × 128 blocks
    they are its 17 blocks, each once. -/
theorem cover_prob (p2 p1 : FVec F S256x1024 .f32) (p0 : FVec F S256x128 .f32) (y : S256x2176.Idx) :
    ∃ pc ∈ ([⟨rP2, p2⟩, ⟨rP1, p1⟩, ⟨rP0, p0⟩] : List (View.Piece (Elt F) S256x2176 .f32)), y ∈ pc.1.set :=
  View.cover_of_tiledBy _ ![256, 128] (by sl_kernel_rfl) y

/-! ## The body's triple -/

set_option maxHeartbeats 4000000 in
/-- The body on whole buffers: the five inputs read `x0 … x4`, the two outputs hold anything. It runs to its return
    with the inputs as they were, the first output at the canon of its one store and the second at the canon of its
    three, each payload a function of the loaded inputs alone. The body reads each output band before it overwrites it;
    what those reads return is never used. -/
theorem sound_kernel (c : Dev nD) (E : Set ℕ) (i : grid0.Coords)
    (arg1 : Memref sig .tc .vmem S256x2048 .f32) (harg1 : arg1.IsWhole) (arg2 : Memref sig .tc .vmem S256x1 .i32) (harg2 : arg2.IsWhole)
    (arg3 : Memref sig .tc .vmem S256x1 .i32) (harg3 : arg3.IsWhole) (arg4 : Memref sig .tc .vmem S2048x2176 .bf16) (harg4 : arg4.IsWhole)
    (arg5 : Memref sig .tc .vmem S1x2176 .f32) (harg5 : arg5.IsWhole) (arg6 : Memref sig .tc .vmem S256x1 .f32) (harg6 : arg6.IsWhole)
    (arg7 : Memref sig .tc .vmem S256x2176 .f32) (harg7 : arg7.IsWhole)
    (x0 : Vec F S256x2048 .f32) (x1 x2 : Vec F S256x1 .i32) (x3 : Vec F S2048x2176 .bf16) (x4 : Vec F S1x2176 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (outLogp x0 x1 x2 x3 x4)
            ∗ owns (c : Thread nD τ) arg7 fullShare (outProb x0 x1 x2 x3 x4)) -∗ K ⟨⟩))
      ⊢ wp frame (wpE (defs₀ (F := F)) Variants.none c none) E
          (cc0__kernel i arg1 harg1 arg2 harg2 arg3 harg3 arg4 harg4 arg5 harg5 arg6 harg6 arg7 harg7) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover_logp _)
  iexists _; isplitr
  swap; · iexact H6
  ipureintro
  exact View.read_writes_eq_canon _ _ _ (cover_prob _ _ _)

/-! ## The body at a grid point -/

/-- What the pipeline hands the body at point `t`: the invariant, the core's debt, and the seven windows' current
    buffers, each whole at what the proof data say it holds there. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- What the body hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- At every point the five input buffers hold their blocks, so the body's triple applies at those blocks; the two
    output buffers are handed over at whatever they hold; the invariant and the debt are not touched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation on the body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with the semaphores at zero, every weakly fair execution of @main terminates without fault; at
    the end each of the seven arrays holds what the pipeline's write-backs leave in it, and every other unscoped
    buffer holds what the lines after the region leave in it. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- info: 'Cert.KernelIdeal.Heads.run_main' depends on axioms: [propext, Classical.choice, Quot.sound] -/
#guard_msgs in #print axioms run_main

/-- The nine argument arrays end as launched: none of them is one of the seven arrays, so each is among the buffers
    the region passes by, which end at what the later lines leave; and no line writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Heads

end
-- ==== Proof.KI.Blocks.lean ====
/-
  What each grid point writes back, and the two output arrays after the region.

  Point `t` writes back block `t` of the log-probability column `colLogp` (token rows 256 t … 256 t + 255) and block
  `t` of the padded probability table `tabProb`; the 64 blocks tile both arrays, so after the region the arrays hold
  those two functions of the real data.
-/
import proofs.«410987_j75797582839976_2_alg».proof.Proof.KI.Arrays
import proofs.«410987_j75797582839976_2_alg».proof.Proof.KI.Frame

set_option maxRecDepth 16384

noncomputable section

namespace Cert.KernelIdeal.Heads

open Cert.KernelIdeal Cert.KernelIdeal.Gen Cert.Heads
open Idealize.ShloMosaic Idealize.ShloMosaic.TcCoe Idealize.ShloMosaic.ValueIdx Idealize.SL.Sem
open Idealize.ShloMosaic.Pipeline (Dat)

variable (A : Args)

/-! ## The two arrays the region leaves, as functions of the real data -/

/-- The log-probability of every token row, as a column. -/
def colLogp : S16384x1.Idx → EReal := fun i => ((A.logpAt (rowB (i 0)) (rowS (i 0)) : ℝ) : EReal)

/-- Row `n` of the padded probability table: 126 zero columns, then the token's 2050 probabilities. -/
def padProb (n : Fin 16384) (j : Fin 2176) : ℝ :=
  if h : j.val < 126 then 0 else A.probAt (rowB n) (rowS n) (⟨j.val - 126, by have := j.isLt; omega⟩ : Fin 2050)

/-- The padded probability table. -/
def tabProb : S16384x2176.Idx → EReal := fun i => ((padProb A (i 0) (i 1) : ℝ) : EReal)

theorem hz : (![0, 0] : Fin 2 → Nat) = fun _ => 0 := funext fun a => by fin_cases a <;> rfl

/-- The printed index maps of the two output windows, decided over the grid: block `(t, 0)`. -/
theorem out_idx : ∀ t : Fin cfg0.N, win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- The grid point whose tile holds token row `n`. -/
def pointOf (n : Nat) (hn : n < 16384) : Fin cfg0.N := ⟨n / 256, by have h : cfg0.N = 64 := N_0; omega⟩

theorem pointOf_val (n : Nat) (hn : n < 16384) : (pointOf n hn).val = n / 256 := rfl

variable (m : (ℓ : Loc nD τ sig) → Buf (Elt Ideal) ℓ) (c : Dev nD) (hA : IsArgs m c A)

/-! ## What point `t` writes back -/

include hA in
/-- The first output: block `t` of the log-probability column. -/
theorem flushed5_eq (t : Fin cfg0.N) :
    (dats m 0 c).flushed 5 t = ((cfg0.win 5).blk t).view.read (Elt Ideal) (colLogp A) := by
  show (cfg0.win 5).cut (grid0.coords t) ((dats m 0 c).after 5 t) = _
  rw [after_5]
  unfold outLogp
  rw [View.canon_unit_zero hz]
  simp only [View.ld_unit_zero (S := S256x2048) hz, View.ld_unit_zero (S := S256x1) hz,
    View.ld_unit_zero (S := S2048x2176) hz, View.ld_unit_zero (S := S1x2176) hz]
  rw [blk0_eq A m c hA t, blk1_eq A m c hA t, blk2_eq A m c hA t, blk3_eq A m c hA t, blk4_eq A m c hA t]
  funext j
  obtain ⟨p, q, rfl⟩ : ∃ (p : Fin 256) (q : Fin 1), j = ix2 p q := ⟨j 0, j 1, eq_ix2 j⟩
  obtain rfl : q = 0 := Subsingleton.elim _ _
  show logpTile (F := Ideal) _ _ _ _ _ (ix2 p (0 : Fin 1)) = colLogp A (((cfg0.win 5).blk t).view.emb (ix2 p (0 : Fin 1)))
  rw [logpTile_apply]
  obtain ⟨e0, e1, -, -⟩ := out_idx t
  have he : ((cfg0.win 5).blk t).view.emb (ix2 p (0 : Fin 1)) = ix2 (tokenRow t p) (0 : Fin 1) := by
    funext a; apply Fin.ext
    match a with
    | ⟨0, _⟩ => show win0_5.index t (0 : Fin 2) * 256 + 1 * p.val = 256 * t.val + p.val; omega
    | ⟨1, _⟩ => show win0_5.index t (1 : Fin 2) * 1 + 1 * 0 = 0; omega
  rw [he]
  have hU : tileU (xrT A t) (wrT A) (brT A) p = headLogit A.X A.Wh A.bh (rowB (tokenRow t p)) (rowS (tokenRow t p)) :=
    funext (tileU_eq A t p)
  have hR : tileR (xrT A t) (wrT A) (brT A) p = headLogit A.X A.Wr A.br (rowB (tokenRow t p)) (rowS (tokenRow t p)) :=
    funext (tileR_eq A t p)
  rw [tileE_eq, hU, hR]
  rfl

/-- An index of the column is in point `t`'s block iff each coordinate is in the block's range on its axis. -/
theorem mem_blk5 (t : Fin cfg0.N) (i : S16384x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v15_0).slice (win0_5.rect t)).set ↔ _
  rw [View.set_slice_whole, Rect.mem_set_unit]
  exact Iff.rfl

/-- Every token row is in the block of the point that handles it. -/
theorem cover5 (i : S16384x1.Idx) : ∃ t : Fin cfg0.N, (cfg0.win 5).flush t = true ∧ i ∈ ((cfg0.win 5).blk t).view.set := by
  have hi0 : (i 0).val < 16384 := (i 0).isLt
  have hi1 : (i 1).val < 1 := (i 1).isLt
  refine ⟨pointOf (i 0).val hi0, flush0_5 _, ?_⟩
  rw [mem_blk5]
  obtain ⟨e0, e1, -, -⟩ := out_idx (pointOf (i 0).val hi0)
  rw [pointOf_val] at e0
  intro a
  match a with
  | ⟨0, _⟩ =>
    show win0_5.index (pointOf (i 0).val hi0) (0 : Fin 2) * 256 ≤ (i 0).val ∧ (i 0).val < win0_5.index (pointOf (i 0).val hi0) (0 : Fin 2) * 256 + 256
    omega
  | ⟨1, _⟩ =>
    show win0_5.index (pointOf (i 0).val hi0) (1 : Fin 2) * 1 ≤ (i 1).val ∧ (i 1).val < win0_5.index (pointOf (i 0).val hi0) (1 : Fin 2) * 1 + 1
    omega

include hA in
/-- THE FIRST OUTPUT ARRAY after the region: the log-probability column. -/
theorem final5 : (dats m 0 c).arrAt 5 cfg0.N = colLogp A :=
  (dats m 0 c).arrAt_eq_of_cover 5 (colLogp A) (fun t _ => flushed5_eq A m c hA t) cover5

/-! ## The padded table at the three bands -/

theorem padProb_zero (n : Fin 16384) (q : Fin 2176) (hq : q.val < 126) : padProb A n q = 0 := by
  unfold padProb; rw [dif_pos hq]

theorem padProb_end (n : Fin 16384) (q : Fin 2176) (hq : 126 ≤ q.val) (hq' : q.val < 128) :
    padProb A n q = Cert.Heads.sig (endLogit A.X A.We A.be (rowB n) (rowS n)) * ind (A.pY (ix2 (rowB n) (rowS n)) = 0#32) := by
  unfold padProb
  rw [dif_neg (by omega)]
  unfold Args.probAt prob
  dsimp only
  rw [if_pos (by omega)]

theorem padProb_hcw (n : Fin 16384) (k : Fin 1024) :
    padProb A n (⟨128 + k.val, by omega⟩ : Fin 2176)
      = smax (headLogit A.X A.Wh A.bh (rowB n) (rowS n)) k * (1 - Cert.Heads.sig (endLogit A.X A.We A.be (rowB n) (rowS n)))
          * ind (A.pY (ix2 (rowB n) (rowS n)) = 1#32) := by
  have hk := k.isLt
  unfold padProb
  dsimp only
  rw [dif_neg (by omega)]
  unfold Args.probAt prob
  dsimp only
  rw [if_neg (by omega), dif_pos (by omega)]
  simp only [show ∀ h, (⟨128 + k.val - 126 - 2, h⟩ : Fin 1024) = k from fun h => Fin.ext (by show 128 + k.val - 126 - 2 = k.val; omega)]

theorem padProb_roo (n : Fin 16384) (k : Fin 1024) :
    padProb A n (⟨1152 + k.val, by omega⟩ : Fin 2176)
      = smax (headLogit A.X A.Wr A.br (rowB n) (rowS n)) k * (1 - Cert.Heads.sig (endLogit A.X A.We A.be (rowB n) (rowS n)))
          * ind (A.pY (ix2 (rowB n) (rowS n)) = 2#32) := by
  have hk := k.isLt
  unfold padProb
  dsimp only
  rw [dif_neg (by omega)]
  unfold Args.probAt prob
  dsimp only
  rw [if_neg (by omega), dif_neg (by omega)]
  simp only [show ∀ h, (⟨1152 + k.val - 126 - 1026, h⟩ : Fin 1024) = k from fun h => Fin.ext (by show 1152 + k.val - 126 - 1026 = k.val; omega)]

include hA in
/-- The second output: block `t` of the padded probability table. -/
theorem flushed6_eq (t : Fin cfg0.N) :
    (dats m 0 c).flushed 6 t = ((cfg0.win 6).blk t).view.read (Elt Ideal) (tabProb A) := by
  show (cfg0.win 6).cut (grid0.coords t) ((dats m 0 c).after 6 t) = _
  rw [after_6]
  unfold outProb
  simp only [View.ld_unit_zero (S := S256x2048) hz, View.ld_unit_zero (S := S256x1) hz,
    View.ld_unit_zero (S := S2048x2176) hz, View.ld_unit_zero (S := S1x2176) hz]
  rw [blk0_eq A m c hA t, blk1_eq A m c hA t, blk3_eq A m c hA t, blk4_eq A m c hA t]
  obtain ⟨-, -, e0, e1⟩ := out_idx t
  have hU : ∀ p, tileU (xrT A t) (wrT A) (brT A) p = headLogit A.X A.Wh A.bh (rowB (tokenRow t p)) (rowS (tokenRow t p)) :=
    fun p => funext (tileU_eq A t p)
  have hR : ∀ p, tileR (xrT A t) (wrT A) (brT A) p = headLogit A.X A.Wr A.br (rowB (tokenRow t p)) (rowS (tokenRow t p)) :=
    fun p => funext (tileR_eq A t p)
  funext j
  refine View.canon_apply_of_pieces (Val := Elt Ideal) (S := S256x2176) (e := .f32) (fun y => (tabProb A (((cfg0.win 6).blk t).view.emb y) : EReal)) _ ?_ j (cover_prob _ _ _ j)
  intro pc hpc
  simp only [List.mem_cons, List.mem_nil_iff, or_false] at hpc
  rcases hpc with rfl | rfl | rfl
  · intro x
    obtain ⟨p, k, rfl⟩ : ∃ (p : Fin 256) (k : Fin 1024), x = ix2 p k := ⟨x 0, x 1, eq_ix2 x⟩
    show rooTile (F := Ideal) _ _ _ _ (ix2 p k) = tabProb A (((cfg0.win 6).blk t).view.emb (rP2.emb (ix2 p k)))
    rw [rooTile_apply]
    have he : ((cfg0.win 6).blk t).view.emb (rP2.emb (ix2 p k)) = ix2 (tokenRow t p) (⟨1152 + k.val, by omega⟩ : Fin 2176) := by
      funext a; apply Fin.ext
      match a with
      | ⟨0, _⟩ => show win0_6.index t (0 : Fin 2) * 256 + 1 * (0 + 1 * p.val) = 256 * t.val + p.val; omega
      | ⟨1, _⟩ => show win0_6.index t (1 : Fin 2) * 2176 + 1 * (1152 + 1 * k.val) = 1152 + k.val; omega
    rw [he]
    show _ = ((padProb A (tokenRow t p) (⟨1152 + k.val, by omega⟩ : Fin 2176) : ℝ) : EReal)
    rw [padProb_roo, tileE_eq, hR]
    rfl
  · intro x
    obtain ⟨p, k, rfl⟩ : ∃ (p : Fin 256) (k : Fin 1024), x = ix2 p k := ⟨x 0, x 1, eq_ix2 x⟩
    show hcwTile (F := Ideal) _ _ _ _ (ix2 p k) = tabProb A (((cfg0.win 6).blk t).view.emb (rP1.emb (ix2 p k)))
    rw [hcwTile_apply]
    have he : ((cfg0.win 6).blk t).view.emb (rP1.emb (ix2 p k)) = ix2 (tokenRow t p) (⟨128 + k.val, by omega⟩ : Fin 2176) := by
      funext a; apply Fin.ext
      match a with
      | ⟨0, _⟩ => show win0_6.index t (0 : Fin 2) * 256 + 1 * (0 + 1 * p.val) = 256 * t.val + p.val; omega
      | ⟨1, _⟩ => show win0_6.index t (1 : Fin 2) * 2176 + 1 * (128 + 1 * k.val) = 128 + k.val; omega
    rw [he]
    show _ = ((padProb A (tokenRow t p) (⟨128 + k.val, by omega⟩ : Fin 2176) : ℝ) : EReal)
    rw [padProb_hcw, tileE_eq, hU]
    rfl
  · intro x
    obtain ⟨p, q, rfl⟩ : ∃ (p : Fin 256) (q : Fin 128), x = ix2 p q := ⟨x 0, x 1, eq_ix2 x⟩
    show endTile (F := Ideal) _ _ _ _ (ix2 p q) = tabProb A (((cfg0.win 6).blk t).view.emb (rP0.emb (ix2 p q)))
    rw [endTile_apply]
    have he : ((cfg0.win 6).blk t).view.emb (rP0.emb (ix2 p q)) = ix2 (tokenRow t p) (⟨q.val, by omega⟩ : Fin 2176) := by
      funext a; apply Fin.ext
      match a with
      | ⟨0, _⟩ => show win0_6.index t (0 : Fin 2) * 256 + 1 * (0 + 1 * p.val) = 256 * t.val + p.val; omega
      | ⟨1, _⟩ => show win0_6.index t (1 : Fin 2) * 2176 + 1 * (0 + 1 * q.val) = q.val; omega
    rw [he]
    show _ = ((padProb A (tokenRow t p) (⟨q.val, by omega⟩ : Fin 2176) : ℝ) : EReal)
    by_cases hq : q.val < 126
    · rw [if_pos hq, padProb_zero A _ _ hq]
    · rw [if_neg hq, padProb_end A _ _ (by show 126 ≤ q.val; omega) (by show q.val < 128; exact q.isLt), tileE_eq]
      rfl

/-- An index of the table is in point `t`'s block iff each coordinate is in the block's range on its axis. -/
theorem mem_blk6 (t : Fin cfg0.N) (i : S16384x2176.Idx) :
    i ∈ ((cfg0.win 6).blk t).view.set ↔ ∀ a : Fin 2, win0_6.index t a * S256x2176.size a ≤ (i a).val ∧ (i a).val < win0_6.index t a * S256x2176.size a + S256x2176.size a := by
  show i ∈ ((View.whole main_v15_1).slice (win0_6.rect t)).set ↔ _
  rw [View.set_slice_whole, Rect.mem_set_unit]
  exact Iff.rfl

/-- Every row of the table is in the block of the point that handles it. -/
theorem cover6 (i : S16384x2176.Idx) : ∃ t : Fin cfg0.N, (cfg0.win 6).flush t = true ∧ i ∈ ((cfg0.win 6).blk t).view.set := by
  have hi0 : (i 0).val < 16384 := (i 0).isLt
  have hi1 : (i 1).val < 2176 := (i 1).isLt
  refine ⟨pointOf (i 0).val hi0, flush0_6 _, ?_⟩
  rw [mem_blk6]
  obtain ⟨-, -, e0, e1⟩ := out_idx (pointOf (i 0).val hi0)
  rw [pointOf_val] at e0
  intro a
  match a with
  | ⟨0, _⟩ =>
    show win0_6.index (pointOf (i 0).val hi0) (0 : Fin 2) * 256 ≤ (i 0).val ∧ (i 0).val < win0_6.index (pointOf (i 0).val hi0) (0 : Fin 2) * 256 + 256
    omega
  | ⟨1, _⟩ =>
    show win0_6.index (pointOf (i 0).val hi0) (1 : Fin 2) * 2176 ≤ (i 1).val ∧ (i 1).val < win0_6.index (pointOf (i 0).val hi0) (1 : Fin 2) * 2176 + 2176
    omega

include hA in
/-- THE SECOND OUTPUT ARRAY after the region: the padded probability table. -/
theorem final6 : (dats m 0 c).arrAt 6 cfg0.N = tabProb A :=
  (dats m 0 c).arrAt_eq_of_cover 6 (tabProb A) (fun t _ => flushed6_eq A m c hA t) cover6

end Cert.KernelIdeal.Heads

end
-- ==== Proof.KI.Value.lean ====
/-
  The kernel's two results on real data.

  After the region the first output array is the log-probability column over the 16384 token rows and the second is
  the padded probability table (126 zero columns, then each token's 2050 probabilities). The lines after the region
  fold the column to [32, 512], cut columns [126, 2176) out of the table and fold the rows to [32, 512]: token
  (b, s) is row 512 b + s, and column j of the cut is column 126 + j of the table. So the results are the
  specification's log-probabilities and probability table, and the nine argument arrays end as launched.
-/
import proofs.«410987_j75797582839976_2_alg».proof.Proof.KI.Blocks
import Idealize.ShloMosaic.Lib.Pipeline.Value
import Idealize.ShloMosaic.Lib.StableHlo.Run

set_option maxRecDepth 16384

noncomputable section

namespace Cert.KernelIdeal.Heads

open Cert.KernelIdeal Cert.KernelIdeal.Gen Cert.Heads
open Idealize.ShloMosaic Idealize.ShloMosaic.TcCoe Idealize.ShloMosaic.ValueIdx Idealize.SL.Sem
open Idealize.ShloMosaic.Pipeline (Dat)

/-! ## Token rows -/

/-- Token `(b, s)` is token row `512 b + s`. -/
def tok (b : Fin 32) (s : Fin 512) : Fin 16384 := ⟨512 * b.val + s.val, by omega⟩
/-- Its batch entry is `b`, -/
theorem rowB_tok (b : Fin 32) (s : Fin 512) : rowB (tok b s) = b :=
  Fin.ext (by show (512 * b.val + s.val) / 512 = b.val; omega)
/-- and its position is `s`. -/
theorem rowS_tok (b : Fin 32) (s : Fin 512) : rowS (tok b s) = s :=
  Fin.ext (by show (512 * b.val + s.val) % 512 = s.val; omega)

variable (A : Args) (m : (ℓ : Loc nD τ sig) → Buf (Elt Ideal) ℓ) (c : Dev nD) (hA : IsArgs m c A)

/-! ## The two results after the later lines -/

include hA in
/-- The first result is the log-probability column folded to [32, 512]: entry `(b, s)` is row `512 b + s` of the
    column, the log-probability of token `(b, s)`. -/
theorem tail_logp :
    (Pipeline.afterTail₀ cfgs (dats m) 0 (V0 m) [hostOps1] c main_v16 : S32x512.Idx → EReal) = A.outLogp := by
  unfold Pipeline.afterTail₀
  show StableHlo.after hostOps1 _ (Proc.devRef .tc main_v16) = _
  open StableHlo in after_results
  have hw : Pipeline.withArrays (cfgs 0).spec c (V0 m c) (fun w => (dats m 0 c).arrAt w (cfgs 0).N) (Proc.devRef .tc main_v15_0)
      = colLogp A := (Pipeline.withArrays_arr spec0 launch0.win.arr_inj c _ _ 5).trans (final5 A m c hA)
  rw [hw]
  funext i
  obtain ⟨b, s, rfl⟩ : ∃ (b : Fin 32) (s : Fin 512), i = ix2 b s := ⟨i 0, i 1, eq_ix2 i⟩
  show shapeCast S32x512 (colLogp A) shapeCasts_S16384x1_S32x512 (ix2 b s) = _
  refine (shapeCast_apply (colLogp A) shapeCasts_S16384x1_S32x512 (ix2 b s) (ix2 (tok b s) (0 : Fin 1)) ?_).trans ?_
  · rw [Shape.rowMajor_val_two, Shape.rowMajor_val_two]
    show (512 * b.val + s.val) * 1 + 0 = b.val * 512 + s.val
    omega
  · show ((A.logpAt (rowB (tok b s)) (rowS (tok b s)) : ℝ) : EReal) = ((A.logpAt b s : ℝ) : EReal)
    rw [rowB_tok, rowS_tok]

include hA in
/-- The second result is columns [126, 2176) of the padded table, its rows folded to [32, 512]: entry `(b, s, j)` is
    column `126 + j` of row `512 b + s`, probability `j` of token `(b, s)`. -/
theorem tail_prob :
    (Pipeline.afterTail₀ cfgs (dats m) 0 (V0 m) [hostOps1] c main_v18 : S32x512x2050.Idx → EReal) = A.outProb := by
  unfold Pipeline.afterTail₀
  show StableHlo.after hostOps1 _ (Proc.devRef .tc main_v18) = _
  open StableHlo in after_results
  have hw : Pipeline.withArrays (cfgs 0).spec c (V0 m c) (fun w => (dats m 0 c).arrAt w (cfgs 0).N) (Proc.devRef .tc main_v15_1)
      = tabProb A := (Pipeline.withArrays_arr spec0 launch0.win.arr_inj c _ _ 6).trans (final6 A m c hA)
  rw [hw]
  funext i
  obtain ⟨b, s, j, rfl⟩ : ∃ (b : Fin 32) (s : Fin 512) (j : Fin 2050), i = ix3 b s j := ⟨i 0, i 1, i 2, eq_ix3 i⟩
  show shapeCast S32x512x2050 (extractStridedSlice S16384x2050 ![0, 126] (tabProb A) slices_S16384x2176_S16384x2050_0_126)
      shapeCasts_S16384x2050_S32x512x2050 (ix3 b s j) = _
  refine (shapeCast_apply _ shapeCasts_S16384x2050_S32x512x2050 (ix3 b s j) (ix2 (tok b s) j) ?_).trans ?_
  · rw [Shape.rowMajor_val_two, Shape.rowMajor_val_three]
    show (512 * b.val + s.val) * 2050 + j.val = (b.val * 512 + s.val) * 2050 + j.val
    omega
  refine (extractStridedSlice_apply ![0, 126] (tabProb A) slices_S16384x2176_S16384x2050_0_126 (ix2 (tok b s) j)
    (ix2 (tok b s) (⟨126 + j.val, by omega⟩ : Fin 2176)) ?_).trans ?_
  · intro a
    match a with
    | ⟨0, _⟩ => show 512 * b.val + s.val = 0 + (512 * b.val + s.val); omega
    | ⟨1, _⟩ => rfl
  · show ((padProb A (tok b s) (⟨126 + j.val, by omega⟩ : Fin 2176) : ℝ) : EReal) = ((A.probAt b s j : ℝ) : EReal)
    have hj : ∀ h, (⟨126 + j.val - 126, h⟩ : Fin 2050) = j := fun h => Fin.ext (by show 126 + j.val - 126 = j.val; omega)
    unfold padProb
    dsimp only
    rw [dif_neg (by omega), rowB_tok, rowS_tok, hj]

/-! ## The run -/

/-- From a memory whose argument arrays are real data, every run of @main ends with the two results at the
    specification's values of those data and the nine argument arrays as launched. The results and the arguments are
    all buffers the region passes by: each ends at what the later lines leave in it. -/
theorem run_value (m : (ℓ : Loc nD τ sig) → Buf (Elt Ideal) ℓ) (ρ : Dev nD → PrngReg) (A : Dev nD → Cert.Heads.Args)
    (hA : ∀ c, IsArgs m c (A c)) :
    θ_run (defs (F := Ideal)) (onTc (τ := τ) (main (F := Ideal))) ⟨m, fun _ => 0, ρ⟩ (fun r => ∀ c : Dev nD,
      (r.2.mem ((c.tc : Thread nD τ).loc main_v16) : S32x512.Idx → EReal) = (A c).outLogp
      ∧ (r.2.mem ((c.tc : Thread nD τ).loc main_v18) : S32x512x2050.Idx → EReal) = (A c).outProb
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v16 (Pipeline.mem_restRefs_of main_v16 (by decide) (by decide))).trans (tail_logp (A c) m c (hA c)),
      ((h c).2 main_v18 (Pipeline.mem_restRefs_of main_v18 (by decide) (by decide))).trans (tail_prob (A c) m c (hA c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Heads

end
-- ==== Proof.KI.Finite.lean ====
/-
  The precondition gives real data: if every float argument array has all its entries of absolute value below
  +∞, then each is the coercion of a real-valued array, so the launch memory's arguments are some `Args`.
-/
import proofs.«410987_j75797582839976_2_alg».proof.Defs
import proofs.«410987_j75797582839976_2_alg».proof.Proof.Gen.Pre_finite_inputs
import proofs.«410987_j75797582839976_2_alg».proof.Proof.KI.Real
import Idealize.ShloMosaic.Lib.ReduceAll
import Idealize.ShloMosaic.Lib.IdealHost
import Idealize.ShloMosaic.Lib.Affine
import Idealize.ShloMosaic.PureOps.Ideal.Laws

noncomputable section

namespace Cert.KernelIdeal.Heads

open Idealize.ShloMosaic Idealize.ShloMosaic.TcCoe Idealize.ShloMosaic.ValueIdx Idealize.SL.Sem

/-- The pattern of +∞ denotes the top of the extended reals. -/
theorem ofBits_inf : Ideal.ofBits .f32 0x7F800000#32 = (⊤ : EReal) := by
  simp [Ideal.ofBits, Ideal.ieee]

/-- An extended real whose absolute value is below +∞ is a real. -/
theorem real_of_abs_lt_top (x : EReal) (h : Ideal.cmp .olt (max x (-x)) (⊤ : EReal) = 1#1) : ∃ r : ℝ, x = ((r : ℝ) : EReal) := by
  have hlt : max x (-x) < ⊤ := by
    unfold Ideal.cmp at h
    by_contra hn
    simp [hn] at h
  induction x using EReal.rec with
  | bot => exact absurd hlt (by simp)
  | coe r => exact ⟨r, rfl⟩
  | top => exact absurd hlt (by simp)

instance : Subsingleton (Cert.Pre_finite_inputs.S_).Idx := ⟨fun a b => funext fun d => d.elim0⟩

/-- An array all of whose entries pass the printed finiteness test is real-valued. -/
theorem real_of_all_finite {S : Shape} {axes : List (Fin S.rank)} (X : FVec Ideal S .f32)
    (hb : (Cert.Pre_finite_inputs.S_).BroadcastsInDim S (![] : Fin 0 → Fin S.rank))
    (hr : S.ReducesTo axes Cert.Pre_finite_inputs.S_) (hS : 0 < (Cert.Pre_finite_inputs.S_).numel)
    (init : (Cert.Pre_finite_inputs.S_).Idx → BitVec 1)
    (h : Host.reduce IntOp.andi (cmpf (F := Ideal) .olt (Host.absf X)
        (broadcastInDim S ![] hb (constant (F := Ideal) Cert.Pre_finite_inputs.S_ .f32 0x7F800000#32))) init hr hS ix0 = 1#1) :
    ∃ Xr : S.Idx → ℝ, (X : S.Idx → EReal) = fun i => ((Xr i : ℝ) : EReal) := by
  have hall := Host.reduce_andi_all _ init hr hS ix0 h
  have hx : ∀ i, ∃ r : ℝ, X i = ((r : ℝ) : EReal) := by
    intro i
    have hi := hall i
    apply real_of_abs_lt_top
    rw [← ofBits_inf]
    exact hi
  choose Xr hXr using hx
  exact ⟨Xr, funext hXr⟩

open Cert.KernelIdeal in
/-- Under the precondition the argument arrays of core `c` are real data. -/
theorem args_of_pre [hP : Cert.Pre_finite_inputs.Facts] (m : (ℓ : Loc nD τ sig) → Buf (Elt Ideal) ℓ)
    (h : Cert.Pre_KernelIdeal m) (c : Dev nD) : ∃ A : Cert.Heads.Args, IsArgs m c A := by
  have h0 := congrFun (h c) ix0
  unfold Cert.Pre_finite_inputs.fn Cert.Pre_finite_inputs.fn_part1 at h0
  simp only [andi, IntOp.andi_eq_one] at h0
  obtain ⟨⟨⟨⟨⟨⟨h_0, h_3⟩, h_4⟩, h_5⟩, h_6⟩, h_7⟩, h_8⟩ := h0
  obtain ⟨Xr, hX⟩ := real_of_all_finite _ _ _ _ _ h_0
  obtain ⟨Wer, hWe⟩ := real_of_all_finite _ _ _ _ _ h_3
  obtain ⟨ber, hbe⟩ := real_of_all_finite _ _ _ _ _ h_4
  obtain ⟨Whr, hWh⟩ := real_of_all_finite _ _ _ _ _ h_5
  obtain ⟨bhr, hbh⟩ := real_of_all_finite _ _ _ _ _ h_6
  obtain ⟨Wrr, hWr⟩ := real_of_all_finite _ _ _ _ _ h_7
  obtain ⟨brr, hbr⟩ := real_of_all_finite _ _ _ _ _ h_8
  exact ⟨⟨Xr, m ((c.tc : Thread nD τ).loc main_arg1), m ((c.tc : Thread nD τ).loc main_arg2), Wer, ber, Whr, bhr, Wrr, brr⟩,
    ⟨hX, rfl, rfl, hWe, hbe, hWh, hbh, hWr, hbr⟩⟩

open Cert.KernelIdeal in
/-- Under the precondition the launch memory's arguments are real data on every core. -/
theorem exists_args [hP : Cert.Pre_finite_inputs.Facts] (m : (ℓ : Loc nD τ sig) → Buf (Elt Ideal) ℓ)
    (h : Cert.Pre_KernelIdeal m) : ∃ A : Dev nD → Cert.Heads.Args, ∀ c, IsArgs m c (A c) :=
  ⟨fun c => (args_of_pre m h c).choose, fun c => (args_of_pre m h c).choose_spec⟩

end Cert.KernelIdeal.Heads

end
-- ==== Proof.RefReal.lean ====
/-
  Finite float arguments of the reference are real data: the predicate that the nine argument arrays of a launch
  memory of the reference program, on one core, are the real-valued arrays `A`.
-/
import proofs.«410987_j75797582839976_2_alg».proof.Proof.Gen.ReferenceIdeal
import proofs.«410987_j75797582839976_2_alg».proof.Proof.Spec

noncomputable section

namespace Cert.ReferenceIdeal.Heads

open Cert.ReferenceIdeal Idealize.ShloMosaic Idealize.ShloMosaic.TcCoe Idealize.SL.Sem

/-- On core `c` the argument arrays of `m` are the real data `A`. -/
structure IsArgs (m : (ℓ : Loc nD τ sig) → Buf (Elt Ideal) ℓ) (c : Dev nD) (A : Cert.Heads.Args) : Prop where
  hX : (m ((c.tc : Thread nD τ).loc main_arg0) : S32x512x2048.Idx → EReal) = fun i => ((A.X i : ℝ) : EReal)
  hpY : (m ((c.tc : Thread nD τ).loc main_arg1) : S32x512.Idx → BitVec 32) = A.pY
  hY : (m ((c.tc : Thread nD τ).loc main_arg2) : S32x512.Idx → BitVec 32) = A.Y
  hWe : (m ((c.tc : Thread nD τ).loc main_arg3) : S1x2048.Idx → EReal) = fun i => ((A.We i : ℝ) : EReal)
  hbe : (m ((c.tc : Thread nD τ).loc main_arg4) : S1.Idx → EReal) = fun i => ((A.be i : ℝ) : EReal)
  hWh : (m ((c.tc : Thread nD τ).loc main_arg5) : S1024x2048.Idx → EReal) = fun i => ((A.Wh i : ℝ) : EReal)
  hbh : (m ((c.tc : Thread nD τ).loc main_arg6) : S1024.Idx → EReal) = fun i => ((A.bh i : ℝ) : EReal)
  hWr : (m ((c.tc : Thread nD τ).loc main_arg7) : S1024x2048.Idx → EReal) = fun i => ((A.Wr i : ℝ) : EReal)
  hbr : (m ((c.tc : Thread nD τ).loc main_arg8) : S1024.Idx → EReal) = fun i => ((A.br i : ℝ) : EReal)

end Cert.ReferenceIdeal.Heads

end
-- ==== Proof.Ref.Softmax.lean ====
/-
  Softmax of a table of real logits, as the reference spells it: the row maximum (a reduction by `max` from −∞, then
  a `max` with −∞ again), the exponentials of the logits less that maximum, their row sum, and the quotient. Over a
  table whose entries are reals, each stage is the real one of the specification.
-/
import proofs.«410987_j75797582839976_2_alg».proof.Proof.Gen.ReferenceIdeal
import proofs.«410987_j75797582839976_2_alg».proof.Proof.Analysis
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.Heads

open Cert.ReferenceIdeal Cert.ReferenceIdeal.Gen Idealize.ShloMosaic Idealize.ShloMosaic.ValueIdx

/-- The bit pattern of −∞ is the bottom of the extended reals. -/
theorem ninf_f32 : Ideal.ofBits .f32 0xFF800000#32 = (⊥ : EReal) := by simp [Ideal.ofBits, Ideal.ieee]

/-- The bit pattern of 1.0 is 1. -/
theorem one_f32 : Ideal.ofBits .f32 0x3F800000#32 = (1 : EReal) := by
  simp [Ideal.ofBits, Ideal.ieee, -EReal.coe_mul]; norm_num

/-! ## Folds and sums over an axis whose extent is a computed 1024 -/

/-- A fold by an operation that is `max`, from −∞, over an axis of extent 1024 whose entries are the reals `v`, is the
    largest of them. -/
theorem fold_op_eq_rowMax {m : Nat} (hm : m = 1024) (op : EReal → EReal → EReal) [hc : Std.Commutative op] [ha : Std.Associative op]
    (hop : ∀ x y, op x y = max x y) (b : EReal) (hb : b = ⊥) (f : Fin m → EReal) (v : Fin 1024 → ℝ)
    (hf : ∀ k : Fin m, f k = ((v (Fin.cast hm k) : ℝ) : EReal)) :
    (Finset.univ : Finset (Fin m)).fold op b f = ((Cert.Heads.rowMax v : ℝ) : EReal) := by
  subst hm
  subst hb
  obtain rfl : op = max := funext fun x => funext fun y => hop x y
  exact Cert.Heads.fold_max_of_coe f v hf

/-- A sum over an axis of extent 1024 whose entries are the reals `v` is their sum. -/
theorem sum_eq_coe_sum {m : Nat} (hm : m = 1024) (f : Fin m → EReal) (v : Fin 1024 → ℝ)
    (hf : ∀ k : Fin m, f k = ((v (Fin.cast hm k) : ℝ) : EReal)) :
    ∑ k : Fin m, f k = ((∑ k : Fin 1024, v k : ℝ) : EReal) := by
  subst hm
  rw [← Cert.Heads.coe_sum]
  exact Finset.sum_congr rfl fun k _ => hf k

theorem size_row : S16384x1024.size 1 = 1024 := rfl

/-- A vector over the tokens spread over a row of 1024 columns reads, at `(n, k)`, the vector at `n`. -/
theorem bcast_row {α : Type} (y : S16384.Idx → α) (n : Fin 16384) (k : Fin 1024) :
    broadcastInDim S16384x1024 ![0, 1] bcast_S16384x1_S16384x1024_0_1
      (broadcastInDim S16384x1 ![0] bcast_S16384_S16384x1_0 y) (ix2 n k) = y (ix1 n) := by
  rw [broadcastInDim_apply _ bcast_S16384x1_S16384x1024_0_1 _ (ix2 n k) (ix2 n (0 : Fin 1)) (fun a => match a with
    | ⟨0, _⟩ => by show n.val = if (16384 : Nat) = 1 then 0 else n.val; rw [if_neg (by decide)]
    | ⟨1, _⟩ => by show 0 = if (1 : Nat) = 1 then 0 else k.val; rw [if_pos rfl])]
  exact broadcastInDim_apply _ bcast_S16384_S16384x1_0 y (ix2 n (0 : Fin 1)) (ix1 n) (fun a => match a with
    | ⟨0, _⟩ => by show n.val = if (16384 : Nat) = 1 then 0 else n.val; rw [if_neg (by decide)])

/-- The reduced index `n` with column `k` put back is `(n, k)`. -/
theorem lift_row (h : S16384x1024.Reduces [1] S16384) (n : Fin 16384) (k : Fin (S16384x1024.size 1)) :
    h.lift (ix1 n) k = ix2 n (⟨k.val, k.isLt⟩ : Fin 1024) := by
  funext c; apply Fin.ext
  fin_cases c <;> rfl

theorem reduces_row : S16384x1024.Reduces [1] S16384 := by decide

/-! ## Each stage over a table that is a variable -/

section Stages

variable (z : (⟨S16384x1024, .f32⟩ : BufTy).Contents (Elt Ideal)) (R : (⟨S16384, .f32⟩ : BufTy).Contents (Elt Ideal))

/-- A reduction by `max` from −∞ along the row of a table whose row `n` holds the reals `v`: their largest. -/
theorem reduceMax_row (v : Fin 1024 → ℝ) (n : Fin 16384) (hz : ∀ k, z (ix2 n k) = ((v k : ℝ) : EReal)) :
    Host.reduce (FloatOps.maximumf (F := Ideal) (φ := .f32)) z (constant (F := Ideal) S_ .f32 0xFF800000#32)
      reducesTo_S16384x1024_S16384_d1 h_S_ (ix1 n) = ((Cert.Heads.rowMax v : ℝ) : EReal) := by
  refine (Host.reduce_eq_fold_single _ z _ reducesTo_S16384x1024_S16384_d1 reduces_row h_S_ (ix1 n)).trans ?_
  refine fold_op_eq_rowMax (m := S16384x1024.size 1) size_row (FloatOps.maximumf (F := Ideal) (φ := .f32)) (fun _ _ => rfl)
    (constant (F := Ideal) S_ .f32 0xFF800000#32 (Shape.Idx.first h_S_)) ninf_f32 (z ∘ reduces_row.lift (ix1 n)) v ?_
  intro k
  exact (congrArg z (lift_row reduces_row n k)).trans (hz _)

/-- A float sum from zero along the row of a table whose row `n` holds the reals `v`: their sum. -/
theorem reduceAdd_row (v : Fin 1024 → ℝ) (n : Fin 16384) (hz : ∀ k, z (ix2 n k) = ((v k : ℝ) : EReal)) :
    Host.reduceAdd (F := Ideal) (φ := .f32) z (constant (F := Ideal) S_ .f32 0x00000000#32)
      reducesTo_S16384x1024_S16384_d1 h_S_ (ix1 n) = ((∑ k : Fin 1024, v k : ℝ) : EReal) := by
  refine (hostReduceAdd_apply z _ reducesTo_S16384x1024_S16384_d1 h_S_ (ix1 n)).trans ?_
  refine (Ideal.hostReduceAdd_single reducesTo_S16384x1024_S16384_d1 reduces_row z _ (ix1 n)).trans ?_
  have hs := sum_eq_coe_sum (m := S16384x1024.size 1) size_row (fun k => z (reduces_row.lift (ix1 n) k)) v
    (fun k => (congrArg z (lift_row reduces_row n k)).trans (hz _))
  have h0 : constant (F := Ideal) S_ .f32 0x00000000#32 (Shape.Idx.first h_S_) = (0 : EReal) := Ideal.ofBits_zero_f32
  rw [h0, zero_add]
  exact hs

/-- The `max` with a vector of −∞ changes nothing. -/
theorem max_ninf (i : S16384.Idx) :
    maximumf (F := Ideal) (φ := .f32) (broadcastInDim S16384 ![] bcast_S_S16384 (constant (F := Ideal) S_ .f32 0xFF800000#32)) R i = R i := by
  have h0 : broadcastInDim S16384 ![] bcast_S_S16384 (constant (F := Ideal) S_ .f32 0xFF800000#32) i = (⊥ : EReal) :=
    (broadcastInDim_apply _ bcast_S_S16384 _ i ix0 (fun a => a.elim0)).trans ninf_f32
  show max (broadcastInDim S16384 ![] bcast_S_S16384 (constant (F := Ideal) S_ .f32 0xFF800000#32) i) (R i) = R i
  rw [h0]
  exact bot_sup_eq _

/-- The exponential of a table less a per-token vector spread along the rows, at an entry. -/
theorem exp_sub_row (n : Fin 16384) (k : Fin 1024) :
    Host.exp (F := Ideal) (φ := .f32) (subf (F := Ideal) (φ := .f32) z (broadcastInDim S16384x1024 ![0, 1] bcast_S16384x1_S16384x1024_0_1
      (broadcastInDim S16384x1 ![0] bcast_S16384_S16384x1_0 R))) (ix2 n k) = Ideal.exp (z (ix2 n k) - R (ix1 n)) := by
  show Ideal.exp (z (ix2 n k) - broadcastInDim S16384x1024 ![0, 1] bcast_S16384x1_S16384x1024_0_1
    (broadcastInDim S16384x1 ![0] bcast_S16384_S16384x1_0 R) (ix2 n k)) = _
  rw [bcast_row]

/-- The quotient of a table by a per-token vector spread along the rows, at an entry. -/
theorem div_row (n : Fin 16384) (k : Fin 1024) :
    Host.divf (F := Ideal) (φ := .f32) z (broadcastInDim S16384x1024 ![0, 1] bcast_S16384x1_S16384x1024_0_1
      (broadcastInDim S16384x1 ![0] bcast_S16384_S16384x1_0 R)) (ix2 n k) = Ideal.div (z (ix2 n k)) (R (ix1 n)) := by
  show Ideal.div (z (ix2 n k)) (broadcastInDim S16384x1024 ![0, 1] bcast_S16384x1_S16384x1024_0_1
    (broadcastInDim S16384x1 ![0] bcast_S16384_S16384x1_0 R) (ix2 n k)) = _
  rw [bcast_row]

end Stages

/-! ## The softmax of a table of real logits -/

variable (z : (⟨S16384x1024, .f32⟩ : BufTy).Contents (Elt Ideal))

/-- The row maximum as the reference computes it. -/
def rowMaxOf : (⟨S16384, .f32⟩ : BufTy).Contents (Elt Ideal) :=
  maximumf (F := Ideal) (φ := .f32) (broadcastInDim S16384 ![] bcast_S_S16384 (constant (F := Ideal) S_ .f32 0xFF800000#32))
    (Host.reduce (FloatOps.maximumf (F := Ideal) (φ := .f32)) z (constant (F := Ideal) S_ .f32 0xFF800000#32) reducesTo_S16384x1024_S16384_d1 h_S_)

/-- The exponentials of the logits less their row maximum. -/
def expOf : (⟨S16384x1024, .f32⟩ : BufTy).Contents (Elt Ideal) :=
  Host.exp (F := Ideal) (φ := .f32) (subf (F := Ideal) (φ := .f32) z (broadcastInDim S16384x1024 ![0, 1] bcast_S16384x1_S16384x1024_0_1
    (broadcastInDim S16384x1 ![0] bcast_S16384_S16384x1_0 (rowMaxOf z))))

/-- Their row sums. -/
def sumOf : (⟨S16384, .f32⟩ : BufTy).Contents (Elt Ideal) :=
  Host.reduceAdd (F := Ideal) (φ := .f32) (expOf z) (constant (F := Ideal) S_ .f32 0x00000000#32) reducesTo_S16384x1024_S16384_d1 h_S_

/-- The softmax table. -/
def softmaxOf : (⟨S16384x1024, .f32⟩ : BufTy).Contents (Elt Ideal) :=
  Host.divf (F := Ideal) (φ := .f32) (expOf z) (broadcastInDim S16384x1024 ![0, 1] bcast_S16384x1_S16384x1024_0_1
    (broadcastInDim S16384x1 ![0] bcast_S16384_S16384x1_0 (sumOf z)))

variable {z} {u : Fin 16384 → Fin 1024 → ℝ} (hz : ∀ n k, z (ix2 n k) = ((u n k : ℝ) : EReal))
include hz

theorem rowMaxOf_apply (n : Fin 16384) : rowMaxOf z (ix1 n) = ((Cert.Heads.rowMax (u n) : ℝ) : EReal) :=
  (max_ninf _ (ix1 n)).trans (reduceMax_row z (u n) n (hz n))

theorem expOf_apply (n : Fin 16384) (k : Fin 1024) :
    expOf z (ix2 n k) = ((Real.exp (u n k - Cert.Heads.rowMax (u n)) : ℝ) : EReal) := by
  refine (exp_sub_row z (rowMaxOf z) n k).trans ?_
  rw [hz, rowMaxOf_apply hz, ← EReal.coe_sub, Ideal.exp_coe]

theorem sumOf_apply (n : Fin 16384) : sumOf z (ix1 n) = ((Cert.Heads.rowSum (u n) : ℝ) : EReal) :=
  reduceAdd_row (expOf z) (fun k => Real.exp (u n k - Cert.Heads.rowMax (u n))) n (expOf_apply hz n)

theorem softmaxOf_apply (n : Fin 16384) (k : Fin 1024) :
    softmaxOf z (ix2 n k) = ((Cert.Heads.smax (u n) k : ℝ) : EReal) := by
  refine (div_row (expOf z) (sumOf z) n k).trans ?_
  rw [sumOf_apply hz, expOf_apply hz, Cert.Heads.div_coe_coe _ (Cert.Heads.rowSum_ne_zero (u n))]
  rfl

end Cert.ReferenceIdeal.Heads

end
-- ==== Proof.Ref.Logits.lean ====
/-
  The reference's three matrix products, read at a token: with real arguments the end logit, the 1024 hcw logits and the
  1024 roo logits of token `n = 512·b + s` are the specification's `endLogit` and `headLogit` at `(b, s)`; then the logistic
  function of the end logit and its complement, and the two clipped class words.
-/
import proofs.«410987_j75797582839976_2_alg».proof.Proof.RefRead
import proofs.«410987_j75797582839976_2_alg».proof.Proof.Analysis
import proofs.«410987_j75797582839976_2_alg».proof.Proof.Ref.Softmax

noncomputable section

namespace Cert.ReferenceIdeal.Heads

open Cert.ReferenceIdeal Cert.ReferenceIdeal.Gen Cert.ReferenceIdeal.Read Idealize.ShloMosaic Idealize.ShloMosaic.ValueIdx

/-! ## Tokens -/

/-- The batch row of token `n`. -/
def tokB (n : Fin 16384) : Fin 32 := ⟨n.val / 512, by have := n.isLt; omega⟩
/-- The position of token `n` in its row. -/
def tokS (n : Fin 16384) : Fin 512 := ⟨n.val % 512, by omega⟩
/-- Token `(b, s)`. -/
def tok (b : Fin 32) (s : Fin 512) : Fin 16384 := ⟨b.val * 512 + s.val, by have := b.isLt; have := s.isLt; omega⟩

theorem tokB_tok (b : Fin 32) (s : Fin 512) : tokB (tok b s) = b :=
  Fin.ext (by show (b.val * 512 + s.val) / 512 = b.val; have := s.isLt; omega)
theorem tokS_tok (b : Fin 32) (s : Fin 512) : tokS (tok b s) = s :=
  Fin.ext (by show (b.val * 512 + s.val) % 512 = s.val; have := s.isLt; omega)

/-! ## Real arguments as extended reals -/

abbrev cX (X : Cert.Heads.SX.Idx → ℝ) : (⟨S32x512x2048, .f32⟩ : BufTy).Contents (Elt Ideal) := fun i => ((X i : ℝ) : EReal)
abbrev cWe (W : Cert.Heads.SWe.Idx → ℝ) : (⟨S1x2048, .f32⟩ : BufTy).Contents (Elt Ideal) := fun i => ((W i : ℝ) : EReal)
abbrev cbe (b : Cert.Heads.Sbe.Idx → ℝ) : (⟨S1, .f32⟩ : BufTy).Contents (Elt Ideal) := fun i => ((b i : ℝ) : EReal)
abbrev cW (W : Cert.Heads.SW.Idx → ℝ) : (⟨S1024x2048, .f32⟩ : BufTy).Contents (Elt Ideal) := fun i => ((W i : ℝ) : EReal)
abbrev cb (b : Cert.Heads.Sb.Idx → ℝ) : (⟨S1024, .f32⟩ : BufTy).Contents (Elt Ideal) := fun i => ((b i : ℝ) : EReal)

/-! ## Which argument entries a product reads -/

theorem idx_X10 (n : Fin 16384) (a : Fin 1) (k : Fin 2048) :
    idx_main_v0 (lidx_main_v10 (ix2 n a) k) = ix3 (tokB n) (tokS n) k := by
  funext b; refine Fin.ext ?_
  have hk := k.isLt; have hn := n.isLt
  match b with
  | ⟨0, _⟩ => show (n.val * 2048 + k.val) / 1048576 = n.val / 512; omega
  | ⟨1, _⟩ => show (n.val * 2048 + k.val) / 2048 % 512 = n.val % 512; omega
  | ⟨2, _⟩ => show (n.val * 2048 + k.val) % 2048 = k.val; omega

theorem idx_X24 (n : Fin 16384) (j : Fin 1024) (k : Fin 2048) :
    idx_main_v0 (lidx_main_v24 (ix2 n j) k) = ix3 (tokB n) (tokS n) k := by
  funext b; refine Fin.ext ?_
  have hk := k.isLt; have hn := n.isLt
  match b with
  | ⟨0, _⟩ => show (n.val * 2048 + k.val) / 1048576 = n.val / 512; omega
  | ⟨1, _⟩ => show (n.val * 2048 + k.val) / 2048 % 512 = n.val % 512; omega
  | ⟨2, _⟩ => show (n.val * 2048 + k.val) % 2048 = k.val; omega

theorem idx_X40 (n : Fin 16384) (j : Fin 1024) (k : Fin 2048) :
    idx_main_v0 (lidx_main_v40 (ix2 n j) k) = ix3 (tokB n) (tokS n) k := by
  funext b; refine Fin.ext ?_
  have hk := k.isLt; have hn := n.isLt
  match b with
  | ⟨0, _⟩ => show (n.val * 2048 + k.val) / 1048576 = n.val / 512; omega
  | ⟨1, _⟩ => show (n.val * 2048 + k.val) / 2048 % 512 = n.val % 512; omega
  | ⟨2, _⟩ => show (n.val * 2048 + k.val) % 2048 = k.val; omega

theorem idx_We (n : Fin 16384) (a : Fin 1) (k : Fin 2048) :
    idx_main_v9 (ridx_main_v10 (ix2 n a) k) = ix2 (0 : Fin 1) k := by
  funext b; refine Fin.ext ?_
  match b with
  | ⟨0, _⟩ => show a.val = 0; omega
  | ⟨1, _⟩ => rfl

theorem idx_W24 (n : Fin 16384) (j : Fin 1024) (k : Fin 2048) :
    idx_main_v23 (ridx_main_v24 (ix2 n j) k) = ix2 j k := by
  funext b; refine Fin.ext ?_
  match b with
  | ⟨0, _⟩ => rfl
  | ⟨1, _⟩ => rfl

theorem idx_W40 (n : Fin 16384) (j : Fin 1024) (k : Fin 2048) :
    idx_main_v39 (ridx_main_v40 (ix2 n j) k) = ix2 j k := by
  funext b; refine Fin.ext ?_
  match b with
  | ⟨0, _⟩ => rfl
  | ⟨1, _⟩ => rfl

theorem idx_be (i : S16384x1.Idx) : idx_main_v11 (idx_main_v12 i) = ix1 (0 : Fin 1) := by
  funext b; refine Fin.ext ?_
  match b with
  | ⟨0, _⟩ => rfl

theorem idx_b26 (n : Fin 16384) (j : Fin 1024) : idx_main_v25 (idx_main_v26 (ix2 n j)) = ix1 j := by
  funext b; refine Fin.ext ?_
  match b with
  | ⟨0, _⟩ => rfl

theorem idx_b42 (n : Fin 16384) (j : Fin 1024) : idx_main_v41 (idx_main_v42 (ix2 n j)) = ix1 j := by
  funext b; refine Fin.ext ?_
  match b with
  | ⟨0, _⟩ => rfl

theorem idx_20 (n : Fin 16384) : idx_main_v20 (ix1 n) = ix2 n (0 : Fin 1) := by
  funext b; refine Fin.ext ?_
  match b with
  | ⟨0, _⟩ => exact Nat.div_one _
  | ⟨1, _⟩ => rfl

variable (A : Cert.Heads.Args)

/-! ## The logits -/

theorem endLogit_val (n : Fin 16384) (a : Fin 1) :
    val_main_v13 (F := Ideal) (cX A.X) (cWe A.We) (cbe A.be) (ix2 n a)
      = ((Cert.Heads.endLogit A.X A.We A.be (tokB n) (tokS n) : ℝ) : EReal) := by
  rw [val_main_v13_apply, val_main_v10_apply, val_main_v12_apply, val_main_v11_apply, idx_be]
  simp only [val_main_v0_apply, val_main_v9_apply, idx_X10, idx_We]
  unfold Cert.Heads.endLogit
  rw [EReal.coe_add, ← Cert.Heads.coe_sum]
  simp only [EReal.coe_mul, Ideal.addf_def]

theorem hcwLogit_val (n : Fin 16384) (j : Fin 1024) :
    val_main_v27 (F := Ideal) (cX A.X) (cW A.Wh) (cb A.bh) (ix2 n j)
      = ((Cert.Heads.headLogit A.X A.Wh A.bh (tokB n) (tokS n) j : ℝ) : EReal) := by
  rw [val_main_v27_apply, val_main_v24_apply, val_main_v26_apply, val_main_v25_apply, idx_b26]
  simp only [val_main_v0_apply, val_main_v23_apply, idx_X24, idx_W24]
  unfold Cert.Heads.headLogit
  rw [EReal.coe_add, ← Cert.Heads.coe_sum]
  simp only [EReal.coe_mul, Ideal.addf_def]

theorem rooLogit_val (n : Fin 16384) (j : Fin 1024) :
    val_main_v43 (F := Ideal) (cX A.X) (cW A.Wr) (cb A.br) (ix2 n j)
      = ((Cert.Heads.headLogit A.X A.Wr A.br (tokB n) (tokS n) j : ℝ) : EReal) := by
  rw [val_main_v43_apply, val_main_v40_apply, val_main_v42_apply, val_main_v41_apply, idx_b42]
  simp only [val_main_v0_apply, val_main_v39_apply, idx_X40, idx_W40]
  unfold Cert.Heads.headLogit
  rw [EReal.coe_add, ← Cert.Heads.coe_sum]
  simp only [EReal.coe_mul, Ideal.addf_def]

end Cert.ReferenceIdeal.Heads

end
-- ==== Proof.LibMaskedSelect.lean ====
/-
  General lemmas for a row-wise selection written as a masked sum, none of them about a particular program.

  * `broadcastTo_a1_ab_apply`: a column [a, 1] broadcast to [a, b] reads, at (p, c), the column's entry p — the
    keepdims form a per-row weight is spread over a row in.
  * `Host.reduce_andi_of_all`: a reduce by `and` from an initial 1 over an array of 1s is 1 (the converse of
    Lib/ReduceAll.lean's `Host.reduce_andi_eq_one`): how an in-range test that is true everywhere reads after `jnp.all`
    along an axis.
  * `toNat_lt_of_sge_slt`: a 32-bit word that compares signed ≥ 0 and signed < n (n below 2³¹) has unsigned value below n:
    what the two comparisons of an index-range precondition say of the word.
  * `eq_ofNat_of_toNat_lt`: such a word is the word of an index below n.
-/
import Idealize.ShloMosaic.Lib.ReduceAll
import Idealize.ShloMosaic.Lib.ValueIdx
import Idealize.ShloMosaic.Lib.Pipeline.Value
import Idealize.ShloMosaic.Lib.StableHlo.Predicate

namespace Idealize.ShloMosaic.MaskedSelect

open Idealize.ShloMosaic Idealize.ShloMosaic.ValueIdx

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, hl => by
    refine foldl_andi_of_all f l _ ?_ (fun n hn => hl n (List.mem_cons_of_mem _ hn))
    show IntOp.andi init (f a) = 1#1
    rw [hi, hl a (List.mem_cons_self ..)]
    decide

/-- A `stablehlo.reduce` by `and` whose initial value is 1 and whose operand is 1 everywhere is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl]
  exact foldl_andi_of_all x _ _ hinit (fun i _ => hx i)

/-- A word that is signed ≥ 0 and signed < n, for n below 2³¹, is below n read unsigned. -/
theorem toNat_lt_of_sge_slt (v : BitVec 32) (n : ℕ) (hn : n < 2 ^ 31) (h0 : IntOp.cmpi .sge v 0#32 = 1#1)
    (h1 : IntOp.cmpi .slt v (BitVec.ofNat 32 n) = 1#1) : v.toNat < n := by
  simp only [IntOp.cmpi, StableHlo.Predicate.ofBool_eq_one_iff, BitVec.sle, BitVec.slt, decide_eq_true_eq] at h0 h1
  rw [StableHlo.Predicate.toInt_ofNat_small n hn] at h1
  have hz : (0#32 : BitVec 32).toInt = 0 := by decide
  rw [hz] at h0
  rw [BitVec.toInt_eq_toNat_cond] at h0 h1
  split at h0 <;> omega

/-- A word whose unsigned value is below n is the word of some index below n. -/
theorem eq_ofNat_of_toNat_lt (v : BitVec 32) (n : ℕ) (h : v.toNat < n) : ∃ e : Fin n, v = BitVec.ofNat 32 e.val :=
  ⟨⟨v.toNat, h⟩, BitVec.eq_of_toNat_eq (by rw [BitVec.toNat_ofNat]; exact (Nat.mod_eq_of_lt v.isLt).symm)⟩

end Idealize.ShloMosaic.MaskedSelect
-- ==== Proof.Ref.Gather.lean ====
/-
  Reading a table of per-token rows at a per-token class word, as `take_along_axis` spells it: a negative word is moved up
  by the row length, the word is tested against the row's range, the gather reads the row at the word clamped into the range,
  and where the test fails a filler stands in. For a word already in the range nothing of this is seen: the result is the
  table's entry at the word.
-/
import proofs.«410987_j75797582839976_2_alg».proof.Proof.Gen.ReferenceIdeal
import proofs.«410987_j75797582839976_2_alg».proof.Proof.LibMaskedSelect
import Idealize.ShloMosaic.Lib.Pipeline.Value
import Idealize.ShloMosaic.Lib.ValueIdx

noncomputable section

namespace Cert.ReferenceIdeal.Heads

open Cert.ReferenceIdeal Cert.ReferenceIdeal.Gen Idealize.ShloMosaic Idealize.ShloMosaic.ValueIdx

/-! ## Words in the range -/

theorem slt_zero_of_nonneg (x : BitVec 32) (h : 0 ≤ x.toInt) : IntOp.cmpi .slt x 0#32 = 0#1 := by
  have hz : (0#32 : BitVec 32).toInt = 0 := by decide
  unfold IntOp.cmpi
  have : x.slt 0#32 = false := by
    simp only [BitVec.slt, hz, decide_eq_false_iff_not, not_lt]; exact h
  simp only [this]; rfl

theorem sge_zero_of_nonneg (x : BitVec 32) (h : 0 ≤ x.toInt) : IntOp.cmpi .sge x 0#32 = 1#1 := by
  have hz : (0#32 : BitVec 32).toInt = 0 := by decide
  unfold IntOp.cmpi
  have : (0#32 : BitVec 32).sle x = true := by
    simp only [BitVec.sle, hz, decide_eq_true_eq]; exact h
  simp only [this]; rfl

theorem sle_1023_of_le (x : BitVec 32) (h : x.toInt ≤ 1023) : IntOp.cmpi .sle x 1023#32 = 1#1 := by
  have hz : (1023#32 : BitVec 32).toInt = 1023 := by decide
  unfold IntOp.cmpi
  have : x.sle 1023#32 = true := by
    simp only [BitVec.sle, hz, decide_eq_true_eq]; exact h
  simp only [this]; rfl

/-- A word in `[0, 1023]` read signed, clamped into `[0, 1023]`, is the word read unsigned. -/
theorem clamp_of_range (x : BitVec 32) (h0 : 0 ≤ x.toInt) (h1 : x.toInt ≤ 1023) : min x.toInt.toNat 1023 = x.toNat := by
  have := BitVec.toInt_eq_toNat_cond x
  have hlt := x.isLt
  split_ifs at this <;> omega

/-! ## Layout readings -/

/-- A vector over the tokens as a one-column table reads, at `(n, 0)`, the vector at `n`. -/
theorem bcast_col1 {α : Type} (y : S16384.Idx → α) (n : Fin 16384) (a : Fin 1) :
    broadcastInDim S16384x1 ![0] bcast_S16384_S16384x1_0 y (ix2 n a) = y (ix1 n) :=
  broadcastInDim_apply _ bcast_S16384_S16384x1_0 y (ix2 n a) (ix1 n) (fun b => match b with
    | ⟨0, _⟩ => by show n.val = if (16384 : Nat) = 1 then 0 else n.val; rw [if_neg (by decide)])

theorem bcast_scalar_col1 {α : Type} (y : S_.Idx → α) (i : S16384x1.Idx) :
    broadcastInDim S16384x1 ![] bcast_S_S16384x1 y i = y ix0 :=
  broadcastInDim_apply _ bcast_S_S16384x1 y i ix0 (fun b => b.elim0)

theorem bcast_scalar_col11 {α : Type} (y : S_.Idx → α) (i : S16384x1x1.Idx) :
    broadcastInDim S16384x1x1 ![] bcast_S_S16384x1x1 y i = y ix0 :=
  broadcastInDim_apply _ bcast_S_S16384x1x1 y i ix0 (fun b => b.elim0)

theorem bcast_one_col11 {α : Type} (y : S1.Idx → α) (i : S16384x1x1.Idx) :
    broadcastInDim S16384x1x1 ![0, 1, 2] bcast_S1x1x1_S16384x1x1_0_1_2 (broadcastInDim S1x1x1 ![2] bcast_S1_S1x1x1_2 y) i
      = y (ix1 (0 : Fin 1)) := by
  rw [broadcastInDim_apply _ bcast_S1x1x1_S16384x1x1_0_1_2 _ i (ix3 (0 : Fin 1) (0 : Fin 1) (0 : Fin 1)) (fun b => match b with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl])]
  exact broadcastInDim_apply _ bcast_S1_S1x1x1_2 y _ (ix1 (0 : Fin 1)) (fun b => match b with
    | ⟨0, _⟩ => by show 0 = if (1 : Nat) = 1 then 0 else 0; rw [if_pos rfl])

/-! ## The gather -/

local notation "gd" => gather_S16384x1024_S16384x1x1_S16384x1_n_1_0_0_1_2_11

/-- On the token axis the gather reads the result's own token. -/
theorem gather_axis0 (idx : IVec S16384x1x1 32) (y : S16384x1.Idx) :
    (GatherDims.operandIdx gd y idx 0).val = (y 0).val := by
  show GatherDims.start gd y idx 0 + GatherDims.batchCoord gd y 0 + GatherDims.offCoord gd y 0 = (y 0).val
  rw [GatherDims.start_batching gd y idx 0 (List.mem_singleton.mpr rfl),
    GatherDims.offCoord_eq_zero gd y 0 (fun h => ((GatherDims.mem_sKept gd 0).mp h).2 (List.mem_singleton.mpr rfl))]
  unfold GatherDims.batchCoord
  rw [dif_pos (show (0 : Fin S16384x1024.rank) ∈ (gd).operandBatchingDims from List.mem_singleton.mpr rfl), Nat.zero_add, Nat.add_zero]
  rfl

/-- On the class axis it reads the start index, signed and clamped into the row. -/
theorem gather_axis1 (idx : IVec S16384x1x1 32) (y : S16384x1.Idx) :
    (GatherDims.operandIdx gd y idx 1).val = min (idx (ix3 (y 0) (y 1) (0 : Fin 1))).toInt.toNat 1023 := by
  show GatherDims.start gd y idx 1 + GatherDims.batchCoord gd y 1 + GatherDims.offCoord gd y 1 = _
  rw [GatherDims.batchCoord_eq_zero gd y 1 (fun h => absurd (List.mem_singleton.mp h) (by decide)),
    GatherDims.offCoord_eq_zero gd y 1 (fun h => ((GatherDims.mem_sKept gd 1).mp h).1 (List.mem_singleton.mpr rfl))]
  unfold GatherDims.start
  rw [dif_pos (show (1 : Fin S16384x1024.rank) ∈ (gd).startIndexMap from List.mem_singleton.mpr rfl)]
  have hsi : GatherDims.siIdx gd y ⟨List.idxOf (1 : Fin S16384x1024.rank) (gd).startIndexMap,
      List.idxOf_lt_length_iff.2 (List.mem_singleton.mpr rfl)⟩ = ix3 (y 0) (y 1) (0 : Fin 1) := by
    funext b; refine Fin.ext ?_
    match b with
    | ⟨0, _⟩ => rfl
    | ⟨1, _⟩ => rfl
    | ⟨2, _⟩ => rfl
  rw [hsi]
  rfl

/-- The gather of `take_along_axis` read at token `n`: the table's row `n` at the start index, read signed and clamped. -/
theorem gather_row_apply {α : Type} (p : S16384x1024.Idx → α) (idx : IVec S16384x1x1 32) (n : Fin 16384) (a : Fin 1) :
    Host.gather gd p idx (ix2 n a)
      = p (ix2 n ⟨min (idx (ix3 n (0 : Fin 1) (0 : Fin 1))).toInt.toNat 1023, by omega⟩) := by
  obtain rfl : a = 0 := Subsingleton.elim _ _
  unfold Host.gather
  congr 1
  funext b
  refine Fin.ext ?_
  match b with
  | ⟨0, _⟩ => exact gather_axis0 idx (ix2 n 0)
  | ⟨1, _⟩ => exact gather_axis1 idx (ix2 n 0)

/-! ## `take_along_axis` at a class word in the range -/

variable (w : (⟨S16384, .i32⟩ : BufTy).Contents (Elt Ideal))

/-- The start indices: the class word, moved up by 1024 where it is negative, as a [16384, 1, 1] array. -/
def takeIdx : (⟨S16384x1x1, .i32⟩ : BufTy).Contents (Elt Ideal) :=
  shapeCast _ (select (cmpi .slt (broadcastInDim S16384x1 ![0] bcast_S16384_S16384x1_0 w)
        (broadcastInDim S16384x1 ![] bcast_S_S16384x1 (constantI S_ 32 0#32)))
      (addi (broadcastInDim S16384x1 ![0] bcast_S16384_S16384x1_0 w) (broadcastInDim S16384x1 ![] bcast_S_S16384x1 (constantI S_ 32 1024#32)))
      (broadcastInDim S16384x1 ![0] bcast_S16384_S16384x1_0 w)) shapeCasts_S16384x1_S16384x1x1

/-- The in-range test of the start indices. -/
def takeMask : (⟨S16384x1, .i1⟩ : BufTy).Contents (Elt Ideal) :=
  Host.reduce IntOp.andi
    (andi (cmpi .sge (takeIdx w) (broadcastInDim S16384x1x1 ![] bcast_S_S16384x1x1 (constantI S_ 32 0#32)))
      (cmpi .sle (takeIdx w) (broadcastInDim S16384x1x1 ![0, 1, 2] bcast_S1x1x1_S16384x1x1_0_1_2
        (broadcastInDim S1x1x1 ![2] bcast_S1_S1x1x1_2 (constantI S1 32 1023#32)))))
    (constantI S_ 1 1#1) reducesTo_S16384x1x1_S16384x1_d2 h_S_

/-- The table read at the class word of each token, a filler where the test fails. -/
def takeOf (p : (⟨S16384x1024, .f32⟩ : BufTy).Contents (Elt Ideal)) : (⟨S16384, .f32⟩ : BufTy).Contents (Elt Ideal) :=
  shapeCast _ (select (takeMask w) (Host.gather gather_S16384x1024_S16384x1x1_S16384x1_n_1_0_0_1_2_11 p (takeIdx w))
    (broadcastInDim S16384x1 ![] bcast_S_S16384x1 (constant (F := Ideal) S_ .f32 0x7FC00000#32))) shapeCasts_S16384x1_S16384

variable {w} (h0 : ∀ n, 0 ≤ (w (ix1 n)).toInt) (h1 : ∀ n, (w (ix1 n)).toInt ≤ 1023)

include h0 in
theorem takeIdx_apply (n : Fin 16384) (a b : Fin 1) : takeIdx w (ix3 n a b) = w (ix1 n) := by
  unfold takeIdx
  rw [shapeCast_apply _ shapeCasts_S16384x1_S16384x1x1 (ix3 n a b) (ix2 n (0 : Fin 1)) (by
    rewrite [Shape.rowMajor_val_two, Shape.rowMajor_val_three]
    have ha := a.isLt; have hb := b.isLt
    show n.val * 1 + 0 = (n.val * 1 + a.val) * 1 + b.val
    omega)]
  show Scalar.select (IntOp.cmpi .slt (broadcastInDim S16384x1 ![0] bcast_S16384_S16384x1_0 w (ix2 n (0 : Fin 1)))
      (broadcastInDim S16384x1 ![] bcast_S_S16384x1 (constantI S_ 32 0#32) (ix2 n (0 : Fin 1))))
    (IntOp.addi (broadcastInDim S16384x1 ![0] bcast_S16384_S16384x1_0 w (ix2 n (0 : Fin 1)))
      (broadcastInDim S16384x1 ![] bcast_S_S16384x1 (constantI S_ 32 1024#32) (ix2 n (0 : Fin 1))))
    (broadcastInDim S16384x1 ![0] bcast_S16384_S16384x1_0 w (ix2 n (0 : Fin 1))) = _
  rw [bcast_col1, bcast_scalar_col1]
  show Scalar.select (IntOp.cmpi .slt (w (ix1 n)) 0#32) _ (w (ix1 n)) = _
  rw [slt_zero_of_nonneg _ (h0 n), select_zero]

include h0 h1 in
theorem takeMask_apply (y : S16384x1.Idx) : takeMask w y = 1#1 := by
  unfold takeMask
  refine MaskedSelect.reduce_andi_of_all _ _ reducesTo_S16384x1x1_S16384x1_d2 h_S_ y rfl (fun i => ?_)
  obtain ⟨p, q, r, rfl⟩ : ∃ (p : Fin 16384) (q r : Fin 1), i = ix3 p q r := ⟨i 0, i 1, i 2, eq_ix3 i⟩
  show IntOp.andi (IntOp.cmpi .sge (takeIdx w (ix3 p q r))
      (broadcastInDim S16384x1x1 ![] bcast_S_S16384x1x1 (constantI S_ 32 0#32) (ix3 p q r)))
    (IntOp.cmpi .sle (takeIdx w (ix3 p q r))
      (broadcastInDim S16384x1x1 ![0, 1, 2] bcast_S1x1x1_S16384x1x1_0_1_2
        (broadcastInDim S1x1x1 ![2] bcast_S1_S1x1x1_2 (constantI S1 32 1023#32)) (ix3 p q r))) = 1#1
  rw [takeIdx_apply h0, bcast_scalar_col11, bcast_one_col11]
  show IntOp.andi (IntOp.cmpi .sge (w (ix1 p)) 0#32) (IntOp.cmpi .sle (w (ix1 p)) 1023#32) = 1#1
  rw [sge_zero_of_nonneg _ (h0 _), sle_1023_of_le _ (h1 _)]
  decide

include h0 h1 in
/-- For class words in `[0, 1023]` the result is the table's entry at the word. -/
theorem takeOf_apply (p : (⟨S16384x1024, .f32⟩ : BufTy).Contents (Elt Ideal)) (n : Fin 16384) (hlt : (w (ix1 n)).toNat < 1024) :
    takeOf w p (ix1 n) = p (ix2 n ⟨(w (ix1 n)).toNat, hlt⟩) := by
  unfold takeOf
  rw [shapeCast_apply _ shapeCasts_S16384x1_S16384 (ix1 n) (ix2 n (0 : Fin 1)) (by
    rewrite [Shape.rowMajor_val_two, Shape.rowMajor_val_one]
    show n.val * 1 + 0 = n.val
    omega)]
  show Scalar.select (takeMask w (ix2 n (0 : Fin 1)))
    (Host.gather gather_S16384x1024_S16384x1x1_S16384x1_n_1_0_0_1_2_11 p (takeIdx w) (ix2 n (0 : Fin 1))) _ = _
  rw [takeMask_apply h0 h1, select_one, gather_row_apply]
  refine congrArg p (congrArg (ix2 n) (Fin.ext ?_))
  show min (takeIdx w (ix3 n (0 : Fin 1) (0 : Fin 1))).toInt.toNat 1023 = (w (ix1 n)).toNat
  rw [takeIdx_apply h0]
  exact clamp_of_range _ (h0 n) (h1 n)

end Cert.ReferenceIdeal.Heads

end
-- ==== Proof.Ref.Stages.lean ====
/-
  The reference's per-token quantities with real arguments: the logistic function of the end logit and its complement, the
  softmax of each 1024-class head, the clipped class words, the picked class probabilities, and the three class tests.
-/
import proofs.«410987_j75797582839976_2_alg».proof.Proof.Ref.Logits
import proofs.«410987_j75797582839976_2_alg».proof.Proof.Ref.Gather

noncomputable section

namespace Cert.ReferenceIdeal.Heads

open Cert.ReferenceIdeal Cert.ReferenceIdeal.Gen Cert.ReferenceIdeal.Read Idealize.ShloMosaic Idealize.ShloMosaic.ValueIdx

variable (A : Cert.Heads.Args)

/-- Token `n`'s end logit. -/
abbrev eAt (n : Fin 16384) : ℝ := Cert.Heads.endLogit A.X A.We A.be (tokB n) (tokS n)
/-- Token `n`'s hcw logits. -/
abbrev uAt (n : Fin 16384) : Fin 1024 → ℝ := Cert.Heads.headLogit A.X A.Wh A.bh (tokB n) (tokS n)
/-- Token `n`'s roo logits. -/
abbrev rAt (n : Fin 16384) : Fin 1024 → ℝ := Cert.Heads.headLogit A.X A.Wr A.br (tokB n) (tokS n)

/-! ## The logistic function of the end logit -/

theorem sig_val (n : Fin 16384) :
    val_main_v20 (F := Ideal) (cX A.X) (cWe A.We) (cbe A.be) (ix1 n) = ((Cert.Heads.sig (eAt A n) : ℝ) : EReal) := by
  rw [val_main_v20_apply, idx_20, val_main_v19_apply, val_main_v18_apply, val_main_cst_2_apply, val_main_v17_apply,
    val_main_v16_apply, val_main_cst_apply, val_main_v15_apply, val_main_v14_apply, endLogit_val]
  show Ideal.div (Ideal.ofBits .f32 0x3F800000#32) (Ideal.ofBits .f32 0x3F800000#32 + Ideal.exp (-((eAt A n : ℝ) : EReal))) = _
  rw [one_f32, ← EReal.coe_neg, Ideal.exp_coe, ← EReal.coe_one, ← EReal.coe_add,
    Cert.Heads.div_coe_coe _ (ne_of_gt (Cert.Heads.one_add_exp_pos _))]
  rfl

theorem nsig_val (n : Fin 16384) :
    val_main_v22 (F := Ideal) (cX A.X) (cWe A.We) (cbe A.be) (ix1 n) = ((1 - Cert.Heads.sig (eAt A n) : ℝ) : EReal) := by
  rw [val_main_v22_apply, val_main_v21_apply, val_main_cst_3_apply, sig_val]
  show Ideal.ofBits .f32 0x3F800000#32 - _ = _
  rw [one_f32, Cert.Heads.one_sub_coe]

/-! ## The two softmax tables -/

theorem v38_eq (x0 : (⟨S32x512x2048, .f32⟩ : BufTy).Contents (Elt Ideal)) (x5 : (⟨S1024x2048, .f32⟩ : BufTy).Contents (Elt Ideal))
    (x6 : (⟨S1024, .f32⟩ : BufTy).Contents (Elt Ideal)) :
    val_main_v38 (F := Ideal) x0 x5 x6 = softmaxOf (val_main_v27 (F := Ideal) x0 x5 x6) := by
  unfold val_main_v38 val_main_v37 val_main_v36 val_main_v35 val_main_v34 val_main_v33 val_main_v32 val_main_v31 val_main_v30
    val_main_v29 val_main_v28 val_main_cst_4 val_main_cst_5 val_main_cst_6 softmaxOf sumOf expOf rowMaxOf
  with_reducible rfl

theorem v54_eq (x0 : (⟨S32x512x2048, .f32⟩ : BufTy).Contents (Elt Ideal)) (x7 : (⟨S1024x2048, .f32⟩ : BufTy).Contents (Elt Ideal))
    (x8 : (⟨S1024, .f32⟩ : BufTy).Contents (Elt Ideal)) :
    val_main_v54 (F := Ideal) x0 x7 x8 = softmaxOf (val_main_v43 (F := Ideal) x0 x7 x8) := by
  unfold val_main_v54 val_main_v53 val_main_v52 val_main_v51 val_main_v50 val_main_v49 val_main_v48 val_main_v47 val_main_v46
    val_main_v45 val_main_v44 val_main_cst_7 val_main_cst_8 val_main_cst_9 softmaxOf sumOf expOf rowMaxOf
  with_reducible rfl

theorem hcwSmax_val (n : Fin 16384) (k : Fin 1024) :
    val_main_v38 (F := Ideal) (cX A.X) (cW A.Wh) (cb A.bh) (ix2 n k) = ((Cert.Heads.smax (uAt A n) k : ℝ) : EReal) := by
  rw [v38_eq]
  exact softmaxOf_apply (u := fun n => uAt A n) (fun n k => hcwLogit_val A n k) n k

theorem rooSmax_val (n : Fin 16384) (k : Fin 1024) :
    val_main_v54 (F := Ideal) (cX A.X) (cW A.Wr) (cb A.br) (ix2 n k) = ((Cert.Heads.smax (rAt A n) k : ℝ) : EReal) := by
  rw [v54_eq]
  exact softmaxOf_apply (u := fun n => rAt A n) (fun n k => rooLogit_val A n k) n k

/-! ## The class words -/

theorem idx_tok (n : Fin 16384) : idx_main_v2 (ix1 n) = ix2 (tokB n) (tokS n) := by
  funext b; refine Fin.ext ?_
  match b with
  | ⟨0, _⟩ => rfl
  | ⟨1, _⟩ => rfl

theorem idx_tok1 (n : Fin 16384) : idx_main_v1 (ix1 n) = ix2 (tokB n) (tokS n) := by
  funext b; refine Fin.ext ?_
  match b with
  | ⟨0, _⟩ => rfl
  | ⟨1, _⟩ => rfl

theorem hcwWord_val (Y : (⟨S32x512, .i32⟩ : BufTy).Contents (Elt Ideal)) (n : Fin 16384) :
    val_main_v57 (F := Ideal) Y (ix1 n) = Cert.Heads.hcwWord (Y (ix2 (tokB n) (tokS n))) := by
  rw [val_main_v57_apply, val_main_call0_v4_apply, val_main_call0_v3_apply, val_main_c_12_apply, val_main_call0_v2_apply,
    val_main_call0_v1_apply, val_main_call0_v0_apply, val_main_c_11_apply, val_main_v56_apply, val_main_v2_apply,
    val_main_v55_apply, val_main_c_10_apply, idx_tok]
  rfl

theorem rooWord_val (Y : (⟨S32x512, .i32⟩ : BufTy).Contents (Elt Ideal)) (n : Fin 16384) :
    val_main_v62 (F := Ideal) Y (ix1 n) = Cert.Heads.rooWord (Y (ix2 (tokB n) (tokS n))) := by
  rw [val_main_v62_apply, val_main_call1_v4_apply, val_main_call1_v3_apply, val_main_c_16_apply, val_main_call1_v2_apply,
    val_main_call1_v1_apply, val_main_call1_v0_apply, val_main_c_15_apply, val_main_v61_apply, val_main_v59_apply,
    val_main_v2_apply, val_main_v58_apply, val_main_c_13_apply, val_main_v60_apply, val_main_c_14_apply, idx_tok]
  rfl

/-! ## The picked probabilities -/

theorem v65_eq (x0 : (⟨S32x512x2048, .f32⟩ : BufTy).Contents (Elt Ideal)) (x2 : (⟨S32x512, .i32⟩ : BufTy).Contents (Elt Ideal))
    (x5 : (⟨S1024x2048, .f32⟩ : BufTy).Contents (Elt Ideal)) (x6 : (⟨S1024, .f32⟩ : BufTy).Contents (Elt Ideal)) :
    val_main_v65 (F := Ideal) x0 x2 x5 x6 = takeOf (val_main_v57 (F := Ideal) x2) (val_main_v38 (F := Ideal) x0 x5 x6) := by
  unfold val_main_v65 val_main_v64 val_main_call2_v14 val_main_call2_cst val_main_call2_v13 val_main_call2_v12 val_main_call2_c_3
    val_main_call2_v11 val_main_call2_v10 val_main_call2_v9 val_main_call2_v8 val_main_call2_v7 val_main_call2_v6
    val_main_call2_c_2 val_main_call2_c_1 val_main_call2_v5 val_main_call2_v4 val_main_call2_v3 val_main_call2_v2
    val_main_call2_c_0 val_main_call2_v1 val_main_call2_v0 val_main_call2_c val_main_v63 takeOf takeMask takeIdx
  with_reducible rfl

theorem v68_eq (x0 : (⟨S32x512x2048, .f32⟩ : BufTy).Contents (Elt Ideal)) (x2 : (⟨S32x512, .i32⟩ : BufTy).Contents (Elt Ideal))
    (x7 : (⟨S1024x2048, .f32⟩ : BufTy).Contents (Elt Ideal)) (x8 : (⟨S1024, .f32⟩ : BufTy).Contents (Elt Ideal)) :
    val_main_v68 (F := Ideal) x0 x2 x7 x8 = takeOf (val_main_v62 (F := Ideal) x2) (val_main_v54 (F := Ideal) x0 x7 x8) := by
  unfold val_main_v68 val_main_v67 val_main_call3_v14 val_main_call3_cst val_main_call3_v13 val_main_call3_v12 val_main_call3_c_3
    val_main_call3_v11 val_main_call3_v10 val_main_call3_v9 val_main_call3_v8 val_main_call3_v7 val_main_call3_v6
    val_main_call3_c_2 val_main_call3_c_1 val_main_call3_v5 val_main_call3_v4 val_main_call3_v3 val_main_call3_v2
    val_main_call3_c_0 val_main_call3_v1 val_main_call3_v0 val_main_call3_c val_main_v66 takeOf takeMask takeIdx
  with_reducible rfl

/-- Token `n`'s label word. -/
abbrev yAt (n : Fin 16384) : BitVec 32 := A.Y (ix2 (tokB n) (tokS n))
/-- Token `n`'s class word. -/
abbrev pyAt (n : Fin 16384) : BitVec 32 := A.pY (ix2 (tokB n) (tokS n))

theorem hcwPick_val (n : Fin 16384) :
    val_main_v65 (F := Ideal) (cX A.X) A.Y (cW A.Wh) (cb A.bh) (ix1 n)
      = ((Cert.Heads.smax (uAt A n) (Cert.Heads.hcwIdx (yAt A n)) : ℝ) : EReal) := by
  have h0 : ∀ m, 0 ≤ (val_main_v57 (F := Ideal) A.Y (ix1 m)).toInt := fun m => by
    rw [hcwWord_val]; exact (Cert.Heads.clip_toInt _).1
  have h1 : ∀ m, (val_main_v57 (F := Ideal) A.Y (ix1 m)).toInt ≤ 1023 := fun m => by
    rw [hcwWord_val]; exact (Cert.Heads.clip_toInt _).2
  have hlt : (val_main_v57 (F := Ideal) A.Y (ix1 n)).toNat < 1024 := by
    rw [hcwWord_val]; exact Cert.Heads.hcwWord_lt _
  have hk : (⟨(val_main_v57 (F := Ideal) A.Y (ix1 n)).toNat, hlt⟩ : Fin 1024) = Cert.Heads.hcwIdx (yAt A n) :=
    Fin.ext (show (val_main_v57 (F := Ideal) A.Y (ix1 n)).toNat = (Cert.Heads.hcwWord (yAt A n)).toNat by rw [hcwWord_val])
  rw [v65_eq, takeOf_apply h0 h1 _ n hlt, hcwSmax_val, hk]

theorem rooPick_val (n : Fin 16384) :
    val_main_v68 (F := Ideal) (cX A.X) A.Y (cW A.Wr) (cb A.br) (ix1 n)
      = ((Cert.Heads.smax (rAt A n) (Cert.Heads.rooIdx (yAt A n)) : ℝ) : EReal) := by
  have h0 : ∀ m, 0 ≤ (val_main_v62 (F := Ideal) A.Y (ix1 m)).toInt := fun m => by
    rw [rooWord_val]; exact (Cert.Heads.clip_toInt _).1
  have h1 : ∀ m, (val_main_v62 (F := Ideal) A.Y (ix1 m)).toInt ≤ 1023 := fun m => by
    rw [rooWord_val]; exact (Cert.Heads.clip_toInt _).2
  have hlt : (val_main_v62 (F := Ideal) A.Y (ix1 n)).toNat < 1024 := by
    rw [rooWord_val]; exact Cert.Heads.rooWord_lt _
  have hk : (⟨(val_main_v62 (F := Ideal) A.Y (ix1 n)).toNat, hlt⟩ : Fin 1024) = Cert.Heads.rooIdx (yAt A n) :=
    Fin.ext (show (val_main_v62 (F := Ideal) A.Y (ix1 n)).toNat = (Cert.Heads.rooWord (yAt A n)).toNat by rw [rooWord_val])
  rw [v68_eq, takeOf_apply h0 h1 _ n hlt, rooSmax_val, hk]

/-! ## The class tests -/

theorem test0_val (n : Fin 16384) : val_main_v4 (F := Ideal) A.pY (ix1 n) = IntOp.cmpi .eq (pyAt A n) 0#32 := by
  rw [val_main_v4_apply, val_main_v1_apply, val_main_v3_apply, val_main_c_apply, idx_tok1]
theorem test1_val (n : Fin 16384) : val_main_v6 (F := Ideal) A.pY (ix1 n) = IntOp.cmpi .eq (pyAt A n) 1#32 := by
  rw [val_main_v6_apply, val_main_v1_apply, val_main_v5_apply, val_main_c_0_apply, idx_tok1]
theorem test2_val (n : Fin 16384) : val_main_v8 (F := Ideal) A.pY (ix1 n) = IntOp.cmpi .eq (pyAt A n) 2#32 := by
  rw [val_main_v8_apply, val_main_v1_apply, val_main_v7_apply, val_main_c_1_apply, idx_tok1]

end Cert.ReferenceIdeal.Heads

end
-- ==== Proof.Ref.Select.lean ====
/-
  The choice by class word, over the extended reals: the nested selection whose log is the specification's `logp`, and the
  class test converted to a float, which is the specification's indicator.
-/
import proofs.«410987_j75797582839976_2_alg».proof.Proof.Analysis
import Idealize.ShloMosaic.Lib.StableHlo.Predicate
import Idealize.ShloMosaic.Lib.ValueIdx

noncomputable section

namespace Cert.ReferenceIdeal.Heads

open Idealize.ShloMosaic Idealize.ShloMosaic.ValueIdx

theorem cmpi_eq_of_eq {a b : BitVec 32} (h : a = b) : IntOp.cmpi .eq a b = 1#1 :=
  StableHlo.Predicate.cmpi_eq_iff.2 h
theorem cmpi_eq_of_ne {a b : BitVec 32} (h : a ≠ b) : IntOp.cmpi .eq a b = 0#1 :=
  eq_zero_of_ne_one (fun h1 => h (StableHlo.Predicate.cmpi_eq_iff.1 h1))

/-- The log of the value selected by the class word is the specification's log-probability. -/
theorem logp_select (py y : BitVec 32) (e : ℝ) (u r : Fin 1024 → ℝ) :
    Ideal.log (Scalar.select (IntOp.cmpi .eq py 0#32) ((Cert.Heads.sig e : ℝ) : EReal)
      (Scalar.select (IntOp.cmpi .eq py 1#32)
        (((Cert.Heads.smax u (Cert.Heads.hcwIdx y) : ℝ) : EReal) * ((1 - Cert.Heads.sig e : ℝ) : EReal))
        (Scalar.select (IntOp.cmpi .eq py 2#32)
          (((Cert.Heads.smax r (Cert.Heads.rooIdx y) : ℝ) : EReal) * ((1 - Cert.Heads.sig e : ℝ) : EReal))
          (1 : EReal))))
      = ((Cert.Heads.logp py y e u r : ℝ) : EReal) := by
  unfold Cert.Heads.logp
  by_cases h0 : py = 0#32
  · rw [cmpi_eq_of_eq h0, select_one, if_pos h0, Cert.Heads.log_sig_coe]
  rw [cmpi_eq_of_ne h0, select_zero, if_neg h0]
  by_cases h1 : py = 1#32
  · rw [cmpi_eq_of_eq h1, select_one, if_pos h1, ← EReal.coe_mul, Cert.Heads.log_pick_coe]
  rw [cmpi_eq_of_ne h1, select_zero, if_neg h1]
  by_cases h2 : py = 2#32
  · rw [cmpi_eq_of_eq h2, select_one, if_pos h2, ← EReal.coe_mul, Cert.Heads.log_pick_coe]
  rw [cmpi_eq_of_ne h2, select_zero, if_neg h2, ← EReal.coe_one, Cert.Heads.log_coe_pos one_pos, Real.log_one]

/-- A class test converted to a float is the indicator of the class. -/
theorem uitofp_cmpi (py c : BitVec 32) :
    FloatOps.uitofp (F := Ideal) .f32 (IntOp.cmpi .eq py c) = ((Cert.Heads.ind (py = c) : ℝ) : EReal) := by
  unfold Cert.Heads.ind
  by_cases h : py = c
  · rw [cmpi_eq_of_eq h, if_pos h]
    show ((((1#1 : BitVec 1).toNat : ℕ) : ℝ) : EReal) = ((1 : ℝ) : EReal)
    norm_num
  · rw [cmpi_eq_of_ne h, if_neg h]
    show ((((0#1 : BitVec 1).toNat : ℕ) : ℝ) : EReal) = ((0 : ℝ) : EReal)
    norm_num

end Cert.ReferenceIdeal.Heads

end
-- ==== Proof.Ref.LogProb.lean ====
/-
  The reference's first result with real arguments: at token `(b, s)` the log of the value chosen by the class word, which is
  the specification's `logp` of the token's class word, label word and logits.
-/
import proofs.«410987_j75797582839976_2_alg».proof.Proof.Ref.Stages
import proofs.«410987_j75797582839976_2_alg».proof.Proof.Ref.Select

noncomputable section

namespace Cert.ReferenceIdeal.Heads

open Cert.ReferenceIdeal Cert.ReferenceIdeal.Gen Cert.ReferenceIdeal.Read Idealize.ShloMosaic Idealize.ShloMosaic.ValueIdx

variable (A : Cert.Heads.Args)

theorem idx_one (n : Fin 16384) : idx_main_call4_v1 (ix1 n) = ix0 := funext fun a => a.elim0

/-- The log-probability of token `n`. -/
theorem logp_tok (n : Fin 16384) :
    val_main_v95 (F := Ideal) (cX A.X) A.pY A.Y (cWe A.We) (cbe A.be) (cW A.Wh) (cb A.bh) (cW A.Wr) (cb A.br) (ix1 n)
      = ((Cert.Heads.logp (pyAt A n) (yAt A n) (eAt A n) (uAt A n) (rAt A n) : ℝ) : EReal) := by
  rw [val_main_v95_apply, val_main_v73_apply, val_main_v72_apply, val_main_v71_apply, val_main_v69_apply, val_main_v70_apply,
    val_main_call4_v1_apply, val_main_call4_v0_apply, val_main_cst_17_apply,
    test0_val, test1_val, test2_val, sig_val, nsig_val, hcwPick_val, rooPick_val]
  show Ideal.log (Scalar.select _ _ (Scalar.select _ (_ * _) (Scalar.select _ (_ * _) (Ideal.ofBits .f32 0x3F800000#32)))) = _
  rw [one_f32]
  exact logp_select _ _ _ _ _

theorem idx_96 (b : Fin 32) (s : Fin 512) : idx_main_v96 (ix2 b s) = ix1 (tok b s) := by
  funext a; refine Fin.ext ?_
  match a with
  | ⟨0, _⟩ => rfl

/-- The first result is the specification's. -/
theorem logp_value : val_main_v96 (F := Ideal) (cX A.X) A.pY A.Y (cWe A.We) (cbe A.be) (cW A.Wh) (cb A.bh) (cW A.Wr) (cb A.br) = A.outLogp := by
  funext i
  obtain ⟨b, s, rfl⟩ : ∃ (b : Fin 32) (s : Fin 512), i = ix2 b s := ⟨i 0, i 1, eq_ix2 i⟩
  rw [val_main_v96_apply, idx_96, logp_tok]
  show ((Cert.Heads.logp (A.pY (ix2 (tokB (tok b s)) (tokS (tok b s)))) (A.Y (ix2 (tokB (tok b s)) (tokS (tok b s))))
      (Cert.Heads.endLogit A.X A.We A.be (tokB (tok b s)) (tokS (tok b s)))
      (Cert.Heads.headLogit A.X A.Wh A.bh (tokB (tok b s)) (tokS (tok b s)))
      (Cert.Heads.headLogit A.X A.Wr A.br (tokB (tok b s)) (tokS (tok b s))) : ℝ) : EReal)
    = ((Cert.Heads.logp (A.pY (ix2 b s)) (A.Y (ix2 b s)) (Cert.Heads.endLogit A.X A.We A.be b s)
      (Cert.Heads.headLogit A.X A.Wh A.bh b s) (Cert.Heads.headLogit A.X A.Wr A.br b s) : ℝ) : EReal)
  rw [tokB_tok, tokS_tok]

end Cert.ReferenceIdeal.Heads

end
-- ==== Proof.Ref.Concat.lean ====
/-
  The reference's last stage joins three column bands along axis 1: the two end columns, the 1024 hcw columns and the
  1024 roo columns. Read at (n, j), the join is the band that holds column j, at j less the widths before it.
-/
import proofs.«410987_j75797582839976_2_alg».proof.Proof.Gen.ReferenceIdeal
import Idealize.ShloMosaic.Lib.Pipeline.Value
import Idealize.ShloMosaic.Lib.ValueIdx

namespace Cert.ReferenceIdeal.Heads

open Cert.ReferenceIdeal Cert.ReferenceIdeal.Gen Idealize.ShloMosaic Idealize.ShloMosaic.ValueIdx

/-- The three-band join at (n, j): the end band below column 2, the hcw band below column 1026, the roo band from there. -/
theorem concat3_apply {α : Type} (x₁ : S16384x2.Idx → α) (x₂ x₃ : S16384x1024.Idx → α) (n : Fin 16384) (j : Fin 2050) :
    concatenate S16384x2050 1 [⟨S16384x2, x₁⟩, ⟨S16384x1024, x₂⟩, ⟨S16384x1024, x₃⟩] concatenates_S16384x2_S16384x1024_S16384x1024_S16384x2050_d1 (ix2 n j)
      = if h1 : j.val < 2 then x₁ (ix2 n ⟨j.val, h1⟩)
        else if h2 : j.val < 1026 then x₂ (ix2 n ⟨j.val - 2, by omega⟩)
        else x₃ (ix2 n ⟨j.val - 1026, by have := j.isLt; omega⟩) := by
  by_cases h1 : j.val < 2
  · rw [dif_pos h1]
    exact concatenate_apply_piece (t := S16384x2050) 1 _ _ (ix2 n j) 0 (by show (0 : ℕ) < 3; omega) S16384x2 x₁ rfl rfl 0 rfl
      (ix2 n (⟨j.val, h1⟩ : Fin 2))
      (fun b hb => by
        match b with
        | ⟨0, _⟩ => rfl
        | ⟨1, _⟩ => exact absurd rfl hb)
      (by show 0 + j.val = j.val; omega)
  · rw [dif_neg h1]
    by_cases h2 : j.val < 1026
    · rw [dif_pos h2]
      exact concatenate_apply_piece (t := S16384x2050) 1 _ _ (ix2 n j) 1 (by show (1 : ℕ) < 3; omega) S16384x1024 x₂ rfl rfl 2 rfl
        (ix2 n (⟨j.val - 2, by omega⟩ : Fin 1024))
        (fun b hb => by
          match b with
          | ⟨0, _⟩ => rfl
          | ⟨1, _⟩ => exact absurd rfl hb)
        (by show 2 + (j.val - 2) = j.val; omega)
    · rw [dif_neg h2]
      exact concatenate_apply_piece (t := S16384x2050) 1 _ _ (ix2 n j) 2 (by show (2 : ℕ) < 3; omega) S16384x1024 x₃ rfl rfl 1026 rfl
        (ix2 n (⟨j.val - 1026, by have := j.isLt; omega⟩ : Fin 1024))
        (fun b hb => by
          match b with
          | ⟨0, _⟩ => rfl
          | ⟨1, _⟩ => exact absurd rfl hb)
        (by show 1026 + (j.val - 1026) = j.val; omega)

end Cert.ReferenceIdeal.Heads
-- ==== Proof.Ref.ProbAll.lean ====
/-
  The reference's second result with real arguments: row `(b, s)` of the probability table is two copies of σ(e)·[class 0],
  then softmax(u)·(1 − σ(e))·[class 1] over the 1024 hcw classes, then the same of the roo head with [class 2]: the
  specification's `prob`.
-/
import proofs.«410987_j75797582839976_2_alg».proof.Proof.Ref.Stages
import proofs.«410987_j75797582839976_2_alg».proof.Proof.Ref.Select
import proofs.«410987_j75797582839976_2_alg».proof.Proof.Ref.Concat

noncomputable section

namespace Cert.ReferenceIdeal.Heads

open Cert.ReferenceIdeal Cert.ReferenceIdeal.Gen Cert.ReferenceIdeal.Read Idealize.ShloMosaic Idealize.ShloMosaic.ValueIdx

variable (A : Cert.Heads.Args)

/-! ## A per-token vector spread over a band's columns reads the vector at the token -/

theorem idx_80 (n : Fin 16384) (j : Fin 2) : idx_main_v80 (idx_main_v81 (ix2 n j)) = ix1 n := by
  funext a; refine Fin.ext ?_; match a with | ⟨0, _⟩ => rfl
theorem idx_75 (n : Fin 16384) (j : Fin 2) : idx_main_v75 (idx_main_v82 (ix2 n j)) = ix1 n := by
  funext a; refine Fin.ext ?_; match a with | ⟨0, _⟩ => rfl
theorem idx_84 (n : Fin 16384) (k : Fin 1024) : idx_main_v84 (idx_main_v85 (ix2 n k)) = ix1 n := by
  funext a; refine Fin.ext ?_; match a with | ⟨0, _⟩ => rfl
theorem idx_77 (n : Fin 16384) (k : Fin 1024) : idx_main_v77 (idx_main_v87 (ix2 n k)) = ix1 n := by
  funext a; refine Fin.ext ?_; match a with | ⟨0, _⟩ => rfl
theorem idx_89 (n : Fin 16384) (k : Fin 1024) : idx_main_v89 (idx_main_v90 (ix2 n k)) = ix1 n := by
  funext a; refine Fin.ext ?_; match a with | ⟨0, _⟩ => rfl
theorem idx_79 (n : Fin 16384) (k : Fin 1024) : idx_main_v79 (idx_main_v92 (ix2 n k)) = ix1 n := by
  funext a; refine Fin.ext ?_; match a with | ⟨0, _⟩ => rfl

/-! ## The three bands -/

theorem endBand_val (n : Fin 16384) (j : Fin 2) :
    val_main_v83 (F := Ideal) (cX A.X) A.pY (cWe A.We) (cbe A.be) (ix2 n j)
      = ((Cert.Heads.sig (eAt A n) * Cert.Heads.ind (pyAt A n = 0#32) : ℝ) : EReal) := by
  rw [val_main_v83_apply, val_main_v81_apply, val_main_v80_apply, idx_80, val_main_v82_apply, val_main_v75_apply, idx_75,
    val_main_v74_apply, sig_val, test0_val, uitofp_cmpi, EReal.coe_mul]
  rfl

theorem hcwBand_val (n : Fin 16384) (k : Fin 1024) :
    val_main_v88 (F := Ideal) (cX A.X) A.pY (cWe A.We) (cbe A.be) (cW A.Wh) (cb A.bh) (ix2 n k)
      = ((Cert.Heads.smax (uAt A n) k * (1 - Cert.Heads.sig (eAt A n)) * Cert.Heads.ind (pyAt A n = 1#32) : ℝ) : EReal) := by
  rw [val_main_v88_apply, val_main_v86_apply, val_main_v85_apply, val_main_v84_apply, idx_84, val_main_v87_apply,
    val_main_v77_apply, idx_77, val_main_v76_apply, hcwSmax_val, nsig_val, test1_val, uitofp_cmpi, EReal.coe_mul, EReal.coe_mul]
  rfl

theorem rooBand_val (n : Fin 16384) (k : Fin 1024) :
    val_main_v93 (F := Ideal) (cX A.X) A.pY (cWe A.We) (cbe A.be) (cW A.Wr) (cb A.br) (ix2 n k)
      = ((Cert.Heads.smax (rAt A n) k * (1 - Cert.Heads.sig (eAt A n)) * Cert.Heads.ind (pyAt A n = 2#32) : ℝ) : EReal) := by
  rw [val_main_v93_apply, val_main_v91_apply, val_main_v90_apply, val_main_v89_apply, idx_89, val_main_v92_apply,
    val_main_v79_apply, idx_79, val_main_v78_apply, rooSmax_val, nsig_val, test2_val, uitofp_cmpi, EReal.coe_mul, EReal.coe_mul]
  rfl

/-- Row `n` of the probability table. -/
theorem prob_tok (n : Fin 16384) (j : Fin 2050) :
    val_main_v94 (F := Ideal) (cX A.X) A.pY (cWe A.We) (cbe A.be) (cW A.Wh) (cb A.bh) (cW A.Wr) (cb A.br) (ix2 n j)
      = ((Cert.Heads.prob (pyAt A n) (eAt A n) (uAt A n) (rAt A n) j : ℝ) : EReal) := by
  unfold val_main_v94
  refine (concat3_apply _ _ _ n j).trans ?_
  unfold Cert.Heads.prob
  by_cases h1 : j.val < 2
  · rw [dif_pos h1, if_pos h1, endBand_val]
  · rw [dif_neg h1, if_neg h1]
    by_cases h2 : j.val < 1026
    · rw [dif_pos h2, dif_pos h2, hcwBand_val]
    · rw [dif_neg h2, dif_neg h2, rooBand_val]

theorem idx_97 (b : Fin 32) (s : Fin 512) (j : Fin 2050) : idx_main_v97 (ix3 b s j) = ix2 (tok b s) j := by
  funext a; refine Fin.ext ?_
  have hj := j.isLt
  match a with
  | ⟨0, _⟩ => show ((b.val * 512 + s.val) * 2050 + j.val) / 2050 = b.val * 512 + s.val; omega
  | ⟨1, _⟩ => show ((b.val * 512 + s.val) * 2050 + j.val) % 2050 = j.val; omega

/-- The second result is the specification's. -/
theorem prob_value : val_main_v97 (F := Ideal) (cX A.X) A.pY (cWe A.We) (cbe A.be) (cW A.Wh) (cb A.bh) (cW A.Wr) (cb A.br) = A.outProb := by
  funext i
  obtain ⟨b, s, j, rfl⟩ : ∃ (b : Fin 32) (s : Fin 512) (j : Fin 2050), i = ix3 b s j := ⟨i 0, i 1, i 2, eq_ix3 i⟩
  rw [val_main_v97_apply, idx_97, prob_tok]
  show ((Cert.Heads.prob (A.pY (ix2 (tokB (tok b s)) (tokS (tok b s))))
      (Cert.Heads.endLogit A.X A.We A.be (tokB (tok b s)) (tokS (tok b s)))
      (Cert.Heads.headLogit A.X A.Wh A.bh (tokB (tok b s)) (tokS (tok b s)))
      (Cert.Heads.headLogit A.X A.Wr A.br (tokB (tok b s)) (tokS (tok b s))) j : ℝ) : EReal)
    = ((Cert.Heads.prob (A.pY (ix2 b s)) (Cert.Heads.endLogit A.X A.We A.be b s)
      (Cert.Heads.headLogit A.X A.Wh A.bh b s) (Cert.Heads.headLogit A.X A.Wr A.br b s) j : ℝ) : EReal)
  rw [tokB_tok, tokS_tok]

end Cert.ReferenceIdeal.Heads

end
-- ==== Proof.RefValue.lean ====
/-
  What the reference computes on finite inputs: from a memory whose argument arrays are the real data `A`, every
  run ends with the two results at the specification's `outLogp` and `outProb` of `A`, the arguments unchanged.
-/
import proofs.«410987_j75797582839976_2_alg».proof.Proof.RefReal
import proofs.«410987_j75797582839976_2_alg».proof.Proof.RefRead
import proofs.«410987_j75797582839976_2_alg».proof.Proof.Ref.LogProb
import proofs.«410987_j75797582839976_2_alg».proof.Proof.Ref.ProbAll

noncomputable section

namespace Cert.ReferenceIdeal.Heads

open Cert.ReferenceIdeal Idealize.ShloMosaic Idealize.ShloMosaic.TcCoe Idealize.SL.Sem

/-- The first result's term, at real arguments, is the specification's log-probabilities. -/
theorem res_logp (m : (ℓ : Loc nD τ sig) → Buf (Elt Ideal) ℓ) (c : Dev nD) (A : Cert.Heads.Args) (hA : IsArgs m c A) :
    (Cert.ReferenceIdeal.Value.res_out0 m c : S32x512.Idx → EReal) = A.outLogp := by
  refine (Cert.ReferenceIdeal.Read.val_main_v96_eq m c).trans ?_
  rw [hA.hX, hA.hpY, hA.hY, hA.hWe, hA.hbe, hA.hWh, hA.hbh, hA.hWr, hA.hbr]
  exact logp_value A

/-- The second result's term, at real arguments, is the specification's probability table. -/
theorem res_prob (m : (ℓ : Loc nD τ sig) → Buf (Elt Ideal) ℓ) (c : Dev nD) (A : Cert.Heads.Args) (hA : IsArgs m c A) :
    (Cert.ReferenceIdeal.Value.res_out1 m c : S32x512x2050.Idx → EReal) = A.outProb := by
  refine (Cert.ReferenceIdeal.Read.val_main_v97_eq m c).trans ?_
  rw [hA.hX, hA.hpY, hA.hWe, hA.hbe, hA.hWh, hA.hbh, hA.hWr, hA.hbr]
  exact prob_value A

theorem run_value (m : (ℓ : Loc nD τ sig) → Buf (Elt Ideal) ℓ) (ρ : Dev nD → PrngReg)
    (A : Dev nD → Cert.Heads.Args) (hA : ∀ c, IsArgs m c (A c)) :
    θ_run (defs (F := Ideal)) (onTc (τ := τ) (main (F := Ideal))) ⟨m, fun _ => 0, ρ⟩ (fun r => ∀ c : Dev nD,
      (r.2.mem ((c.tc : Thread nD τ).loc main_v96) : S32x512.Idx → EReal) = (A c).outLogp
      ∧ (r.2.mem ((c.tc : Thread nD τ).loc main_v97) : S32x512x2050.Idx → EReal) = (A c).outProb
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (res_logp m c (A c) (hA c)), (h c).2.1.trans (res_prob m c (A c) (hA c)), (h c).2.2⟩)
    (Cert.ReferenceIdeal.Value.run (F := Ideal) m ρ)

end Cert.ReferenceIdeal.Heads

end
-- ==== Proof.lean ====
/-
  The certificate of the fused three-head kernel against its jnp reference.

  Frames. The two kernel programs (the word-level one and its idealization are one text) run the host lines that
  build the fused weights and bias, one pipelined region of 64 points whose body loads five blocks and stores the
  log-probability column and three bands of the padded probability tile, and three host lines that reshape and slice
  the results; none of these writes an argument array. The reference is a host program; its run ends with the
  arguments unchanged.

  Agreement at the exact instance. Under the precondition every float argument is real-valued, so the data are some
  `Args`. On such data both programs end with the specification's `outLogp` and `outProb`: for the kernel the stable
  forms −softplus(∓e) are log σ(e) and log (1 − σ(e)), the log-softmax exponentiates to the softmax, and the one-hot sum
  picks the clipped class; for the reference log is applied to the picked probability, and the logarithm of a product
  of positive reals is the sum of the logarithms. The idealization rewrote nothing, so `preserves` is trivial.
-/
import proofs.«410987_j75797582839976_2_alg».proof.Defs
import proofs.«410987_j75797582839976_2_alg».proof.Proof.Gen.Kernel
import proofs.«410987_j75797582839976_2_alg».proof.Proof.Gen.KernelIdeal
import proofs.«410987_j75797582839976_2_alg».proof.Proof.Gen.ReferenceIdeal
import proofs.«410987_j75797582839976_2_alg».proof.Proof.Gen.Pre_finite_inputs
import proofs.«410987_j75797582839976_2_alg».proof.Proof.KB.Frame
import proofs.«410987_j75797582839976_2_alg».proof.Proof.KI.Value
import proofs.«410987_j75797582839976_2_alg».proof.Proof.KI.Finite
import proofs.«410987_j75797582839976_2_alg».proof.Proof.RefRun
import proofs.«410987_j75797582839976_2_alg».proof.Proof.RefValue
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Heads.frame m ρ

/-- So does its idealization. -/
theorem frame_kernelIdeal : Cert.frame_KernelIdeal := fun m ρ _ => Cert.KernelIdeal.Heads.frame m ρ

/-- The reference runs and leaves its arguments unchanged: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- On finite inputs the two idealized programs end with equal results: both with the specification's functions of the
    real data behind the arguments. -/
theorem algebraic : Cert.algebraic_KernelIdeal_ReferenceIdeal := by
  intro m ρ m' ρ' hpre hagree
  obtain ⟨A, hA⟩ := Cert.KernelIdeal.Heads.exists_args m hpre
  have hA' : ∀ c, Cert.ReferenceIdeal.Heads.IsArgs m' c (A c) := fun c =>
    ⟨(hagree c).1.trans (hA c).hX, (hagree c).2.1.trans (hA c).hpY, (hagree c).2.2.1.trans (hA c).hY,
      (hagree c).2.2.2.1.trans (hA c).hWe, (hagree c).2.2.2.2.1.trans (hA c).hbe, (hagree c).2.2.2.2.2.1.trans (hA c).hWh,
      (hagree c).2.2.2.2.2.2.1.trans (hA c).hbh, (hagree c).2.2.2.2.2.2.2.1.trans (hA c).hWr,
      (hagree c).2.2.2.2.2.2.2.2.trans (hA c).hbr⟩
  exact ⟨fun c => (A c).outLogp, fun c => (A c).outProb,
    Cert.KernelIdeal.Heads.run_value m ρ A hA, Cert.ReferenceIdeal.Heads.run_value m' ρ' A hA'⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
